-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S2x400000 : Shape := ⟨2, ![2, 400000]⟩
abbrev S400000 : Shape := ⟨1, ![400000]⟩
abbrev S120x128 : Shape := ⟨2, ![120, 128]⟩
abbrev S5x128 : Shape := ⟨2, ![5, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩
abbrev S1x400000 : Shape := ⟨2, ![1, 400000]⟩

class Facts : Prop where
  bcast_S_S120x128 : S_.BroadcastsInDim S120x128 (![] : Fin 0 → Fin S120x128.rank)
  reducesTo_S120x128_S_d0_1 : S120x128.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part3 {F : FTy → Type} [FloatOps F] (main_arg1 : IVec S2x400000 32) (main_v48 : IVec S_ 1) (main_v50 : IVec S400000 32) (main_c_18 : IVec S_ 32) : IVec S_ 1 :=
  let main_v51 : IVec S400000 32 := broadcastInDim S400000 ![] bcast_S_S400000 main_c_18
  let main_v52 : IVec S400000 1 := cmpi .sge main_v50 main_v51
  let main_v53 : IVec S1x400000 32 := (extractStridedSlice S1x400000 ![0, 0] · slices_S2x400000_S1x400000_0_0) main_arg1
  let main_v54 : IVec S400000 32 := shapeCast S400000 main_v53 shapeCasts_S1x400000_S400000
  let main_c_19 : IVec S_ 32 := constantI S_ 32 200000#32
  let main_v55 : IVec S400000 32 := broadcastInDim S400000 ![] bcast_S_S400000 main_c_19
  let main_v56 : IVec S400000 1 := cmpi .slt main_v54 main_v55
  let main_v57 : IVec S400000 1 := andi main_v52 main_v56
  let main_c_20 : IVec S_ 1 := constantI S_ 1 1#1
  let main_v58 : IVec S_ 1 := (fun x v => Host.reduce IntOp.andi x v reducesTo_S400000_S_d0 h_S_) main_v57 main_c_20
  let main_v59 : IVec S_ 1 := andi main_v48 main_v58
  main_v59

def fn_part2 {F : FTy → Type} [FloatOps F] (main_arg1 : IVec S2x400000 32) (main_arg11 : FVec F S128 .f32) (main_arg12 : FVec F S128x128 .f32) (main_arg13 : FVec F S128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x400000 32 := (extractStridedSlice S1x400000 ![0, 0] · slices_S2x400000_S1x400000_0_0) main_arg1
  let main_v50 : IVec S400000 32 := shapeCast S400000 main_v49 shapeCasts_S1x400000_S400000
  let main_c_18 : IVec S_ 32 := constantI S_ 32 0#32
  fn_part3 (F := F) main_arg1 main_v48 main_v50 main_c_18

def fn_part1 {F : FTy → Type} [FloatOps F] (main_arg1 : IVec S2x400000 32) (main_arg8 : FVec F S3x128x128 .f32) (main_arg9 : FVec F S3x128 .f32) (main_arg10 : FVec F S128x128 .f32) (main_arg11 : FVec F S128 .f32) (main_arg12 : FVec F S128x128 .f32) (main_arg13 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg8
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg9
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg11 main_arg12 main_arg13 main_v33

def fn {F : FTy → Type} [FloatOps F] (main_arg0 : IVec S200000 32) (main_arg1 : IVec S2x400000 32) (main_arg2 : IVec S400000 32) (main_arg3 : IVec S200000 32) (main_arg4 : FVec F S120x128 .f32) (main_arg5 : FVec F S5x128 .f32) (main_arg6 : FVec F S3x128x128 .f32) (main_arg7 : FVec F S3x128 .f32) (main_arg8 : FVec F S3x128x128 .f32) (main_arg9 : FVec F S3x128 .f32) (main_arg10 : FVec F S128x128 .f32) (main_arg11 : FVec F S128 .f32) (main_arg12 : FVec F S128x128 .f32) (main_arg13 : FVec F S128 .f32) : IVec S_ 1 :=
  let main_v0 : FVec F S120x128 .f32 := Host.absf main_arg4
  let main_cst : FVec F S_ .f32 := constant S_ .f32 0x7F800000#32
  let main_v1 : FVec F S120x128 .f32 := broadcastInDim S120x128 ![] bcast_S_S120x128 main_cst
  let main_v2 : IVec S120x128 1 := cmpf .olt main_v0 main_v1
  let main_c : IVec S_ 1 := constantI S_ 1 1#1
  let main_v3 : IVec S_ 1 := (fun x v => Host.reduce IntOp.andi x v reducesTo_S120x128_S_d0_1 h_S_) main_v2 main_c
  let main_v4 : FVec F S5x128 .f32 := Host.absf main_arg5
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S3x128x128 .f32 := Host.absf main_arg6
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg7
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg8 main_arg9 main_arg10 main_arg11 main_arg12 main_arg13 main_v13 main_v16
-- ==== Kernel.lean ====
abbrev S200000 : Shape := ⟨1, ![200000]⟩
abbrev S2x400000 : Shape := ⟨2, ![2, 400000]⟩
abbrev S400000 : Shape := ⟨1, ![400000]⟩
abbrev S120x128 : Shape := ⟨2, ![120, 128]⟩
abbrev S5x128 : Shape := ⟨2, ![5, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩
abbrev S1x400000 : Shape := ⟨2, ![1, 400000]⟩
abbrev S1 : Shape := ⟨1, ![1]⟩
abbrev S200000x1 : Shape := ⟨2, ![200000, 1]⟩
abbrev S200000x128 : Shape := ⟨2, ![200000, 128]⟩
abbrev S4000x1 : Shape := ⟨2, ![4000, 1]⟩
abbrev S4000x128 : Shape := ⟨2, ![4000, 128]⟩
abbrev S400000x1 : Shape := ⟨2, ![400000, 1]⟩
abbrev S400000x128 : Shape := ⟨2, ![400000, 128]⟩
abbrev S1x1 : Shape := ⟨2, ![1, 1]⟩
abbrev S1x128x128 : Shape := ⟨3, ![1, 128, 128]⟩
abbrev S1x128 : Shape := ⟨2, ![1, 128]⟩
abbrev S8192x128 : Shape := ⟨2, ![8192, 128]⟩
abbrev S8192 : Shape := ⟨1, ![8192]⟩
abbrev S8192x1 : Shape := ⟨2, ![8192, 1]⟩
abbrev S2048x128 : Shape := ⟨2, ![2048, 128]⟩

abbrev nBuf : Space → Nat
  | .hbm => 193
  | .vmem => 48
  | .smem => 0
  | _ => 0

abbrev hbmTy0_0 (i : Nat) : BufTy := match i % 128 with
  | 0 => ⟨S200000, .i32⟩
  | 1 => ⟨S2x400000, .i32⟩
  | 2 => ⟨S400000, .i32⟩
  | 3 => ⟨S200000, .i32⟩
  | 4 => ⟨S120x128, .f32⟩
  | 5 => ⟨S5x128, .f32⟩
  | 6 => ⟨S3x128x128, .f32⟩
  | 7 => ⟨S3x128, .f32⟩
  | 8 => ⟨S3x128x128, .f32⟩
  | 9 => ⟨S3x128, .f32⟩
  | 10 => ⟨S128x128, .f32⟩
  | 11 => ⟨S128, .f32⟩
  | 12 => ⟨S128x128, .f32⟩
  | 13 => ⟨S128, .f32⟩
  | 14 => ⟨S_, .i32⟩
  | 15 => ⟨S_, .i32⟩
  | 16 => ⟨S_, .i32⟩
  | 17 => ⟨S200000, .i32⟩
  | 18 => ⟨S200000, .i32⟩
  | 19 => ⟨S_, .i32⟩
  | 20 => ⟨S200000, .i32⟩
  | 21 => ⟨S200000, .i32⟩
  | 22 => ⟨S_, .i32⟩
  | 23 => ⟨S_, .i32⟩
  | 24 => ⟨S_, .i32⟩
  | 25 => ⟨S400000, .i32⟩
  | 26 => ⟨S400000, .i32⟩
  | 27 => ⟨S_, .i32⟩
  | 28 => ⟨S400000, .i32⟩
  | 29 => ⟨S400000, .i32⟩
  | 30 => ⟨S1x400000, .i32⟩
  | 31 => ⟨S400000, .i32⟩
  | 32 => ⟨S1x400000, .i32⟩
  | 33 => ⟨S400000, .i32⟩
  | 34 => ⟨S_, .f32⟩
  | 35 => ⟨S128x128, .f32⟩
  | 36 => ⟨S_, .i32⟩
  | 37 => ⟨S1, .i32⟩
  | 38 => ⟨S128x128, .f32⟩
  | 39 => ⟨S200000x1, .i32⟩
  | 40 => ⟨S200000x128, .f32⟩
  | 41 => ⟨S_, .f32⟩
  | 42 => ⟨S128x128, .f32⟩
  | 43 => ⟨S_, .i32⟩
  | 44 => ⟨S1, .i32⟩
  | 45 => ⟨S128x128, .f32⟩
  | 46 => ⟨S400000x1, .i32⟩
  | 47 => ⟨S400000x128, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S1, .i32⟩
  | 57 => ⟨S_, .i32⟩
  | 58 => ⟨S400000x1, .i32⟩
  | 59 => ⟨S400000x1, .i1⟩
  | 60 => ⟨S1x1, .i32⟩
  | 61 => ⟨S400000x1, .i32⟩
  | 62 => ⟨S400000x1, .i1⟩
  | 63 => ⟨S400000x1, .i1⟩
  | 64 => ⟨S_, .i1⟩
  | 65 => ⟨S400000, .i1⟩
  | 66 => ⟨S400000x128, .f32⟩
  | 67 => ⟨S400000x128, .i1⟩
  | 68 => ⟨S_, .f32⟩
  | 69 => ⟨S400000x128, .f32⟩
  | 70 => ⟨S400000x128, .f32⟩
  | 71 => ⟨S400000x128, .f32⟩
  | 72 => ⟨S_, .f32⟩
  | 73 => ⟨S400000x128, .f32⟩
  | 74 => ⟨S400000x128, .f32⟩
  | 75 => ⟨S_, .f32⟩
  | 76 => ⟨S200000x128, .f32⟩
  | 77 => ⟨S400000x1, .i32⟩
  | 78 => ⟨S200000x128, .f32⟩
  | 79 => ⟨S1x128x128, .f32⟩
  | 80 => ⟨S128x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128, .f32⟩
  | 89 => ⟨S200000x128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S1, .i32⟩
  | 99 => ⟨S_, .i32⟩
  | 100 => ⟨S400000x1, .i32⟩
  | 101 => ⟨S400000x1, .i1⟩
  | 102 => ⟨S1x1, .i32⟩
  | 103 => ⟨S400000x1, .i32⟩
  | 104 => ⟨S400000x1, .i1⟩
  | 105 => ⟨S400000x1, .i1⟩
  | 106 => ⟨S_, .i1⟩
  | 107 => ⟨S400000, .i1⟩
  | 108 => ⟨S400000x128, .f32⟩
  | 109 => ⟨S400000x128, .i1⟩
  | 110 => ⟨S_, .f32⟩
  | 111 => ⟨S400000x128, .f32⟩
  | 112 => ⟨S400000x128, .f32⟩
  | 113 => ⟨S400000x128, .f32⟩
  | 114 => ⟨S_, .f32⟩
  | 115 => ⟨S400000x128, .f32⟩
  | 116 => ⟨S400000x128, .f32⟩
  | 117 => ⟨S_, .f32⟩
  | 118 => ⟨S200000x128, .f32⟩
  | 119 => ⟨S400000x1, .i32⟩
  | 120 => ⟨S200000x128, .f32⟩
  | 121 => ⟨S1x128x128, .f32⟩
  | 122 => ⟨S128x128, .f32⟩
  | 123 => ⟨S1x128, .f32⟩
  | 124 => ⟨S128, .f32⟩
  | 125 => ⟨S1x128x128, .f32⟩
  | 126 => ⟨S128x128, .f32⟩
  | 127 => ⟨S1x128, .f32⟩
  | _ => ⟨S200000, .i32⟩

abbrev hbmTy0_1 (i : Nat) : BufTy := match i % 128 with
  | 0 => ⟨S128, .f32⟩
  | 1 => ⟨S1x128, .f32⟩
  | 2 => ⟨S1x128, .f32⟩
  | 3 => ⟨S200000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S1, .i32⟩
  | 13 => ⟨S_, .i32⟩
  | 14 => ⟨S400000x1, .i32⟩
  | 15 => ⟨S400000x1, .i1⟩
  | 16 => ⟨S1x1, .i32⟩
  | 17 => ⟨S400000x1, .i32⟩
  | 18 => ⟨S400000x1, .i1⟩
  | 19 => ⟨S400000x1, .i1⟩
  | 20 => ⟨S_, .i1⟩
  | 21 => ⟨S400000, .i1⟩
  | 22 => ⟨S400000x128, .f32⟩
  | 23 => ⟨S400000x128, .i1⟩
  | 24 => ⟨S_, .f32⟩
  | 25 => ⟨S400000x128, .f32⟩
  | 26 => ⟨S400000x128, .f32⟩
  | 27 => ⟨S400000x128, .f32⟩
  | 28 => ⟨S_, .f32⟩
  | 29 => ⟨S400000x128, .f32⟩
  | 30 => ⟨S400000x128, .f32⟩
  | 31 => ⟨S_, .f32⟩
  | 32 => ⟨S200000x128, .f32⟩
  | 33 => ⟨S400000x1, .i32⟩
  | 34 => ⟨S200000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S1x128, .f32⟩
  | 42 => ⟨S128, .f32⟩
  | 43 => ⟨S1x128, .f32⟩
  | 44 => ⟨S1x128, .f32⟩
  | 45 => ⟨S200000x128, .f32⟩
  | 46 => ⟨S_, .f32⟩
  | 47 => ⟨S8192x128, .f32⟩
  | 48 => ⟨S200000x1, .i32⟩
  | 49 => ⟨S8192x128, .f32⟩
  | 50 => ⟨S_, .f32⟩
  | 51 => ⟨S200000, .f32⟩
  | 52 => ⟨S_, .f32⟩
  | 53 => ⟨S8192, .f32⟩
  | 54 => ⟨S200000x1, .i32⟩
  | 55 => ⟨S8192, .f32⟩
  | 56 => ⟨S_, .f32⟩
  | 57 => ⟨S8192, .f32⟩
  | 58 => ⟨S8192, .f32⟩
  | 59 => ⟨S8192x1, .f32⟩
  | 60 => ⟨S8192x128, .f32⟩
  | 61 => ⟨S8192x128, .f32⟩
  | 62 => ⟨S1x128, .f32⟩
  | 63 => ⟨S1x128, .f32⟩
  | 64 => ⟨S8192x128, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | .local _ .vmem, ⟨0, _⟩ => ⟨S4000x1, .i32⟩
  | .local _ .vmem, ⟨1, _⟩ => ⟨S4000x1, .i32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x1, .i32⟩
  | .local _ .vmem, ⟨6, _⟩ => ⟨S4000x1, .i32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S2048x128, .f32⟩
  | .local _ .vmem, ⟨41, _⟩ => ⟨S2048x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_c_3 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_4 : Ref sig .tc := ⟨.hbm, 41, rfl⟩
abbrev main_v11 : Ref sig .tc := ⟨.hbm, 42, rfl⟩
abbrev main_c_5 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v16 : Ref sig .tc := ⟨.hbm, 70, rfl⟩
abbrev main_v17 : Ref sig .tc := ⟨.hbm, 71, rfl⟩
abbrev main_call3_cst : Ref sig .tc := ⟨.hbm, 72, rfl⟩
abbrev main_call3_v0 : Ref sig .tc := ⟨.hbm, 73, rfl⟩
abbrev main_v18 : Ref sig .tc := ⟨.hbm, 74, rfl⟩
abbrev main_cst_6 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_call4_cst : Ref sig .tc := ⟨.hbm, 110, rfl⟩
abbrev main_call4_v15 : Ref sig .tc := ⟨.hbm, 111, rfl⟩
abbrev main_v33 : Ref sig .tc := ⟨.hbm, 112, rfl⟩
abbrev main_v34 : Ref sig .tc := ⟨.hbm, 113, rfl⟩
abbrev main_call5_cst : Ref sig .tc := ⟨.hbm, 114, rfl⟩
abbrev main_call5_v0 : Ref sig .tc := ⟨.hbm, 115, rfl⟩
abbrev main_v35 : Ref sig .tc := ⟨.hbm, 116, rfl⟩
abbrev main_cst_7 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_call6_c : Ref sig .tc := ⟨.hbm, 132, rfl⟩
abbrev main_call6_v0 : Ref sig .tc := ⟨.hbm, 133, rfl⟩
abbrev main_call6_v1 : Ref sig .tc := ⟨.hbm, 134, rfl⟩
abbrev main_call6_c_0 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_call6_v5 : Ref sig .tc := ⟨.hbm, 139, rfl⟩
abbrev main_call6_c_1 : Ref sig .tc := ⟨.hbm, 140, rfl⟩
abbrev main_call6_c_2 : Ref sig .tc := ⟨.hbm, 141, rfl⟩
abbrev main_call6_v6 : Ref sig .tc := ⟨.hbm, 142, rfl⟩
abbrev main_call6_v7 : Ref sig .tc := ⟨.hbm, 143, rfl⟩
abbrev main_call6_v8 : Ref sig .tc := ⟨.hbm, 144, rfl⟩
abbrev main_call6_v9 : Ref sig .tc := ⟨.hbm, 145, rfl⟩
abbrev main_call6_v10 : Ref sig .tc := ⟨.hbm, 146, rfl⟩
abbrev main_call6_v11 : Ref sig .tc := ⟨.hbm, 147, rfl⟩
abbrev main_call6_c_3 : Ref sig .tc := ⟨.hbm, 148, rfl⟩
abbrev main_call6_v12 : Ref sig .tc := ⟨.hbm, 149, rfl⟩
abbrev main_call6_v13 : Ref sig .tc := ⟨.hbm, 150, rfl⟩
abbrev main_call6_v14 : Ref sig .tc := ⟨.hbm, 151, rfl⟩
abbrev main_call6_cst : Ref sig .tc := ⟨.hbm, 152, rfl⟩
abbrev main_call6_v15 : Ref sig .tc := ⟨.hbm, 153, rfl⟩
abbrev main_v50 : Ref sig .tc := ⟨.hbm, 154, rfl⟩
abbrev main_v51 : Ref sig .tc := ⟨.hbm, 155, rfl⟩
abbrev main_call7_cst : Ref sig .tc := ⟨.hbm, 156, rfl⟩
abbrev main_call7_v0 : Ref sig .tc := ⟨.hbm, 157, rfl⟩
abbrev main_v52 : Ref sig .tc := ⟨.hbm, 158, rfl⟩
abbrev main_cst_8 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_cst_9 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_cst_10 : Ref sig .tc := ⟨.hbm, 178, rfl⟩
abbrev main_v70 : Ref sig .tc := ⟨.hbm, 179, rfl⟩
abbrev main_cst_11 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_cst_12 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_v79 : Ref sig .tc := ⟨.hbm, 190, rfl⟩
abbrev main_v80 : Ref sig .tc := ⟨.hbm, 191, rfl⟩
abbrev main_v81 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S200000 : S_.BroadcastsInDim S200000 (![] : Fin 0 → Fin S200000.rank)
  bcast_S_S400000 : S_.BroadcastsInDim S400000 (![] : Fin 0 → Fin S400000.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S128x128 : S_.BroadcastsInDim S128x128 (![] : Fin 0 → Fin S128x128.rank)
  bcast_S_S1 : S_.BroadcastsInDim S1 (![] : Fin 0 → Fin S1.rank)
  shapeCasts_S200000_S200000x1 : S200000.ShapeCasts S200000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x128_S4000x128_0_0 : ∀ a, (![0, 0] : Fin 2 → Nat) a + S4000x128.size a ≤ S4000x128.size a
  h_S4000x128 : 0 < S4000x128.numel
  shapeCasts_S400000_S400000x1 : S400000.ShapeCasts S400000x1
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S8192x128 : S_.BroadcastsInDim S8192x128 (![] : Fin 0 → Fin S8192x128.rank)
  bcast_S200000_S200000x1_0 : S200000.BroadcastsInDim S200000x1 (![0] : Fin 1 → Fin S200000x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  scatter_S128x128_S1_S120x128_01_n_0_0_wf : ScatterDims.WF S128x128 S1 S120x128 [0, 1] [] [0] 0
  dot_S4000x128_S128x128_S4000x128_1_0_0_1_n_n_wf : DotDims.WF S4000x128 S128x128 S4000x128 [1] [0] [0] [1] [] []
  scatter_S128x128_S1_S5x128_01_n_0_0_wf : ScatterDims.WF S128x128 S1 S5x128 [0, 1] [] [0] 0
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  scatter_S8192x128_S200000x1_S200000x128_1_0_0_1_wf : ScatterDims.WF S8192x128 S200000x1 S200000x128 [1] [0] [0] 1
  scatter_S8192_S200000x1_S200000_n_0_0_1_wf : ScatterDims.WF S8192 S200000x1 S200000 [] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S200000x1.size a
  hwx0_0 : ∀ i : grid0.Coords, EltTy.bits .i32 = 32 ∨ (Rect.block (s := S200000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S400000x1.size a
  hwx1_0 : ∀ i : grid1.Coords, EltTy.bits .i32 = 32 ∨ (Rect.block (s := S400000x1) S4000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S400000x128.size a
  hwx1_2 : ∀ i : grid1.Coords, EltTy.bits .f32 = 32 ∨ (Rect.block (s := S400000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S200000x128.size a
  hwx2_6 : ∀ i : grid2.Coords, EltTy.bits .f32 = 32 ∨ (Rect.block (s := S200000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S200000x128.size a
  hwx3_6 : ∀ i : grid3.Coords, EltTy.bits .f32 = 32 ∨ (Rect.block (s := S200000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S200000x128.size a
  hwx4_1 : ∀ i : grid4.Coords, EltTy.bits .f32 = 32 ∨ (Rect.block (s := S200000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S200000x128.size a
  hwx4_6 : ∀ i : grid4.Coords, EltTy.bits .f32 = 32 ∨ (Rect.block (s := S200000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S8192x128.size a
  hwx5_0 : ∀ i : grid5.Coords, EltTy.bits .f32 = 32 ∨ (Rect.block (s := S8192x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x128.size a ≤ S8192x128.size a
  hwx5_5 : ∀ i : grid5.Coords, EltTy.bits .f32 = 32 ∨ (Rect.block (s := S8192x128) S2048x128.size (cc5_transform_5 i) (hinb5_5 i)).WholeWords (EltTy.packing .f32)

variable [Facts₀]

def scatter_S128x128_S1_S120x128_01_n_0_0 : ScatterDims S128x128 S1 S120x128 where
  updateWindowDims := [0, 1]
  insertedWindowDims := []
  scatterDimsToOperandDims := [0]
  indexVectorDim := 0
  wf := scatter_S128x128_S1_S120x128_01_n_0_0_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S128x128_S1_S5x128_01_n_0_0 : ScatterDims S128x128 S1 S5x128 where
  updateWindowDims := [0, 1]
  insertedWindowDims := []
  scatterDimsToOperandDims := [0]
  indexVectorDim := 0
  wf := scatter_S128x128_S1_S5x128_01_n_0_0_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def scatter_S8192_S200000x1_S200000_n_0_0_1 : ScatterDims S8192 S200000x1 S200000 where
  updateWindowDims := []
  insertedWindowDims := [0]
  scatterDimsToOperandDims := [0]
  indexVectorDim := 1
  wf := scatter_S8192_S200000x1_S200000_n_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v9) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v49) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v78) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S2048x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000 : Shape := ⟨1, ![200000]⟩
abbrev S2x400000 : Shape := ⟨2, ![2, 400000]⟩
abbrev S400000 : Shape := ⟨1, ![400000]⟩
abbrev S120x128 : Shape := ⟨2, ![120, 128]⟩
abbrev S5x128 : Shape := ⟨2, ![5, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩
abbrev S200000x1 : Shape := ⟨2, ![200000, 1]⟩
abbrev S200000x128 : Shape := ⟨2, ![200000, 128]⟩
abbrev S400000x1 : Shape := ⟨2, ![400000, 1]⟩
abbrev S400000x128 : Shape := ⟨2, ![400000, 128]⟩
abbrev S1x400000 : Shape := ⟨2, ![1, 400000]⟩
abbrev S1x128x128 : Shape := ⟨3, ![1, 128, 128]⟩
abbrev S1x128 : Shape := ⟨2, ![1, 128]⟩
abbrev S8192x128 : Shape := ⟨2, ![8192, 128]⟩
abbrev S8192x1 : Shape := ⟨2, ![8192, 1]⟩

abbrev nBuf : Space → Nat
  | .hbm => 195
  | .vmem => 0
  | .smem => 0
  | _ => 0

abbrev hbmTy0_0 (i : Nat) : BufTy := match i % 128 with
  | 0 => ⟨S200000, .i32⟩
  | 1 => ⟨S2x400000, .i32⟩
  | 2 => ⟨S400000, .i32⟩
  | 3 => ⟨S200000, .i32⟩
  | 4 => ⟨S120x128, .f32⟩
  | 5 => ⟨S5x128, .f32⟩
  | 6 => ⟨S3x128x128, .f32⟩
  | 7 => ⟨S3x128, .f32⟩
  | 8 => ⟨S3x128x128, .f32⟩
  | 9 => ⟨S3x128, .f32⟩
  | 10 => ⟨S128x128, .f32⟩
  | 11 => ⟨S128, .f32⟩
  | 12 => ⟨S128x128, .f32⟩
  | 13 => ⟨S128, .f32⟩
  | 14 => ⟨S_, .i32⟩
  | 15 => ⟨S_, .i32⟩
  | 16 => ⟨S_, .i32⟩
  | 17 => ⟨S200000, .i32⟩
  | 18 => ⟨S200000, .i32⟩
  | 19 => ⟨S_, .i32⟩
  | 20 => ⟨S200000, .i32⟩
  | 21 => ⟨S200000, .i32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S200000x128, .f32⟩
  | 31 => ⟨S_, .i32⟩
  | 32 => ⟨S_, .i32⟩
  | 33 => ⟨S_, .i32⟩
  | 34 => ⟨S400000, .i32⟩
  | 35 => ⟨S400000, .i32⟩
  | 36 => ⟨S_, .i32⟩
  | 37 => ⟨S400000, .i32⟩
  | 38 => ⟨S400000, .i32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000x128, .f32⟩
  | 48 => ⟨S1x400000, .i32⟩
  | 49 => ⟨S400000, .i32⟩
  | 50 => ⟨S1x400000, .i32⟩
  | 51 => ⟨S400000, .i32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x128, .f32⟩
  | 61 => ⟨S400000x128, .f32⟩
  | 62 => ⟨S_, .f32⟩
  | 63 => ⟨S400000x128, .f32⟩
  | 64 => ⟨S400000x128, .f32⟩
  | 65 => ⟨S_, .f32⟩
  | 66 => ⟨S200000x128, .f32⟩
  | 67 => ⟨S400000x1, .i32⟩
  | 68 => ⟨S200000x128, .f32⟩
  | 69 => ⟨S200000x128, .f32⟩
  | 70 => ⟨S1x128x128, .f32⟩
  | 71 => ⟨S128x128, .f32⟩
  | 72 => ⟨S200000x128, .f32⟩
  | 73 => ⟨S1x128, .f32⟩
  | 74 => ⟨S128, .f32⟩
  | 75 => ⟨S1x128, .f32⟩
  | 76 => ⟨S200000x128, .f32⟩
  | 77 => ⟨S200000x128, .f32⟩
  | 78 => ⟨S_, .f32⟩
  | 79 => ⟨S200000x128, .f32⟩
  | 80 => ⟨S200000x128, .f32⟩
  | 81 => ⟨S1x128x128, .f32⟩
  | 82 => ⟨S128x128, .f32⟩
  | 83 => ⟨S200000x128, .f32⟩
  | 84 => ⟨S1x128, .f32⟩
  | 85 => ⟨S128, .f32⟩
  | 86 => ⟨S1x128, .f32⟩
  | 87 => ⟨S200000x128, .f32⟩
  | 88 => ⟨S200000x128, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x128, .f32⟩
  | 98 => ⟨S400000x128, .f32⟩
  | 99 => ⟨S_, .f32⟩
  | 100 => ⟨S400000x128, .f32⟩
  | 101 => ⟨S400000x128, .f32⟩
  | 102 => ⟨S_, .f32⟩
  | 103 => ⟨S200000x128, .f32⟩
  | 104 => ⟨S400000x1, .i32⟩
  | 105 => ⟨S200000x128, .f32⟩
  | 106 => ⟨S200000x128, .f32⟩
  | 107 => ⟨S1x128x128, .f32⟩
  | 108 => ⟨S128x128, .f32⟩
  | 109 => ⟨S200000x128, .f32⟩
  | 110 => ⟨S1x128, .f32⟩
  | 111 => ⟨S128, .f32⟩
  | 112 => ⟨S1x128, .f32⟩
  | 113 => ⟨S200000x128, .f32⟩
  | 114 => ⟨S200000x128, .f32⟩
  | 115 => ⟨S_, .f32⟩
  | 116 => ⟨S200000x128, .f32⟩
  | 117 => ⟨S200000x128, .f32⟩
  | 118 => ⟨S1x128x128, .f32⟩
  | 119 => ⟨S128x128, .f32⟩
  | 120 => ⟨S200000x128, .f32⟩
  | 121 => ⟨S1x128, .f32⟩
  | 122 => ⟨S128, .f32⟩
  | 123 => ⟨S1x128, .f32⟩
  | 124 => ⟨S200000x128, .f32⟩
  | 125 => ⟨S200000x128, .f32⟩
  | 126 => ⟨S_, .i32⟩
  | 127 => ⟨S400000, .i32⟩
  | _ => ⟨S200000, .i32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x128, .f32⟩
  | 7 => ⟨S400000x128, .f32⟩
  | 8 => ⟨S_, .f32⟩
  | 9 => ⟨S400000x128, .f32⟩
  | 10 => ⟨S400000x128, .f32⟩
  | 11 => ⟨S_, .f32⟩
  | 12 => ⟨S200000x128, .f32⟩
  | 13 => ⟨S400000x1, .i32⟩
  | 14 => ⟨S200000x128, .f32⟩
  | 15 => ⟨S200000x128, .f32⟩
  | 16 => ⟨S1x128x128, .f32⟩
  | 17 => ⟨S128x128, .f32⟩
  | 18 => ⟨S200000x128, .f32⟩
  | 19 => ⟨S1x128, .f32⟩
  | 20 => ⟨S128, .f32⟩
  | 21 => ⟨S1x128, .f32⟩
  | 22 => ⟨S200000x128, .f32⟩
  | 23 => ⟨S200000x128, .f32⟩
  | 24 => ⟨S_, .f32⟩
  | 25 => ⟨S200000x128, .f32⟩
  | 26 => ⟨S200000x128, .f32⟩
  | 27 => ⟨S1x128x128, .f32⟩
  | 28 => ⟨S128x128, .f32⟩
  | 29 => ⟨S200000x128, .f32⟩
  | 30 => ⟨S1x128, .f32⟩
  | 31 => ⟨S128, .f32⟩
  | 32 => ⟨S1x128, .f32⟩
  | 33 => ⟨S200000x128, .f32⟩
  | 34 => ⟨S200000x128, .f32⟩
  | 35 => ⟨S_, .f32⟩
  | 36 => ⟨S8192x128, .f32⟩
  | 37 => ⟨S200000x1, .i32⟩
  | 38 => ⟨S8192x128, .f32⟩
  | 39 => ⟨S_, .f32⟩
  | 40 => ⟨S200000x1, .f32⟩
  | 41 => ⟨S_, .f32⟩
  | 42 => ⟨S8192x1, .f32⟩
  | 43 => ⟨S200000x1, .i32⟩
  | 44 => ⟨S8192x1, .f32⟩
  | 45 => ⟨S_, .f32⟩
  | 46 => ⟨S8192x1, .f32⟩
  | 47 => ⟨S8192x1, .f32⟩
  | 48 => ⟨S8192x128, .f32⟩
  | 49 => ⟨S8192x128, .f32⟩
  | 50 => ⟨S8192x128, .f32⟩
  | 51 => ⟨S1x128, .f32⟩
  | 52 => ⟨S8192x128, .f32⟩
  | 53 => ⟨S8192x128, .f32⟩
  | 54 => ⟨S8192x128, .f32⟩
  | 55 => ⟨S8192x128, .f32⟩
  | 56 => ⟨S_, .f32⟩
  | 57 => ⟨S8192x128, .f32⟩
  | 58 => ⟨S8192x128, .f32⟩
  | 59 => ⟨S_, .f32⟩
  | 60 => ⟨S8192x128, .f32⟩
  | 61 => ⟨S8192x128, .f32⟩
  | 62 => ⟨S8192x128, .f32⟩
  | 63 => ⟨S8192x128, .f32⟩
  | 64 => ⟨S1x128, .f32⟩
  | 65 => ⟨S8192x128, .f32⟩
  | 66 => ⟨S8192x128, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_c_1 : Ref sig .tc := ⟨.hbm, 22, rfl⟩
abbrev main_v1 : Ref sig .tc := ⟨.hbm, 23, rfl⟩
abbrev main_v2 : Ref sig .tc := ⟨.hbm, 24, rfl⟩
abbrev main_c_2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_3 : Ref sig .tc := ⟨.hbm, 31, rfl⟩
abbrev main_c_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v8 : Ref sig .tc := ⟨.hbm, 38, rfl⟩
abbrev main_c_5 : Ref sig .tc := ⟨.hbm, 39, rfl⟩
abbrev main_v9 : Ref sig .tc := ⟨.hbm, 40, rfl⟩
abbrev main_v10 : Ref sig .tc := ⟨.hbm, 41, rfl⟩
abbrev main_c_6 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_7 : Ref sig .tc := ⟨.hbm, 52, rfl⟩
abbrev main_v20 : Ref sig .tc := ⟨.hbm, 53, rfl⟩
abbrev main_v21 : Ref sig .tc := ⟨.hbm, 54, rfl⟩
abbrev main_c_8 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call2_cst : Ref sig .tc := ⟨.hbm, 62, rfl⟩
abbrev main_call2_v0 : Ref sig .tc := ⟨.hbm, 63, rfl⟩
abbrev main_v28 : Ref sig .tc := ⟨.hbm, 64, rfl⟩
abbrev main_cst : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call3_cst : Ref sig .tc := ⟨.hbm, 78, rfl⟩
abbrev main_call3_v0 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_9 : Ref sig .tc := ⟨.hbm, 89, rfl⟩
abbrev main_v50 : Ref sig .tc := ⟨.hbm, 90, rfl⟩
abbrev main_v51 : Ref sig .tc := ⟨.hbm, 91, rfl⟩
abbrev main_c_10 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call4_cst : Ref sig .tc := ⟨.hbm, 99, rfl⟩
abbrev main_call4_v0 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_call5_cst : Ref sig .tc := ⟨.hbm, 115, rfl⟩
abbrev main_call5_v0 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_12 : Ref sig .tc := ⟨.hbm, 126, rfl⟩
abbrev main_v80 : Ref sig .tc := ⟨.hbm, 127, rfl⟩
abbrev main_v81 : Ref sig .tc := ⟨.hbm, 128, rfl⟩
abbrev main_c_13 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call6_cst : Ref sig .tc := ⟨.hbm, 136, rfl⟩
abbrev main_call6_v0 : Ref sig .tc := ⟨.hbm, 137, rfl⟩
abbrev main_v88 : Ref sig .tc := ⟨.hbm, 138, rfl⟩
abbrev main_cst_14 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_call7_cst : Ref sig .tc := ⟨.hbm, 152, rfl⟩
abbrev main_call7_v0 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_15 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_16 : Ref sig .tc := ⟨.hbm, 167, rfl⟩
abbrev main_v113 : Ref sig .tc := ⟨.hbm, 168, rfl⟩
abbrev main_cst_17 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_18 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000x128 : S_.BroadcastsInDim S400000x128 (![] : Fin 0 → Fin S400000x128.rank)
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S8192x128 : S_.BroadcastsInDim S8192x128 (![] : Fin 0 → Fin S8192x128.rank)
  bcast_S_S200000x1 : S_.BroadcastsInDim S200000x1 (![] : Fin 0 → Fin S200000x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  gather_S120x128_S200000x1_S200000x128_1_0_n_n_0_1_1128_wf : GatherDims.WF S120x128 S200000x1 S200000x128 [1] [0] [] [0] [] 1 ![1, 128]
  gather_S5x128_S400000x1_S400000x128_1_0_n_n_0_1_1128_wf : GatherDims.WF S5x128 S400000x1 S400000x128 [1] [0] [] [0] [] 1 ![1, 128]
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S200000x128_S128x128_S200000x128_1_0_0_1_n_n_wf : DotDims.WF S200000x128 S128x128 S200000x128 [1] [0] [0] [1] [] []
  scatter_S8192x128_S200000x1_S200000x128_1_0_0_1_wf : ScatterDims.WF S8192x128 S200000x1 S200000x128 [1] [0] [0] 1
  scatter_S8192x1_S200000x1_S200000x1_1_0_0_1_wf : ScatterDims.WF S8192x1 S200000x1 S200000x1 [1] [0] [0] 1
  dot_S8192x128_S128x128_S8192x128_1_0_0_1_n_n_wf : DotDims.WF S8192x128 S128x128 S8192x128 [1] [0] [0] [1] [] []

variable [Facts₀]

def gather_S120x128_S200000x1_S200000x128_1_0_n_n_0_1_1128 : GatherDims S120x128 S200000x1 S200000x128 where
  offsetDims := [1]
  collapsedSliceDims := [0]
  operandBatchingDims := []
  startIndicesBatchingDims := []
  startIndexMap := [0]
  indexVectorDim := 1
  sliceSizes := ![1, 128]
  wf := gather_S120x128_S200000x1_S200000x128_1_0_n_n_0_1_1128_wf
def gather_S5x128_S400000x1_S400000x128_1_0_n_n_0_1_1128 : GatherDims S5x128 S400000x1 S400000x128 where
  offsetDims := [1]
  collapsedSliceDims := [0]
  operandBatchingDims := []
  startIndicesBatchingDims := []
  startIndexMap := [0]
  indexVectorDim := 1
  sliceSizes := ![1, 128]
  wf := gather_S5x128_S400000x1_S400000x128_1_0_n_n_0_1_1128_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S8192x128_S200000x1_S200000x128_1_0_0_1 : ScatterDims S8192x128 S200000x1 S200000x128 where
  updateWindowDims := [1]
  insertedWindowDims := [0]
  scatterDimsToOperandDims := [0]
  indexVectorDim := 1
  wf := scatter_S8192x128_S200000x1_S200000x128_1_0_0_1_wf
def scatter_S8192x1_S200000x1_S200000x1_1_0_0_1 : ScatterDims S8192x1 S200000x1 S200000x1 where
  updateWindowDims := [1]
  insertedWindowDims := [0]
  scatterDimsToOperandDims := [0]
  indexVectorDim := 1
  wf := scatter_S8192x1_S200000x1_S200000x1_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Spec.lean ====
/-
  The three kernel bodies as whole-array functions over the extended reals.

  * A row lookup by comparison: entry (i, h) is the sum over the 128 row numbers v of [id_i = v] · table(v, h).
  * One message-passing layer's dense part: entry (i, q) is
      (Σ_k max (Σ_k' (x(i,k') + agg(i,k')) · w1(k',k) + b1(k), 0) · w2(k,q)) + b2(q).
  * The read-out projection: with t(i,k) = Σ_k' g(i,k') · w1(k',k) + b1(k),
      entry (i, q) is (Σ_k t(i,k) · σ(t(i,k)) · w2(k,q)) + b2(q), σ the logistic function.
-/
import proofs.«414959_j88416196756193_1_alg».proof.KernelIdeal
import Idealize.ShloMosaic.PureOps.Ideal
import Idealize.ShloMosaic.Lib.ValueIdx

noncomputable section

namespace Cert.Gnn

open Idealize.ShloMosaic Idealize.ShloMosaic.ValueIdx Cert.KernelIdeal

/-- [id = v] as an extended real. -/
def hot (id : BitVec 32) (v : Fin 128) : EReal := if id = BitVec.ofNat 32 v.val then 1 else 0

/-- Row lookup by comparison over 200000 ids. -/
def lookup200k (ids : IVec S200000x1 32) (tbl : FVec Ideal S128x128 .f32) : FVec Ideal S200000x128 .f32 :=
  fun j => ∑ v : Fin 128, hot (ids (ix2 (j 0) (0 : Fin 1))) v * tbl (ix2 v (j 1))

/-- Row lookup by comparison over 400000 ids. -/
def lookup400k (ids : IVec S400000x1 32) (tbl : FVec Ideal S128x128 .f32) : FVec Ideal S400000x128 .f32 :=
  fun j => ∑ v : Fin 128, hot (ids (ix2 (j 0) (0 : Fin 1))) v * tbl (ix2 v (j 1))

/-- The hidden activation of a layer at node i, unit k. -/
def hidden (x agg : FVec Ideal S200000x128 .f32) (w1 : FVec Ideal S128x128 .f32) (b1 : FVec Ideal S1x128 .f32)
    (i : Fin 200000) (k : Fin 128) : EReal :=
  max ((∑ k' : Fin 128, (x (ix2 i k') + agg (ix2 i k')) * w1 (ix2 k' k)) + b1 (ix2 (0 : Fin 1) k)) 0

/-- One layer's dense part over all 200000 nodes. -/
def mlpRows (x agg : FVec Ideal S200000x128 .f32) (w1 : FVec Ideal S128x128 .f32) (b1 : FVec Ideal S1x128 .f32)
    (w2 : FVec Ideal S128x128 .f32) (b2 : FVec Ideal S1x128 .f32) : FVec Ideal S200000x128 .f32 :=
  fun j => (∑ k : Fin 128, hidden x agg w1 b1 (j 0) k * w2 (ix2 k (j 1))) + b2 (ix2 (0 : Fin 1) (j 1))

/-- The projection's pre-activation at graph i, unit k. -/
def preact (g : FVec Ideal S8192x128 .f32) (w1 : FVec Ideal S128x128 .f32) (b1 : FVec Ideal S1x128 .f32)
    (i : Fin 8192) (k : Fin 128) : EReal :=
  (∑ k' : Fin 128, g (ix2 i k') * w1 (ix2 k' k)) + b1 (ix2 (0 : Fin 1) k)

/-- t · σ(t). -/
def silu (t : EReal) : EReal := t * Ideal.logistic t

/-- The read-out projection over all 8192 graphs. -/
def projRows (g : FVec Ideal S8192x128 .f32) (w1 : FVec Ideal S128x128 .f32) (b1 : FVec Ideal S1x128 .f32)
    (w2 : FVec Ideal S128x128 .f32) (b2 : FVec Ideal S1x128 .f32) : FVec Ideal S8192x128 .f32 :=
  fun j => (∑ k : Fin 128, silu (preact g w1 b1 (j 0) k) * w2 (ix2 k (j 1))) + b2 (ix2 (0 : Fin 1) (j 1))

end Cert.Gnn

end
-- ==== Proof.KStages.lean ====
/-
  The kernel program's value, stage by stage, as functions of its fourteen argument arrays.

  Node features start as looked-up rows of the atom table (padded with zero rows to 128) at the clipped atom types;
  edge features are looked-up rows of the bond table at the clipped bond types. Each of the three layers gathers the
  source node's features along every edge (reading a fill value where a source index falls outside the node range),
  adds the edge features, takes the positive part, sums the messages into their destination nodes, and applies the
  layer's dense part. The read-out sums node features per graph, divides by the graph's node count (at least one),
  and applies the projection.
-/
import proofs.«414959_j88416196756193_1_alg».proof.Proof.Spec
import proofs.«414959_j88416196756193_1_alg».proof.Proof.Gen.KernelIdeal

noncomputable section

namespace Cert.Gnn.K

open Idealize.ShloMosaic Idealize.ShloMosaic.ValueIdx Cert.KernelIdeal Cert.KernelIdeal.Facts₀ Cert.KernelIdeal.Facts Cert.Gnn

/-- Atom types clipped into [0, 119]. -/
def atClip (a0 : IVec S200000 32) : IVec S200000 32 :=
  minsi (broadcastInDim S200000 ![] bcast_S_S200000 (constantI S_ 32 119#32))
    (maxsi (broadcastInDim S200000 ![] bcast_S_S200000 (constantI S_ 32 0#32)) a0)

/-- Bond types clipped into [0, 4]. -/
def etClip (a2 : IVec S400000 32) : IVec S400000 32 :=
  minsi (broadcastInDim S400000 ![] bcast_S_S400000 (constantI S_ 32 4#32))
    (maxsi (broadcastInDim S400000 ![] bcast_S_S400000 (constantI S_ 32 0#32)) a2)

/-- The atom table written into the first rows of a zero 128 × 128 table. -/
def tbl4 (a4 : FVec Ideal S120x128 .f32) : FVec Ideal S128x128 .f32 :=
  Host.scatter scatter_S128x128_S1_S120x128_01_n_0_0 (fun _ b => b)
    (broadcastInDim S128x128 ![] bcast_S_S128x128 (constant (F := Ideal) S_ .f32 0x00000000#32))
    (broadcastInDim S1 ![] bcast_S_S1 (constantI S_ 32 0#32)) a4

/-- The bond table written into the first rows of a zero 128 × 128 table. -/
def tbl5 (a5 : FVec Ideal S5x128 .f32) : FVec Ideal S128x128 .f32 :=
  Host.scatter scatter_S128x128_S1_S5x128_01_n_0_0 (fun _ b => b)
    (broadcastInDim S128x128 ![] bcast_S_S128x128 (constant (F := Ideal) S_ .f32 0x00000000#32))
    (broadcastInDim S1 ![] bcast_S_S1 (constantI S_ 32 0#32)) a5

/-- Initial node features. -/
def x0 (a0 : IVec S200000 32) (a4 : FVec Ideal S120x128 .f32) : FVec Ideal S200000x128 .f32 :=
  lookup200k (shapeCast S200000x1 (atClip a0) shapeCasts_S200000_S200000x1) (tbl4 a4)

/-- Edge features. -/
def ae (a2 : IVec S400000 32) (a5 : FVec Ideal S5x128 .f32) : FVec Ideal S400000x128 .f32 :=
  lookup400k (shapeCast S400000x1 (etClip a2) shapeCasts_S400000_S400000x1) (tbl5 a5)

/-- Edge sources: row 0 of the edge list. -/
def src (a1 : IVec S2x400000 32) : IVec S400000 32 :=
  shapeCast S400000 (extractStridedSlice S1x400000 ![0, 0] a1 slices_S2x400000_S1x400000_0_0) shapeCasts_S1x400000_S400000

/-- Edge destinations: row 1 of the edge list. -/
def dst (a1 : IVec S2x400000 32) : IVec S400000 32 :=
  shapeCast S400000 (extractStridedSlice S1x400000 ![1, 0] a1 slices_S2x400000_S1x400000_1_0) shapeCasts_S1x400000_S400000

/-- A row index with a negative value shifted up by the number of nodes, as a column. -/
def idxCol (s : IVec S400000 32) : IVec S400000x1 32 :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 200000#32))) s)

/-- Whether the shifted row index lies in [0, 199999], per edge. -/
def inRange (s : IVec S400000 32) : IVec S400000 1 :=
  Host.reduce IntOp.andi
    (andi (cmpi .sge (idxCol s) (broadcastInDim S400000x1 ![] bcast_S_S400000x1 (constantI S_ 32 0#32)))
      (cmpi .sle (idxCol s) (broadcastInDim S400000x1 ![0, 1] bcast_S1x1_S400000x1_0_1
        (broadcastInDim S1x1 ![1] bcast_S1_S1x1_1 (constantI S1 32 199999#32)))))
    (constantI S_ 1 1#1) reducesTo_S400000x1_S400000_d1 h_S_

/-- Rows of x at the edges' sources, a fill value where the source is out of range. -/
def take (x : FVec Ideal S200000x128 .f32) (s : IVec S400000 32) : FVec Ideal S400000x128 .f32 :=
  select (broadcastInDim S400000x128 ![0] bcast_S400000_S400000x128_0 (inRange s))
    (Host.gather gather_S200000x128_S400000x1_S400000x128_1_0_n_n_0_1_1128 x (idxCol s))
    (broadcastInDim S400000x128 ![] bcast_S_S400000x128 (constant (F := Ideal) S_ .f32 0x7FC00000#32))

/-- The edge messages. -/
def msg (x : FVec Ideal S200000x128 .f32) (e : FVec Ideal S400000x128 .f32) (a1 : IVec S2x400000 32) :
    FVec Ideal S400000x128 .f32 :=
  maximumf (addf (take x (src a1)) e)
    (broadcastInDim S400000x128 ![] bcast_S_S400000x128 (constant (F := Ideal) S_ .f32 0x00000000#32))

/-- Messages summed into their destination nodes. -/
def agg (x : FVec Ideal S200000x128 .f32) (e : FVec Ideal S400000x128 .f32) (a1 : IVec S2x400000 32) :
    FVec Ideal S200000x128 .f32 :=
  Host.scatterAdd scatter_S200000x128_S400000x1_S400000x128_1_0_0_1
    (broadcastInDim S200000x128 ![] bcast_S_S200000x128 (constant (F := Ideal) S_ .f32 0x00000000#32))
    (broadcastInDim S400000x1 ![0] bcast_S400000_S400000x1_0 (dst a1)) (msg x e a1)

/-- Layer 0's weights and biases. -/
def w0 (a : FVec Ideal S3x128x128 .f32) : FVec Ideal S128x128 .f32 :=
  shapeCast S128x128 (extractStridedSlice S1x128x128 ![0, 0, 0] a slices_S3x128x128_S1x128x128_0_0_0) shapeCasts_S1x128x128_S128x128
def b0 (a : FVec Ideal S3x128 .f32) : FVec Ideal S1x128 .f32 :=
  shapeCast S1x128 (shapeCast S128 (extractStridedSlice S1x128 ![0, 0] a slices_S3x128_S1x128_0_0) shapeCasts_S1x128_S128) shapeCasts_S128_S1x128
/-- Layer 1's. -/
def w1 (a : FVec Ideal S3x128x128 .f32) : FVec Ideal S128x128 .f32 :=
  shapeCast S128x128 (extractStridedSlice S1x128x128 ![1, 0, 0] a slices_S3x128x128_S1x128x128_1_0_0) shapeCasts_S1x128x128_S128x128
def b1 (a : FVec Ideal S3x128 .f32) : FVec Ideal S1x128 .f32 :=
  shapeCast S1x128 (shapeCast S128 (extractStridedSlice S1x128 ![1, 0] a slices_S3x128_S1x128_1_0) shapeCasts_S1x128_S128) shapeCasts_S128_S1x128
/-- Layer 2's. -/
def w2 (a : FVec Ideal S3x128x128 .f32) : FVec Ideal S128x128 .f32 :=
  shapeCast S128x128 (extractStridedSlice S1x128x128 ![2, 0, 0] a slices_S3x128x128_S1x128x128_2_0_0) shapeCasts_S1x128x128_S128x128
def b2 (a : FVec Ideal S3x128 .f32) : FVec Ideal S1x128 .f32 :=
  shapeCast S1x128 (shapeCast S128 (extractStridedSlice S1x128 ![2, 0] a slices_S3x128_S1x128_2_0) shapeCasts_S1x128_S128) shapeCasts_S128_S1x128

/-- Node features after layers 0, 1, 2. -/
def x1 (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) : FVec Ideal S200000x128 .f32 :=
  mlpRows (x0 a0 a4) (agg (x0 a0 a4) (ae a2 a5) a1) (w0 a6) (b0 a7) (w0 a8) (b0 a9)
def x2 (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) : FVec Ideal S200000x128 .f32 :=
  mlpRows (x1 a0 a1 a2 a4 a5 a6 a7 a8 a9) (agg (x1 a0 a1 a2 a4 a5 a6 a7 a8 a9) (ae a2 a5) a1) (w1 a6) (b1 a7) (w1 a8) (b1 a9)
def x3 (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) : FVec Ideal S200000x128 .f32 :=
  mlpRows (x2 a0 a1 a2 a4 a5 a6 a7 a8 a9) (agg (x2 a0 a1 a2 a4 a5 a6 a7 a8 a9) (ae a2 a5) a1) (w2 a6) (b2 a7) (w2 a8) (b2 a9)

/-- Per-graph node count, at least one, spread over the 128 columns. -/
def cntCols (a3 : IVec S200000 32) : FVec Ideal S8192x128 .f32 :=
  broadcastInDim S8192x128 ![0, 1] bcast_S8192x1_S8192x128_0_1
    (broadcastInDim S8192x1 ![0] bcast_S8192_S8192x1_0
      (maximumf
        (Host.scatterAdd scatter_S8192_S200000x1_S200000_n_0_0_1
          (broadcastInDim S8192 ![] bcast_S_S8192 (constant (F := Ideal) S_ .f32 0x00000000#32))
          (broadcastInDim S200000x1 ![0] bcast_S200000_S200000x1_0 a3)
          (broadcastInDim S200000 ![] bcast_S_S200000 (constant (F := Ideal) S_ .f32 0x3F800000#32)))
        (broadcastInDim S8192 ![] bcast_S_S8192 (constant (F := Ideal) S_ .f32 0x3F800000#32))))

/-- Per-graph mean of node features. -/
def pooled (x : FVec Ideal S200000x128 .f32) (a3 : IVec S200000 32) : FVec Ideal S8192x128 .f32 :=
  Host.divf
    (Host.scatterAdd scatter_S8192x128_S200000x1_S200000x128_1_0_0_1
      (broadcastInDim S8192x128 ![] bcast_S_S8192x128 (constant (F := Ideal) S_ .f32 0x00000000#32))
      (broadcastInDim S200000x1 ![0] bcast_S200000_S200000x1_0 a3) x)
    (cntCols a3)

/-- The program's result. -/
def out (x : FVec Ideal S200000x128 .f32) (a3 : IVec S200000 32) (a10 : FVec Ideal S128x128 .f32) (a11 : FVec Ideal S128 .f32)
    (a12 : FVec Ideal S128x128 .f32) (a13 : FVec Ideal S128 .f32) : FVec Ideal S8192x128 .f32 :=
  projRows (pooled x a3) a10 (shapeCast S1x128 a11 shapeCasts_S128_S1x128) a12 (shapeCast S1x128 a13 shapeCasts_S128_S1x128)

end Cert.Gnn.K

namespace Cert.Gnn

open Idealize.ShloMosaic Idealize.ShloMosaic.ValueIdx Cert.KernelIdeal

/-- Every edge's source index is a node number: row 0 of the edge list lies in [0, 200000). -/
def SrcInRange (a1 : IVec S2x400000 32) : Prop :=
  ∀ e : Fin 400000, 0 ≤ (a1 (ix2 (0 : Fin 2) e)).toInt ∧ (a1 (ix2 (0 : Fin 2) e)).toInt < 200000

end Cert.Gnn

end
-- ==== Proof.RegionEmbed.lean ====
/-
  The two lookup regions: after the whole grid has run, the output array is the row lookup of the id column in the table.

  Each grid point multiplies a 4000 × 128 block of indicators (row p is 1 at the lane whose number is the id of row p,
  0 elsewhere) by the whole 128 × 128 table, so entry (p, q) of its block is Σ_v [id_p = v] · table(v, q). The blocks of
  4000 rows tile the output array, and block t reads exactly rows 4000·t … 4000·t + 3999 of the id column, so the array
  as a whole is the lookup of the whole id column.
-/
import proofs.«414959_j88416196756193_1_alg».proof.Proof.Spec
import proofs.«414959_j88416196756193_1_alg».proof.Proof.Gen.KernelIdeal.Frame
import Idealize.ShloMosaic.Lib.Pipeline.Value
import Idealize.ShloMosaic.PureOps.Ideal.Laws

noncomputable section

namespace Cert.Gnn.Region

open Idealize.ShloMosaic Idealize.ShloMosaic.TcCoe Idealize.ShloMosaic.ValueIdx Idealize.SL.Sem
open Cert.KernelIdeal Cert.KernelIdeal.Gen Cert.Gnn

/-! ## The block product at an entry

The body multiplies a 4000 × 128 left factor by the 128 × 128 table into a zero accumulator: entry (p, q) is the sum
over the 128 contracted positions v of left (p, v) · table (v, q). -/

private theorem lhsAxis0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem lhsAxis1 (i : S4000x128.Idx) (k : dot_S4000x128_S128x128_S4000x128_1_0_0_1_n_n.contr.Idx) :
    (dot_S4000x128_S128x128_S4000x128_1_0_0_1_n_n.lhsIdx i k 1).val = (k ⟨0, by decide⟩).val :=
  dot_S4000x128_S128x128_S4000x128_1_0_0_1_n_n.lhsIdx_val_of_single rfl i k
private theorem rhsAxis0 (i : S4000x128.Idx) (k : dot_S4000x128_S128x128_S4000x128_1_0_0_1_n_n.contr.Idx) :
    (dot_S4000x128_S128x128_S4000x128_1_0_0_1_n_n.rhsIdx i k 0).val = (k ⟨0, by decide⟩).val :=
  dot_S4000x128_S128x128_S4000x128_1_0_0_1_n_n.rhsIdx_val_of_single rfl i k
private theorem rhsAxis1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator, read at entry (p, q). -/
private theorem prod_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ v : Fin 128, l (ix2 p v) * r (ix2 v q) := by
  show FloatOps.matmul dot_S4000x128_S128x128_S4000x128_1_0_0_1_n_n none l r (constant (F := Ideal) S4000x128 .f32 0x00000000#32) (ix2 p q) = _
  rw [Ideal.matmul_constant_zero_apply, ← Equiv.sum_comp (ValueIdx.contrEquiv1 dot_S4000x128_S128x128_S4000x128_1_0_0_1_n_n 128 rfl rfl).symm]
  refine Finset.sum_congr rfl fun v _ => ?_
  have hv := ValueIdx.contrEquiv1_symm_val dot_S4000x128_S128x128_S4000x128_1_0_0_1_n_n 128 rfl rfl v
  have el : dot_S4000x128_S128x128_S4000x128_1_0_0_1_n_n.lhsIdx (ix2 p q) ((ValueIdx.contrEquiv1 dot_S4000x128_S128x128_S4000x128_1_0_0_1_n_n 128 rfl rfl).symm v) = ix2 p v := funext fun a => Fin.ext (by
    match a with
    | ⟨0, _⟩ => exact lhsAxis0 _ _
    | ⟨1, _⟩ => exact (lhsAxis1 _ _).trans hv)
  have er : dot_S4000x128_S128x128_S4000x128_1_0_0_1_n_n.rhsIdx (ix2 p q) ((ValueIdx.contrEquiv1 dot_S4000x128_S128x128_S4000x128_1_0_0_1_n_n 128 rfl rfl).symm v) = ix2 v q := funext fun a => Fin.ext (by
    match a with
    | ⟨0, _⟩ => exact (rhsAxis0 _ _).trans hv
    | ⟨1, _⟩ => exact rhsAxis1 _ _)
  rw [el, er]

/-! ## The left factor

Row p of the left factor compares the row's id with each lane number v (a one-bit answer widened to 32 bits and read as
a signed integer), so it is 1 at the lane whose number is the id and 0 elsewhere. -/

/-- A one-bit equality test, widened and converted, is the indicator of the equality. -/
private theorem ind_apply (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · have e : IntOp.cmpi .eq a b = 1#1 := by simp [IntOp.cmpi, h]
    have e1 : ((1#1 : BitVec 1).setWidth 32).toInt = 1 := by decide
    rw [if_pos h, e, e1]
    simp
  · have hb : (a == b) = false := by simpa using h
    have e : IntOp.cmpi .eq a b = 0#1 := by
      show BitVec.ofBool (a == b) = 0#1
      rw [hb]; rfl
    have e0 : ((0#1 : BitVec 1).setWidth 32).toInt = 0 := by decide
    rw [if_neg h, e, e0]
    simp

/-- The id column spread over the 128 lanes reads, at (p, v), the id of row p. -/
private theorem spread_apply (ids : IVec S4000x1 32) (p : Fin 4000) (v : Fin 128) :
    broadcastTo S4000x128 (shapeCast S4000x1 ids shapeCasts_S4000x1_S4000x1) broadcasts_S4000x1_S4000x128 (ix2 p v)
      = ids (ix2 p (0 : Fin 1)) := by
  rw [shapeCast_self]
  exact broadcastTo_apply ids broadcasts_S4000x1_S4000x128 (ix2 p v) (ix2 p (0 : Fin 1)) (fun a => match a with
    | ⟨0, _⟩ => rfl
    | ⟨1, _⟩ => rfl)

/-- The lane numbers read, at (p, v), the number v. -/
private theorem lane_apply (p : Fin 4000) (v : Fin 128) :
    iota .tc S4000x128 32 [1] iota_S4000x128_d1_w32 (ix2 p v) = BitVec.ofNat 32 v.val :=
  iota_single_apply .tc S4000x128 32 1 iota_S4000x128_d1_w32 (ix2 p v)

/-- The body's result at entry (p, q) of the block: the table's row whose number is the id of row p, as the sum over
    all 128 rows of the indicator times the row's entry. -/
private theorem pay0_apply (ids : IVec S4000x1 32) (tbl : FVec Ideal S128x128 .f32) (p : Fin 4000) (q : Fin 128) :
    k0_pay1 (F := Ideal) ids tbl (ix2 p q) = ∑ v : Fin 128, hot (ids (ix2 p (0 : Fin 1))) v * tbl (ix2 v q) := by
  unfold k0_pay1
  refine (prod_apply _ _ p q).trans ?_
  refine Finset.sum_congr rfl fun v _ => ?_
  show FloatOps.sitofp (F := Ideal) .f32 ((IntOp.cmpi .eq (broadcastTo S4000x128 (shapeCast S4000x1 ids shapeCasts_S4000x1_S4000x1) broadcasts_S4000x1_S4000x128 (ix2 p v)) (iota .tc S4000x128 32 [1] iota_S4000x128_d1_w32 (ix2 p v))).setWidth 32)
      * shapeCast S128x128 tbl shapeCasts_S128x128_S128x128 (ix2 v q) = _
  rw [spread_apply, lane_apply, ind_apply, shapeCast_self]
  rfl

/-- The same for the second lookup's body (the same text). -/
private theorem pay1_apply (ids : IVec S4000x1 32) (tbl : FVec Ideal S128x128 .f32) (p : Fin 4000) (q : Fin 128) :
    k1_pay1 (F := Ideal) ids tbl (ix2 p q) = ∑ v : Fin 128, hot (ids (ix2 p (0 : Fin 1))) v * tbl (ix2 v q) :=
  pay0_apply ids tbl p q

variable (V : (c : Dev nD) → (b : Ref sig .tc) → Buf (Elt Ideal) ((c : Thread nD τ).loc b))

/-- The body loads and stores its whole staging buffers: the accesses' offsets are zero. -/
private theorem zeroOff : (![0, 0] : Fin 2 → Nat) = fun _ => 0 := funext fun a => by fin_cases a <;> rfl

/-! ## Region 0: from the blocks to the array

Point t of the 50 stages rows 4000·t … 4000·t + 3999 of the id column and the whole table, and writes back rows
4000·t … 4000·t + 3999 of the output. -/

/-- The index maps over the 50 points: the id column's and the output's row blocks have block index (t, 0);
    the table's block index is (0, 0). -/
private theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The id block at point t is rows 4000·t … of the id column. -/
private theorem ids0_read (c : Dev nD) (t : Fin cfg0.N) (y : S4000x1.Idx) (k : S200000x1.Idx)
    (h0 : (k 0).val = t.val * 4000 + (y 0).val) (h1 : (k 1).val = (y 1).val) :
    (iblk0 (F := Ideal) V c 0 t : IVec S4000x1 32) y = (V c main_v9 : IVec S200000x1 32) k := by
  obtain ⟨e0, e1, -⟩ := idx0 t
  unfold iblk0
  rw [View.read_apply]
  show V c main_v9 _ = V c main_v9 k
  congr 1
  funext a; apply Fin.ext
  match a with
  | ⟨0, _⟩ => show win0_0.index t 0 * 4000 + 1 * (y 0).val = (k 0).val; rw [e0, h0]; omega
  | ⟨1, _⟩ => show win0_0.index t 1 * 1 + 1 * (y 1).val = (k 1).val; rw [e1, h1]; omega

/-- The table block at every point is the whole table. -/
private theorem tbl0_read (c : Dev nD) (t : Fin cfg0.N) (y : S128x128.Idx) (k : S128x128.Idx)
    (h0 : (k 0).val = (y 0).val) (h1 : (k 1).val = (y 1).val) :
    (iblk0 (F := Ideal) V c 1 t : FVec Ideal S128x128 .f32) y = (V c main_v8 : FVec Ideal S128x128 .f32) k := by
  obtain ⟨-, -, e2, e3, -⟩ := idx0 t
  unfold iblk0
  rw [View.read_apply]
  show V c main_v8 _ = V c main_v8 k
  congr 1
  funext a; apply Fin.ext
  match a with
  | ⟨0, _⟩ => show win0_1.index t 0 * 128 + 1 * (y 0).val = (k 0).val; rw [e2, h0]; omega
  | ⟨1, _⟩ => show win0_1.index t 1 * 128 + 1 * (y 1).val = (k 1).val; rw [e3, h1]; omega

/-- Entry (p, q) of what point t computes is entry (4000·t + p, q) of the lookup of the whole id column. -/
private theorem entry0 (c : Dev nD) (t : Fin cfg0.N) (p : Fin 4000) (q : Fin 128) (i : S200000x128.Idx)
    (h0 : (i 0).val = t.val * 4000 + p.val) (h1 : (i 1).val = q.val) :
    k0_pay1 (F := Ideal) (iblk0 V c 0 t) (iblk0 V c 1 t) (ix2 p q) = lookup200k (V c main_v9) (V c main_v8) i := by
  refine (pay0_apply (iblk0 V c 0 t) (iblk0 V c 1 t) p q).trans ?_
  show _ = ∑ v : Fin 128, hot ((V c main_v9 : IVec S200000x1 32) (ix2 (i 0) (0 : Fin 1))) v * (V c main_v8 : FVec Ideal S128x128 .f32) (ix2 v (i 1))
  refine Finset.sum_congr rfl fun v _ => ?_
  rw [ids0_read V c t (ix2 p (0 : Fin 1)) (ix2 (i 0) (0 : Fin 1)) h0 rfl, tbl0_read V c t (ix2 v q) (ix2 v (i 1)) rfl h1]

/-- What point t writes back is block t of the lookup of the whole id column. -/
private theorem flushed0 (c : Dev nD) (t : Fin cfg0.N) :
    (dat0 (F := Ideal) V c).flushed 2 t = ((cfg0.win 2).blk t).view.read (Elt Ideal) (lookup200k (V c main_v9) (V c main_v8)) := by
  show (cfg0.win 2).cut (grid0.coords t) ((dat0 (F := Ideal) V c).after 2 t) = _
  rw [after0_2]
  unfold out0_2
  rw [View.canon_unit_zero zeroOff]
  simp only [View.ld_unit_zero (S := S4000x1) zeroOff, View.ld_unit_zero (S := S128x128) zeroOff]
  obtain ⟨-, -, -, -, e4, e5⟩ := idx0 t
  funext j
  obtain ⟨p, q, rfl⟩ : ∃ (p : Fin 4000) (q : Fin 128), j = ix2 p q := ⟨j 0, j 1, eq_ix2 j⟩
  refine entry0 V c t p q _ ?_ ?_
  · show win0_2.index t 0 * 4000 + 1 * p.val = _; rw [e4]; omega
  · show win0_2.index t 1 * 128 + 1 * q.val = _; rw [e5]; omega

/-- A row of the output array is in point t's block iff it is one of rows 4000·t … 4000·t + 3999. -/
private theorem mem_blk0 (t : Fin cfg0.N) (i : S200000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v10).slice (win0_2.rect t)).set ↔ _
  rw [View.set_slice_whole, Rect.mem_set_unit]
  exact Iff.rfl

/-- Every entry of the output array is written by the point whose number is the entry's row divided by 4000. -/
private theorem cover0 (i : S200000x128.Idx) :
    ∃ t : Fin cfg0.N, (cfg0.win 2).flush t = true ∧ i ∈ ((cfg0.win 2).blk t).view.set := by
  have hi0 : (i 0).val < 200000 := (i 0).isLt
  have hi1 : (i 1).val < 128 := (i 1).isLt
  have hN : (i 0).val / 4000 < cfg0.N := by rw [show cfg0.N = 50 from N_0]; omega
  obtain ⟨-, -, -, -, e4, e5⟩ := idx0 ⟨(i 0).val / 4000, hN⟩
  refine ⟨⟨(i 0).val / 4000, hN⟩, flush0_2 _, ?_⟩
  rw [mem_blk0]
  intro a
  match a with
  | ⟨0, _⟩ => show win0_2.index ⟨(i 0).val / 4000, hN⟩ (0 : Fin 2) * 4000 ≤ (i 0).val ∧ (i 0).val < win0_2.index ⟨(i 0).val / 4000, hN⟩ (0 : Fin 2) * 4000 + 4000; rw [e4]; show (i 0).val / 4000 * 4000 ≤ (i 0).val ∧ (i 0).val < (i 0).val / 4000 * 4000 + 4000; omega
  | ⟨1, _⟩ => show win0_2.index ⟨(i 0).val / 4000, hN⟩ (1 : Fin 2) * 128 ≤ (i 1).val ∧ (i 1).val < win0_2.index ⟨(i 0).val / 4000, hN⟩ (1 : Fin 2) * 128 + 128; rw [e5]; omega

/-- Region 0 (50 blocks of 4000 rows): the node-feature array. -/
theorem arr0 (c : Dev nD) : (dat0 (F := Ideal) V c).arrAt 2 cfg0.N = lookup200k (V c main_v9) (V c main_v8) :=
  (dat0 (F := Ideal) V c).arrAt_eq_of_cover 2 (lookup200k (V c main_v9) (V c main_v8)) (fun t _ => flushed0 V c t) cover0

/-! ## Region 1: from the blocks to the array

Point t of the 100 stages rows 4000·t … 4000·t + 3999 of the id column and the whole table, and writes back rows
4000·t … 4000·t + 3999 of the output. -/

/-- The index maps over the 100 points: the id column's and the output's row blocks have block index (t, 0);
    the table's block index is (0, 0). -/
private theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The id block at point t is rows 4000·t … of the id column. -/
private theorem ids1_read (c : Dev nD) (t : Fin cfg1.N) (y : S4000x1.Idx) (k : S400000x1.Idx)
    (h0 : (k 0).val = t.val * 4000 + (y 0).val) (h1 : (k 1).val = (y 1).val) :
    (iblk1 (F := Ideal) V c 0 t : IVec S4000x1 32) y = (V c main_v14 : IVec S400000x1 32) k := by
  obtain ⟨e0, e1, -⟩ := idx1 t
  unfold iblk1
  rw [View.read_apply]
  show V c main_v14 _ = V c main_v14 k
  congr 1
  funext a; apply Fin.ext
  match a with
  | ⟨0, _⟩ => show win1_0.index t 0 * 4000 + 1 * (y 0).val = (k 0).val; rw [e0, h0]; omega
  | ⟨1, _⟩ => show win1_0.index t 1 * 1 + 1 * (y 1).val = (k 1).val; rw [e1, h1]; omega

/-- The table block at every point is the whole table. -/
private theorem tbl1_read (c : Dev nD) (t : Fin cfg1.N) (y : S128x128.Idx) (k : S128x128.Idx)
    (h0 : (k 0).val = (y 0).val) (h1 : (k 1).val = (y 1).val) :
    (iblk1 (F := Ideal) V c 1 t : FVec Ideal S128x128 .f32) y = (V c main_v13 : FVec Ideal S128x128 .f32) k := by
  obtain ⟨-, -, e2, e3, -⟩ := idx1 t
  unfold iblk1
  rw [View.read_apply]
  show V c main_v13 _ = V c main_v13 k
  congr 1
  funext a; apply Fin.ext
  match a with
  | ⟨0, _⟩ => show win1_1.index t 0 * 128 + 1 * (y 0).val = (k 0).val; rw [e2, h0]; omega
  | ⟨1, _⟩ => show win1_1.index t 1 * 128 + 1 * (y 1).val = (k 1).val; rw [e3, h1]; omega

/-- Entry (p, q) of what point t computes is entry (4000·t + p, q) of the lookup of the whole id column. -/
private theorem entry1 (c : Dev nD) (t : Fin cfg1.N) (p : Fin 4000) (q : Fin 128) (i : S400000x128.Idx)
    (h0 : (i 0).val = t.val * 4000 + p.val) (h1 : (i 1).val = q.val) :
    k1_pay1 (F := Ideal) (iblk1 V c 0 t) (iblk1 V c 1 t) (ix2 p q) = lookup400k (V c main_v14) (V c main_v13) i := by
  refine (pay1_apply (iblk1 V c 0 t) (iblk1 V c 1 t) p q).trans ?_
  show _ = ∑ v : Fin 128, hot ((V c main_v14 : IVec S400000x1 32) (ix2 (i 0) (0 : Fin 1))) v * (V c main_v13 : FVec Ideal S128x128 .f32) (ix2 v (i 1))
  refine Finset.sum_congr rfl fun v _ => ?_
  rw [ids1_read V c t (ix2 p (0 : Fin 1)) (ix2 (i 0) (0 : Fin 1)) h0 rfl, tbl1_read V c t (ix2 v q) (ix2 v (i 1)) rfl h1]

/-- What point t writes back is block t of the lookup of the whole id column. -/
private theorem flushed1 (c : Dev nD) (t : Fin cfg1.N) :
    (dat1 (F := Ideal) V c).flushed 2 t = ((cfg1.win 2).blk t).view.read (Elt Ideal) (lookup400k (V c main_v14) (V c main_v13)) := by
  show (cfg1.win 2).cut (grid1.coords t) ((dat1 (F := Ideal) V c).after 2 t) = _
  rw [after1_2]
  unfold out1_2
  rw [View.canon_unit_zero zeroOff]
  simp only [View.ld_unit_zero (S := S4000x1) zeroOff, View.ld_unit_zero (S := S128x128) zeroOff]
  obtain ⟨-, -, -, -, e4, e5⟩ := idx1 t
  funext j
  obtain ⟨p, q, rfl⟩ : ∃ (p : Fin 4000) (q : Fin 128), j = ix2 p q := ⟨j 0, j 1, eq_ix2 j⟩
  refine entry1 V c t p q _ ?_ ?_
  · show win1_2.index t 0 * 4000 + 1 * p.val = _; rw [e4]; omega
  · show win1_2.index t 1 * 128 + 1 * q.val = _; rw [e5]; omega

/-- A row of the output array is in point t's block iff it is one of rows 4000·t … 4000·t + 3999. -/
private theorem mem_blk1 (t : Fin cfg1.N) (i : S400000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v15).slice (win1_2.rect t)).set ↔ _
  rw [View.set_slice_whole, Rect.mem_set_unit]
  exact Iff.rfl

/-- Every entry of the output array is written by the point whose number is the entry's row divided by 4000. -/
private theorem cover1 (i : S400000x128.Idx) :
    ∃ t : Fin cfg1.N, (cfg1.win 2).flush t = true ∧ i ∈ ((cfg1.win 2).blk t).view.set := by
  have hi0 : (i 0).val < 400000 := (i 0).isLt
  have hi1 : (i 1).val < 128 := (i 1).isLt
  have hN : (i 0).val / 4000 < cfg1.N := by rw [show cfg1.N = 100 from N_1]; omega
  obtain ⟨-, -, -, -, e4, e5⟩ := idx1 ⟨(i 0).val / 4000, hN⟩
  refine ⟨⟨(i 0).val / 4000, hN⟩, flush1_2 _, ?_⟩
  rw [mem_blk1]
  intro a
  match a with
  | ⟨0, _⟩ => show win1_2.index ⟨(i 0).val / 4000, hN⟩ (0 : Fin 2) * 4000 ≤ (i 0).val ∧ (i 0).val < win1_2.index ⟨(i 0).val / 4000, hN⟩ (0 : Fin 2) * 4000 + 4000; rw [e4]; show (i 0).val / 4000 * 4000 ≤ (i 0).val ∧ (i 0).val < (i 0).val / 4000 * 4000 + 4000; omega
  | ⟨1, _⟩ => show win1_2.index ⟨(i 0).val / 4000, hN⟩ (1 : Fin 2) * 128 ≤ (i 1).val ∧ (i 1).val < win1_2.index ⟨(i 0).val / 4000, hN⟩ (1 : Fin 2) * 128 + 128; rw [e5]; omega

/-- Region 1 (100 blocks of 4000 rows): the edge-feature array. -/
theorem arr1 (c : Dev nD) : (dat1 (F := Ideal) V c).arrAt 2 cfg1.N = lookup400k (V c main_v14) (V c main_v13) :=
  (dat1 (F := Ideal) V c).arrAt_eq_of_cover 2 (lookup400k (V c main_v14) (V c main_v13)) (fun t _ => flushed1 V c t) cover1

end Cert.Gnn.Region

end
-- ==== Proof.RegionMlp.lean ====
/-
  The three dense-layer regions: after the whole grid has run, the output array is the layer's dense part of the six input arrays.

  Each region runs 50 points; point t stages rows 4000·t … 4000·t + 3999 of the node features x and of the summed messages
  agg, and the whole of the two weight matrices and the two bias rows, and writes back rows 4000·t … 4000·t + 3999 of the
  output. First the body's stored value is read at an entry (p, q) of its block: two products into a zero accumulator, each
  a sum over the 128 shared indices, a bias row spread over the rows added to each, the positive part between them. Then
  the blocks are read as rows of their arrays, so that what point t writes back is block t of the whole-array function
  mlpRows; and every row r of the output lies in the block of point r / 4000, so the output array is mlpRows everywhere.
-/
import proofs.«414959_j88416196756193_1_alg».proof.Proof.Spec
import proofs.«414959_j88416196756193_1_alg».proof.Proof.Gen.KernelIdeal.Frame
import Idealize.ShloMosaic.Lib.Pipeline.Value
import Idealize.ShloMosaic.PureOps.Ideal.Laws

noncomputable section

namespace Cert.Gnn.Region

open Idealize.ShloMosaic Idealize.ShloMosaic.TcCoe Idealize.ShloMosaic.ValueIdx Idealize.SL.Sem
open Cert.KernelIdeal Cert.KernelIdeal.Gen Cert.Gnn

variable (V : (c : Dev nD) → (b : Ref sig .tc) → Buf (Elt Ideal) ((c : Thread nD τ).loc b))

/-! ## The block's arithmetic at an index -/

/-- The product's left operand is read at the output's row … -/
private theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the summation index as its column; -/
private theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the summation index as its row … -/
private theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column. -/
private theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] × [128,128] product into a zero accumulator, at row p and column q, is Σ_k l(p,k) · r(k,q). -/
private theorem matmul_zero_apply {φ₁ φ₂ : FTy} (l : FVec Ideal S4000x128 φ₁) (r : FVec Ideal S128x128 φ₂) (p : Fin 4000) (q : Fin 128) :
    FloatOps.matmul dot_S4000x128_S128x128_S4000x128_1_0_0_1_n_n none l r (constant (F := Ideal) S4000x128 .f32 0x00000000#32) (ix2 p q)
      = ∑ k : Fin 128, l (ix2 p k) * r (ix2 k q) := by
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- A [1,128] row spread over 4000 rows reads its column's entry. -/
private theorem rowBroadcast_apply (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- One block's dense part: rows of x + agg through the first weights and bias, the positive part, then the second
    weights and bias. -/
private def blockMlp (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) : EReal :=
  (∑ k : Fin 128, max ((∑ k' : Fin 128, (x (ix2 p k') + agg (ix2 p k')) * w1 (ix2 k' k)) + b1 (ix2 (0 : Fin 1) k)) 0 * w2 (ix2 k q))
    + b2 (ix2 (0 : Fin 1) q)

/-- The body's stored value at row p, column q of its block. Casts to the same shape and the narrowing to the shorter
    float type change nothing over the extended reals; the zero word reads as 0. -/
private theorem pay2_apply (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) :
    k2_pay1 (F := Ideal) x agg w1 b1 w2 b2 (ix2 p q) = blockMlp x agg w1 b1 w2 b2 p q := by
  unfold k2_pay1 blockMlp
  simp only [shapeCast_self]
  refine (addf_apply _ _ _).trans ?_
  refine congrArg₂ (· + ·) ?_ (rowBroadcast_apply b2 p q)
  refine (matmul_zero_apply _ _ p q).trans ?_
  refine Finset.sum_congr rfl fun k _ => ?_
  refine congrArg₂ (· * ·) ?_ rfl
  show max (addf _ _ (ix2 p k)) (Scalar.ofBits (F := Ideal) .f32 0x00000000#32) = _
  refine congrArg₂ max ?_ Ideal.ofBits_zero_f32
  refine (addf_apply _ _ _).trans ?_
  refine congrArg₂ (· + ·) ?_ (rowBroadcast_apply b1 p k)
  exact matmul_zero_apply _ _ p k

/-- The same for the next layer's body: the same arithmetic. -/
private theorem pay3_apply (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) :
    k3_pay1 (F := Ideal) x agg w1 b1 w2 b2 (ix2 p q) = blockMlp x agg w1 b1 w2 b2 p q := by
  unfold k3_pay1 blockMlp
  simp only [shapeCast_self]
  refine (addf_apply _ _ _).trans ?_
  refine congrArg₂ (· + ·) ?_ (rowBroadcast_apply b2 p q)
  refine (matmul_zero_apply _ _ p q).trans ?_
  refine Finset.sum_congr rfl fun k _ => ?_
  refine congrArg₂ (· * ·) ?_ rfl
  show max (addf _ _ (ix2 p k)) (Scalar.ofBits (F := Ideal) .f32 0x00000000#32) = _
  refine congrArg₂ max ?_ Ideal.ofBits_zero_f32
  refine (addf_apply _ _ _).trans ?_
  refine congrArg₂ (· + ·) ?_ (rowBroadcast_apply b1 p k)
  exact matmul_zero_apply _ _ p k

/-- The same for the next layer's body: the same arithmetic. -/
private theorem pay4_apply (x agg : FVec Ideal S4000x128 .f32) (w1 : FVec Ideal S128x128 .f32) (b1 : FVec Ideal S1x128 .f32)
    (w2 : FVec Ideal S128x128 .f32) (b2 : FVec Ideal S1x128 .f32) (p : Fin 4000) (q : Fin 128) :
    k4_pay1 (F := Ideal) x agg w1 b1 w2 b2 (ix2 p q) = blockMlp x agg w1 b1 w2 b2 p q := by
  unfold k4_pay1 blockMlp
  simp only [shapeCast_self]
  refine (addf_apply _ _ _).trans ?_
  refine congrArg₂ (· + ·) ?_ (rowBroadcast_apply b2 p q)
  refine (matmul_zero_apply _ _ p q).trans ?_
  refine Finset.sum_congr rfl fun k _ => ?_
  refine congrArg₂ (· * ·) ?_ rfl
  show max (addf _ _ (ix2 p k)) (Scalar.ofBits (F := Ideal) .f32 0x00000000#32) = _
  refine congrArg₂ max ?_ Ideal.ofBits_zero_f32
  refine (addf_apply _ _ _).trans ?_
  refine congrArg₂ (· + ·) ?_ (rowBroadcast_apply b1 p k)
  exact matmul_zero_apply _ _ p k

/-! ## Region 2: from blocks to the array -/

private theorem zeroOffsets : (![0, 0] : Fin 2 → Nat) = fun _ => 0 := funext fun a => by fin_cases a <;> rfl

/-- The printed index maps over the 50 points: the row-blocked windows sit at block row t, column block 0; the weight and
    bias windows at block (0, 0). -/
private theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of point t's block is row 4000·t + p of the array. -/
private theorem row_lt (t : Fin cfg2.N) (p : Fin 4000) : t.val * 4000 + p.val < 200000 := by
  have hN : cfg2.N = 50 := N_2
  have := t.isLt; have := p.isLt; omega

/-- The x window's block at point t is rows 4000·t … 4000·t + 3999 of the x array. -/
private theorem xblk2_apply (c : Dev nD) (t : Fin cfg2.N) (p : Fin 4000) (k : Fin 128) :
    (iblk2 V c 0 t : FVec Ideal S4000x128 .f32) (ix2 p k)
      = (V c main_v10 : FVec Ideal S200000x128 .f32) (ix2 ⟨t.val * 4000 + p.val, row_lt t p⟩ k) := by
  obtain ⟨e0, e1, -⟩ := idx_facts2 t
  unfold iblk2
  rw [View.read_apply]
  show V c main_v10 _ = V c main_v10 _
  refine congrArg (V c main_v10) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- The agg window's block likewise. -/
private theorem aggblk2_apply (c : Dev nD) (t : Fin cfg2.N) (p : Fin 4000) (k : Fin 128) :
    (iblk2 V c 1 t : FVec Ideal S4000x128 .f32) (ix2 p k)
      = (V c main_v21 : FVec Ideal S200000x128 .f32) (ix2 ⟨t.val * 4000 + p.val, row_lt t p⟩ k) := by
  obtain ⟨-, -, e0, e1, -⟩ := idx_facts2 t
  unfold iblk2
  rw [View.read_apply]
  show V c main_v21 _ = V c main_v21 _
  refine congrArg (V c main_v21) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 128 + 1 * k.val = k.val; rw [e1]; omega

/-- The weight and bias windows' blocks are their whole arrays. -/
private theorem w1blk2_eq (c : Dev nD) (t : Fin cfg2.N) :
    (iblk2 V c 2 t : FVec Ideal S128x128 .f32) = (V c main_v23 : FVec Ideal S128x128 .f32) := by
  obtain ⟨-, -, -, -, e0, e1, -⟩ := idx_facts2 t
  funext y
  unfold iblk2
  rw [View.read_apply]
  show V c main_v23 _ = V c main_v23 y
  refine congrArg (V c main_v23) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

private theorem b1blk2_eq (c : Dev nD) (t : Fin cfg2.N) :
    (iblk2 V c 3 t : FVec Ideal S1x128 .f32) = (V c main_v30 : FVec Ideal S1x128 .f32) := by
  obtain ⟨-, -, -, -, -, -, e0, e1, -⟩ := idx_facts2 t
  funext y
  unfold iblk2
  rw [View.read_apply]
  show V c main_v30 _ = V c main_v30 y
  refine congrArg (V c main_v30) (funext fun a => Fin.ext ?_)
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

private theorem w2blk2_eq (c : Dev nD) (t : Fin cfg2.N) :
    (iblk2 V c 4 t : FVec Ideal S128x128 .f32) = (V c main_v27 : FVec Ideal S128x128 .f32) := by
  obtain ⟨-, -, -, -, -, -, -, -, e0, e1, -⟩ := idx_facts2 t
  funext y
  unfold iblk2
  rw [View.read_apply]
  show V c main_v27 _ = V c main_v27 y
  refine congrArg (V c main_v27) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

private theorem b2blk2_eq (c : Dev nD) (t : Fin cfg2.N) :
    (iblk2 V c 5 t : FVec Ideal S1x128 .f32) = (V c main_v31 : FVec Ideal S1x128 .f32) := by
  obtain ⟨-, -, -, -, -, -, -, -, -, -, e0, e1, -⟩ := idx_facts2 t
  funext y
  unfold iblk2
  rw [View.read_apply]
  show V c main_v31 _ = V c main_v31 y
  refine congrArg (V c main_v31) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- Entry (p, q) of the output window's block at point t is entry (4000·t + p, q) of the output array. -/
private theorem outblk2_emb (t : Fin cfg2.N) (p : Fin 4000) (q : Fin 128) :
    (((cfg2.win 6).blk t).view.emb (ix2 p q) : S200000x128.Idx) = ix2 ⟨t.val * 4000 + p.val, row_lt t p⟩ q := by
  obtain ⟨-, -, -, -, -, -, -, -, -, -, -, -, e0, e1⟩ := idx_facts2 t
  refine funext fun a => Fin.ext ?_
  match a with
  | ⟨0, _⟩ => show win2_6.index t (0 : Fin 2) * 4000 + 1 * p.val = t.val * 4000 + p.val; rw [e0]; omega
  | ⟨1, _⟩ => show win2_6.index t (1 : Fin 2) * 128 + 1 * q.val = q.val; rw [e1]; omega

/-- What point t writes back is block t of the layer's dense part of the six arrays: every entry of the block depends
    on row 4000·t + p of x and agg only, and on all of the weights and biases. -/
private theorem flushed2_eq (c : Dev nD) (t : Fin cfg2.N) :
    (dat2 (F := Ideal) V c).flushed 6 t = ((cfg2.win 6).blk t).view.read (Elt Ideal)
      (mlpRows (V c main_v10) (V c main_v21) (V c main_v23) (V c main_v30) (V c main_v27) (V c main_v31)) := by
  show (cfg2.win 6).cut (grid2.coords t) ((dat2 (F := Ideal) V c).after 6 t) = _
  rw [after2_6]
  unfold out2_6
  rw [View.canon_unit_zero zeroOffsets]
  simp only [View.ld_unit_zero (S := S4000x128) zeroOffsets, View.ld_unit_zero (S := S128x128) zeroOffsets, View.ld_unit_zero (S := S1x128) zeroOffsets]
  rw [w1blk2_eq V c t, b1blk2_eq V c t, w2blk2_eq V c t, b2blk2_eq V c t]
  refine funext fun (j : S4000x128.Idx) => ?_
  obtain ⟨p, q, rfl⟩ : ∃ (p : Fin 4000) (q : Fin 128), j = ix2 p q := ⟨j 0, j 1, eq_ix2 j⟩
  show k2_pay1 (F := Ideal) (iblk2 V c 0 t) (iblk2 V c 1 t) (V c main_v23) (V c main_v30) (V c main_v27) (V c main_v31) (ix2 p q)
    = mlpRows (V c main_v10) (V c main_v21) (V c main_v23) (V c main_v30) (V c main_v27) (V c main_v31) (((cfg2.win 6).blk t).view.emb (ix2 p q))
  rw [outblk2_emb t p q]
  refine (pay2_apply (iblk2 V c 0 t) (iblk2 V c 1 t) (V c main_v23) (V c main_v30) (V c main_v27) (V c main_v31) p q).trans ?_
  unfold blockMlp mlpRows hidden
  refine congrArg₂ (· + ·) (Finset.sum_congr rfl fun k _ => congrArg₂ (· * ·) (congrArg₂ max (congrArg₂ (· + ·) (Finset.sum_congr rfl fun k' _ => ?_) rfl) rfl) rfl) rfl
  rw [xblk2_apply V c t p k', aggblk2_apply V c t p k']

/-- An index of the output array is in point t's block iff each coordinate is in the block's range on its axis. -/
private theorem mem_blk2 (t : Fin cfg2.N) (i : S200000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v32).slice (win2_6.rect t)).set ↔ _
  rw [View.set_slice_whole, Rect.mem_set_unit]
  exact Iff.rfl

/-- Row r of the output array is written by point r / 4000. -/
private theorem cover2 (i : S200000x128.Idx) :
    ∃ t : Fin cfg2.N, (cfg2.win 6).flush t = true ∧ i ∈ ((cfg2.win 6).blk t).view.set := by
  have h0 : (i 0).val < 200000 := (i 0).isLt
  have h1 : (i 1).val < 128 := (i 1).isLt
  have hN : cfg2.N = 50 := N_2
  obtain ⟨t, ht⟩ : ∃ t : Fin cfg2.N, t.val = (i 0).val / 4000 := ⟨⟨(i 0).val / 4000, by rw [hN]; omega⟩, rfl⟩
  obtain ⟨-, -, -, -, -, -, -, -, -, -, -, -, e0, e1⟩ := idx_facts2 t
  refine ⟨t, flush2_6 t, ?_⟩
  rw [mem_blk2]
  intro a
  match a with
  | ⟨0, _⟩ => show win2_6.index t (0 : Fin 2) * 4000 ≤ (i 0).val ∧ (i 0).val < win2_6.index t (0 : Fin 2) * 4000 + 4000; rw [e0, ht]; omega
  | ⟨1, _⟩ => show win2_6.index t (1 : Fin 2) * 128 ≤ (i 1).val ∧ (i 1).val < win2_6.index t (1 : Fin 2) * 128 + 128; rw [e1]; omega

theorem arr2 (c : Dev nD) : (dat2 (F := Ideal) V c).arrAt 6 cfg2.N
    = mlpRows (V c main_v10) (V c main_v21) (V c main_v23) (V c main_v30) (V c main_v27) (V c main_v31) :=
  (dat2 (F := Ideal) V c).arrAt_eq_of_cover 6 _ (fun t _ => flushed2_eq V c t) cover2

/-! ## Region 3: from blocks to the array -/

/-- The printed index maps over the 50 points: the row-blocked windows sit at block row t, column block 0; the weight and
    bias windows at block (0, 0). -/
private theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of point t's block is row 4000·t + p of the array. -/
private theorem row_lt3 (t : Fin cfg3.N) (p : Fin 4000) : t.val * 4000 + p.val < 200000 := by
  have hN : cfg3.N = 50 := N_3
  have := t.isLt; have := p.isLt; omega

/-- The x window's block at point t is rows 4000·t … 4000·t + 3999 of the x array. -/
private theorem xblk3_apply (c : Dev nD) (t : Fin cfg3.N) (p : Fin 4000) (k : Fin 128) :
    (iblk3 V c 0 t : FVec Ideal S4000x128 .f32) (ix2 p k)
      = (V c main_v32 : FVec Ideal S200000x128 .f32) (ix2 ⟨t.val * 4000 + p.val, row_lt3 t p⟩ k) := by
  obtain ⟨e0, e1, -⟩ := idx_facts3 t
  unfold iblk3
  rw [View.read_apply]
  show V c main_v32 _ = V c main_v32 _
  refine congrArg (V c main_v32) (funext fun a => Fin.ext ?_)
  match a with
  | ⟨0, _⟩ => show win3_0.index t (0 : Fin 2) * 4000 + 1 * p.val = t.val * 4000 + p.val; rw [e0]; omega
  | ⟨1, _⟩ => show win3_0.index t (1 : Fin 2) * 128 + 1 * k.val = k.val; rw [e1]; omega

/-- The agg window's block likewise. -/
private theorem aggblk3_apply (c : Dev nD) (t : Fin cfg3.N) (p : Fin 4000) (k : Fin 128) :
    (iblk3 V c 1 t : FVec Ideal S4000x128 .f32) (ix2 p k)
      = (V c main_v38 : FVec Ideal S200000x128 .f32) (ix2 ⟨t.val * 4000 + p.val, row_lt3 t p⟩ k) := by
  obtain ⟨-, -, e0, e1, -⟩ := idx_facts3 t
  unfold iblk3
  rw [View.read_apply]
  show V c main_v38 _ = V c main_v38 _
  refine congrArg (V c main_v38) (funext fun a => Fin.ext ?_)
  match a with
  | ⟨0, _⟩ => show win3_1.index t (0 : Fin 2) * 4000 + 1 * p.val = t.val * 4000 + p.val; rw [e0]; omega
  | ⟨1, _⟩ => show win3_1.index t (1 : Fin 2) * 128 + 1 * k.val = k.val; rw [e1]; omega

/-- The weight and bias windows' blocks are their whole arrays. -/
private theorem w1blk3_eq (c : Dev nD) (t : Fin cfg3.N) :
    (iblk3 V c 2 t : FVec Ideal S128x128 .f32) = (V c main_v40 : FVec Ideal S128x128 .f32) := by
  obtain ⟨-, -, -, -, e0, e1, -⟩ := idx_facts3 t
  funext y
  unfold iblk3
  rw [View.read_apply]
  show V c main_v40 _ = V c main_v40 y
  refine congrArg (V c main_v40) (funext fun a => Fin.ext ?_)
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

private theorem b1blk3_eq (c : Dev nD) (t : Fin cfg3.N) :
    (iblk3 V c 3 t : FVec Ideal S1x128 .f32) = (V c main_v47 : FVec Ideal S1x128 .f32) := by
  obtain ⟨-, -, -, -, -, -, e0, e1, -⟩ := idx_facts3 t
  funext y
  unfold iblk3
  rw [View.read_apply]
  show V c main_v47 _ = V c main_v47 y
  refine congrArg (V c main_v47) (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

private theorem w2blk3_eq (c : Dev nD) (t : Fin cfg3.N) :
    (iblk3 V c 4 t : FVec Ideal S128x128 .f32) = (V c main_v44 : FVec Ideal S128x128 .f32) := by
  obtain ⟨-, -, -, -, -, -, -, -, e0, e1, -⟩ := idx_facts3 t
  funext y
  unfold iblk3
  rw [View.read_apply]
  show V c main_v44 _ = V c main_v44 y
  refine congrArg (V c main_v44) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

private theorem b2blk3_eq (c : Dev nD) (t : Fin cfg3.N) :
    (iblk3 V c 5 t : FVec Ideal S1x128 .f32) = (V c main_v48 : FVec Ideal S1x128 .f32) := by
  obtain ⟨-, -, -, -, -, -, -, -, -, -, e0, e1, -⟩ := idx_facts3 t
  funext y
  unfold iblk3
  rw [View.read_apply]
  show V c main_v48 _ = V c main_v48 y
  refine congrArg (V c main_v48) (funext fun a => Fin.ext ?_)
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- Entry (p, q) of the output window's block at point t is entry (4000·t + p, q) of the output array. -/
private theorem outblk3_emb (t : Fin cfg3.N) (p : Fin 4000) (q : Fin 128) :
    (((cfg3.win 6).blk t).view.emb (ix2 p q) : S200000x128.Idx) = ix2 ⟨t.val * 4000 + p.val, row_lt3 t p⟩ q := by
  obtain ⟨-, -, -, -, -, -, -, -, -, -, -, -, e0, e1⟩ := idx_facts3 t
  refine funext fun a => Fin.ext ?_
  match a with
  | ⟨0, _⟩ => show win3_6.index t (0 : Fin 2) * 4000 + 1 * p.val = t.val * 4000 + p.val; rw [e0]; omega
  | ⟨1, _⟩ => show win3_6.index t (1 : Fin 2) * 128 + 1 * q.val = q.val; rw [e1]; omega

/-- What point t writes back is block t of the layer's dense part of the six arrays: every entry of the block depends
    on row 4000·t + p of x and agg only, and on all of the weights and biases. -/
private theorem flushed3_eq (c : Dev nD) (t : Fin cfg3.N) :
    (dat3 (F := Ideal) V c).flushed 6 t = ((cfg3.win 6).blk t).view.read (Elt Ideal)
      (mlpRows (V c main_v32) (V c main_v38) (V c main_v40) (V c main_v47) (V c main_v44) (V c main_v48)) := by
  show (cfg3.win 6).cut (grid3.coords t) ((dat3 (F := Ideal) V c).after 6 t) = _
  rw [after3_6]
  unfold out3_6
  rw [View.canon_unit_zero zeroOffsets]
  simp only [View.ld_unit_zero (S := S4000x128) zeroOffsets, View.ld_unit_zero (S := S128x128) zeroOffsets, View.ld_unit_zero (S := S1x128) zeroOffsets]
  rw [w1blk3_eq V c t, b1blk3_eq V c t, w2blk3_eq V c t, b2blk3_eq V c t]
  refine funext fun (j : S4000x128.Idx) => ?_
  obtain ⟨p, q, rfl⟩ : ∃ (p : Fin 4000) (q : Fin 128), j = ix2 p q := ⟨j 0, j 1, eq_ix2 j⟩
  show k3_pay1 (F := Ideal) (iblk3 V c 0 t) (iblk3 V c 1 t) (V c main_v40) (V c main_v47) (V c main_v44) (V c main_v48) (ix2 p q)
    = mlpRows (V c main_v32) (V c main_v38) (V c main_v40) (V c main_v47) (V c main_v44) (V c main_v48) (((cfg3.win 6).blk t).view.emb (ix2 p q))
  rw [outblk3_emb t p q]
  refine (pay3_apply (iblk3 V c 0 t) (iblk3 V c 1 t) (V c main_v40) (V c main_v47) (V c main_v44) (V c main_v48) p q).trans ?_
  unfold blockMlp mlpRows hidden
  refine congrArg₂ (· + ·) (Finset.sum_congr rfl fun k _ => congrArg₂ (· * ·) (congrArg₂ max (congrArg₂ (· + ·) (Finset.sum_congr rfl fun k' _ => ?_) rfl) rfl) rfl) rfl
  rw [xblk3_apply V c t p k', aggblk3_apply V c t p k']

/-- An index of the output array is in point t's block iff each coordinate is in the block's range on its axis. -/
private theorem mem_blk3 (t : Fin cfg3.N) (i : S200000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v49).slice (win3_6.rect t)).set ↔ _
  rw [View.set_slice_whole, Rect.mem_set_unit]
  exact Iff.rfl

/-- Row r of the output array is written by point r / 4000. -/
private theorem cover3 (i : S200000x128.Idx) :
    ∃ t : Fin cfg3.N, (cfg3.win 6).flush t = true ∧ i ∈ ((cfg3.win 6).blk t).view.set := by
  have h0 : (i 0).val < 200000 := (i 0).isLt
  have h1 : (i 1).val < 128 := (i 1).isLt
  have hN : cfg3.N = 50 := N_3
  obtain ⟨t, ht⟩ : ∃ t : Fin cfg3.N, t.val = (i 0).val / 4000 := ⟨⟨(i 0).val / 4000, by rw [hN]; omega⟩, rfl⟩
  obtain ⟨-, -, -, -, -, -, -, -, -, -, -, -, e0, e1⟩ := idx_facts3 t
  refine ⟨t, flush3_6 t, ?_⟩
  rw [mem_blk3]
  intro a
  match a with
  | ⟨0, _⟩ => show win3_6.index t (0 : Fin 2) * 4000 ≤ (i 0).val ∧ (i 0).val < win3_6.index t (0 : Fin 2) * 4000 + 4000; rw [e0, ht]; omega
  | ⟨1, _⟩ => show win3_6.index t (1 : Fin 2) * 128 ≤ (i 1).val ∧ (i 1).val < win3_6.index t (1 : Fin 2) * 128 + 128; rw [e1]; omega

theorem arr3 (c : Dev nD) : (dat3 (F := Ideal) V c).arrAt 6 cfg3.N
    = mlpRows (V c main_v32) (V c main_v38) (V c main_v40) (V c main_v47) (V c main_v44) (V c main_v48) :=
  (dat3 (F := Ideal) V c).arrAt_eq_of_cover 6 _ (fun t _ => flushed3_eq V c t) cover3

/-! ## Region 4: from blocks to the array -/

/-- The printed index maps over the 50 points: the row-blocked windows sit at block row t, column block 0; the weight and
    bias windows at block (0, 0). -/
private theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of point t's block is row 4000·t + p of the array. -/
private theorem row_lt4 (t : Fin cfg4.N) (p : Fin 4000) : t.val * 4000 + p.val < 200000 := by
  have hN : cfg4.N = 50 := N_4
  have := t.isLt; have := p.isLt; omega

/-- The x window's block at point t is rows 4000·t … 4000·t + 3999 of the x array. -/
private theorem xblk4_apply (c : Dev nD) (t : Fin cfg4.N) (p : Fin 4000) (k : Fin 128) :
    (iblk4 V c 0 t : FVec Ideal S4000x128 .f32) (ix2 p k)
      = (V c main_v49 : FVec Ideal S200000x128 .f32) (ix2 ⟨t.val * 4000 + p.val, row_lt4 t p⟩ k) := by
  obtain ⟨e0, e1, -⟩ := idx_facts4 t
  unfold iblk4
  rw [View.read_apply]
  show V c main_v49 _ = V c main_v49 _
  refine congrArg (V c main_v49) (funext fun a => Fin.ext ?_)
  match a with
  | ⟨0, _⟩ => show win4_0.index t (0 : Fin 2) * 4000 + 1 * p.val = t.val * 4000 + p.val; rw [e0]; omega
  | ⟨1, _⟩ => show win4_0.index t (1 : Fin 2) * 128 + 1 * k.val = k.val; rw [e1]; omega

/-- The agg window's block likewise. -/
private theorem aggblk4_apply (c : Dev nD) (t : Fin cfg4.N) (p : Fin 4000) (k : Fin 128) :
    (iblk4 V c 1 t : FVec Ideal S4000x128 .f32) (ix2 p k)
      = (V c main_v55 : FVec Ideal S200000x128 .f32) (ix2 ⟨t.val * 4000 + p.val, row_lt4 t p⟩ k) := by
  obtain ⟨-, -, e0, e1, -⟩ := idx_facts4 t
  unfold iblk4
  rw [View.read_apply]
  show V c main_v55 _ = V c main_v55 _
  refine congrArg (V c main_v55) (funext fun a => Fin.ext ?_)
  match a with
  | ⟨0, _⟩ => show win4_1.index t (0 : Fin 2) * 4000 + 1 * p.val = t.val * 4000 + p.val; rw [e0]; omega
  | ⟨1, _⟩ => show win4_1.index t (1 : Fin 2) * 128 + 1 * k.val = k.val; rw [e1]; omega

/-- The weight and bias windows' blocks are their whole arrays. -/
private theorem w1blk4_eq (c : Dev nD) (t : Fin cfg4.N) :
    (iblk4 V c 2 t : FVec Ideal S128x128 .f32) = (V c main_v57 : FVec Ideal S128x128 .f32) := by
  obtain ⟨-, -, -, -, e0, e1, -⟩ := idx_facts4 t
  funext y
  unfold iblk4
  rw [View.read_apply]
  show V c main_v57 _ = V c main_v57 y
  refine congrArg (V c main_v57) (funext fun a => Fin.ext ?_)
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

private theorem b1blk4_eq (c : Dev nD) (t : Fin cfg4.N) :
    (iblk4 V c 3 t : FVec Ideal S1x128 .f32) = (V c main_v64 : FVec Ideal S1x128 .f32) := by
  obtain ⟨-, -, -, -, -, -, e0, e1, -⟩ := idx_facts4 t
  funext y
  unfold iblk4
  rw [View.read_apply]
  show V c main_v64 _ = V c main_v64 y
  refine congrArg (V c main_v64) (funext fun a => Fin.ext ?_)
  match a with
  | ⟨0, _⟩ => show win4_3.index t (0 : Fin 2) * 1 + 1 * (y 0).val = (y 0).val; rw [e0]; omega
  | ⟨1, _⟩ => show win4_3.index t (1 : Fin 2) * 128 + 1 * (y 1).val = (y 1).val; rw [e1]; omega

private theorem w2blk4_eq (c : Dev nD) (t : Fin cfg4.N) :
    (iblk4 V c 4 t : FVec Ideal S128x128 .f32) = (V c main_v61 : FVec Ideal S128x128 .f32) := by
  obtain ⟨-, -, -, -, -, -, -, -, e0, e1, -⟩ := idx_facts4 t
  funext y
  unfold iblk4
  rw [View.read_apply]
  show V c main_v61 _ = V c main_v61 y
  refine congrArg (V c main_v61) (funext fun a => Fin.ext ?_)
  match a with
  | ⟨0, _⟩ => show win4_4.index t (0 : Fin 2) * 128 + 1 * (y 0).val = (y 0).val; rw [e0]; omega
  | ⟨1, _⟩ => show win4_4.index t (1 : Fin 2) * 128 + 1 * (y 1).val = (y 1).val; rw [e1]; omega

private theorem b2blk4_eq (c : Dev nD) (t : Fin cfg4.N) :
    (iblk4 V c 5 t : FVec Ideal S1x128 .f32) = (V c main_v65 : FVec Ideal S1x128 .f32) := by
  obtain ⟨-, -, -, -, -, -, -, -, -, -, e0, e1, -⟩ := idx_facts4 t
  funext y
  unfold iblk4
  rw [View.read_apply]
  show V c main_v65 _ = V c main_v65 y
  refine congrArg (V c main_v65) (funext fun a => Fin.ext ?_)
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

/-- Entry (p, q) of the output window's block at point t is entry (4000·t + p, q) of the output array. -/
private theorem outblk4_emb (t : Fin cfg4.N) (p : Fin 4000) (q : Fin 128) :
    (((cfg4.win 6).blk t).view.emb (ix2 p q) : S200000x128.Idx) = ix2 ⟨t.val * 4000 + p.val, row_lt4 t p⟩ q := by
  obtain ⟨-, -, -, -, -, -, -, -, -, -, -, -, e0, e1⟩ := idx_facts4 t
  refine funext fun a => Fin.ext ?_
  match a with
  | ⟨0, _⟩ => show win4_6.index t (0 : Fin 2) * 4000 + 1 * p.val = t.val * 4000 + p.val; rw [e0]; omega
  | ⟨1, _⟩ => show win4_6.index t (1 : Fin 2) * 128 + 1 * q.val = q.val; rw [e1]; omega

/-- What point t writes back is block t of the layer's dense part of the six arrays: every entry of the block depends
    on row 4000·t + p of x and agg only, and on all of the weights and biases. -/
private theorem flushed4_eq (c : Dev nD) (t : Fin cfg4.N) :
    (dat4 (F := Ideal) V c).flushed 6 t = ((cfg4.win 6).blk t).view.read (Elt Ideal)
      (mlpRows (V c main_v49) (V c main_v55) (V c main_v57) (V c main_v64) (V c main_v61) (V c main_v65)) := by
  show (cfg4.win 6).cut (grid4.coords t) ((dat4 (F := Ideal) V c).after 6 t) = _
  rw [after4_6]
  unfold out4_6
  rw [View.canon_unit_zero zeroOffsets]
  simp only [View.ld_unit_zero (S := S4000x128) zeroOffsets, View.ld_unit_zero (S := S128x128) zeroOffsets, View.ld_unit_zero (S := S1x128) zeroOffsets]
  rw [w1blk4_eq V c t, b1blk4_eq V c t, w2blk4_eq V c t, b2blk4_eq V c t]
  refine funext fun (j : S4000x128.Idx) => ?_
  obtain ⟨p, q, rfl⟩ : ∃ (p : Fin 4000) (q : Fin 128), j = ix2 p q := ⟨j 0, j 1, eq_ix2 j⟩
  show k4_pay1 (F := Ideal) (iblk4 V c 0 t) (iblk4 V c 1 t) (V c main_v57) (V c main_v64) (V c main_v61) (V c main_v65) (ix2 p q)
    = mlpRows (V c main_v49) (V c main_v55) (V c main_v57) (V c main_v64) (V c main_v61) (V c main_v65) (((cfg4.win 6).blk t).view.emb (ix2 p q))
  rw [outblk4_emb t p q]
  refine (pay4_apply (iblk4 V c 0 t) (iblk4 V c 1 t) (V c main_v57) (V c main_v64) (V c main_v61) (V c main_v65) p q).trans ?_
  unfold blockMlp mlpRows hidden
  refine congrArg₂ (· + ·) (Finset.sum_congr rfl fun k _ => congrArg₂ (· * ·) (congrArg₂ max (congrArg₂ (· + ·) (Finset.sum_congr rfl fun k' _ => ?_) rfl) rfl) rfl) rfl
  rw [xblk4_apply V c t p k', aggblk4_apply V c t p k']

/-- An index of the output array is in point t's block iff each coordinate is in the block's range on its axis. -/
private theorem mem_blk4 (t : Fin cfg4.N) (i : S200000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v66).slice (win4_6.rect t)).set ↔ _
  rw [View.set_slice_whole, Rect.mem_set_unit]
  exact Iff.rfl

/-- Row r of the output array is written by point r / 4000. -/
private theorem cover4 (i : S200000x128.Idx) :
    ∃ t : Fin cfg4.N, (cfg4.win 6).flush t = true ∧ i ∈ ((cfg4.win 6).blk t).view.set := by
  have h0 : (i 0).val < 200000 := (i 0).isLt
  have h1 : (i 1).val < 128 := (i 1).isLt
  have hN : cfg4.N = 50 := N_4
  obtain ⟨t, ht⟩ : ∃ t : Fin cfg4.N, t.val = (i 0).val / 4000 := ⟨⟨(i 0).val / 4000, by rw [hN]; omega⟩, rfl⟩
  obtain ⟨-, -, -, -, -, -, -, -, -, -, -, -, e0, e1⟩ := idx_facts4 t
  refine ⟨t, flush4_6 t, ?_⟩
  rw [mem_blk4]
  intro a
  match a with
  | ⟨0, _⟩ => show win4_6.index t (0 : Fin 2) * 4000 ≤ (i 0).val ∧ (i 0).val < win4_6.index t (0 : Fin 2) * 4000 + 4000; rw [e0, ht]; omega
  | ⟨1, _⟩ => show win4_6.index t (1 : Fin 2) * 128 ≤ (i 1).val ∧ (i 1).val < win4_6.index t (1 : Fin 2) * 128 + 128; rw [e1]; omega

theorem arr4 (c : Dev nD) : (dat4 (F := Ideal) V c).arrAt 6 cfg4.N
    = mlpRows (V c main_v49) (V c main_v55) (V c main_v57) (V c main_v64) (V c main_v61) (V c main_v65) :=
  (dat4 (F := Ideal) V c).arrAt_eq_of_cover 6 _ (fun t _ => flushed4_eq V c t) cover4

end Cert.Gnn.Region

end
-- ==== Proof.RegionProj.lean ====
/-
  The projection region: after the whole grid has run, the output array is the projection of the five input arrays.
-/
import proofs.«414959_j88416196756193_1_alg».proof.Proof.Spec
import proofs.«414959_j88416196756193_1_alg».proof.Proof.Gen.KernelIdeal.Frame
import Idealize.ShloMosaic.Lib.Pipeline.Value
import Idealize.ShloMosaic.PureOps.Ideal.Laws

noncomputable section

namespace Cert.Gnn.Region

open Idealize.ShloMosaic Idealize.ShloMosaic.TcCoe Idealize.ShloMosaic.ValueIdx Idealize.SL.Sem
open Cert.KernelIdeal Cert.KernelIdeal.Gen Cert.Gnn

variable (V : (c : Dev nD) → (b : Ref sig .tc) → Buf (Elt Ideal) ((c : Thread nD τ).loc b))

/-! ## A block times a 128 × 128 matrix, at an index -/

private theorem mm_lhs0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
private theorem mm_lhs1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
private theorem mm_rhs0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
private theorem mm_rhs1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The matrix unit's product into a zero accumulator, at row p and column q: the sum over the shared axis. -/
private theorem mm_apply {φ₁ φ₂ : FTy} (a : FVec Ideal S2048x128 φ₁) (b : FVec Ideal S128x128 φ₂) (p : Fin 2048) (q : Fin 128) :
    matmul (F := Ideal) dot_S2048x128_S128x128_S2048x128_1_0_0_1_n_n none a b (constant (F := Ideal) S2048x128 .f32 0x00000000#32) (ix2 p q)
      = ∑ k : Fin 128, a (ix2 p k) * b (ix2 k q) := by
  refine (Ideal.matmul_constant_zero_apply dot_S2048x128_S128x128_S2048x128_1_0_0_1_n_n none a b (ix2 p q)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k :=
    funext fun ax => Fin.ext (by
      match ax with
      | ⟨0, _⟩ => exact mm_lhs0 _ _
      | ⟨1, _⟩ => exact (mm_lhs1 _ _).trans hk)
  have er : dot_S2048x128_S128x128_S2048x128_1_0_0_1_n_n.rhsIdx (ix2 p q) ((contrEquiv1 dot_S2048x128_S128x128_S2048x128_1_0_0_1_n_n 128 rfl rfl).symm k) = ix2 k q :=
    funext fun ax => Fin.ext (by
      match ax with
      | ⟨0, _⟩ => exact (mm_rhs0 _ _).trans hk
      | ⟨1, _⟩ => exact mm_rhs1 _ _)
  rw [el, er]

/-! ## The body's arithmetic at an index of the block -/

/-- The pre-activation of row p of a block, unit k. -/
private def preBlk (x : Vec Ideal S2048x128 .f32) (w1 : Vec Ideal S128x128 .f32) (b1 : Vec Ideal S1x128 .f32)
    (p : Fin 2048) (k : Fin 128) : EReal :=
  (∑ k' : Fin 128, x (ix2 p k') * w1 (ix2 k' k)) + b1 (ix2 (0 : Fin 1) k)

/-- One row spread over the 2048 rows of a block reads that row. -/
private theorem row_apply (b : Vec Ideal S1x128 .f32) (hc : S1x128.ShapeCasts S1x128) (hb : S1x128.Broadcasts S2048x128)
    (p : Fin 2048) (q : Fin 128) :
    broadcastTo S2048x128 (shapeCast S1x128 b hc) hb (ix2 p q) = b (ix2 (0 : Fin 1) q) := by
  rw [shapeCast_self]
  refine broadcastTo_apply b hb (ix2 p q) (ix2 (0 : Fin 1) q) fun ax => ?_
  match ax with
  | ⟨0, _⟩ => rfl
  | ⟨1, _⟩ => rfl

/-- The logistic function is applied element by element. -/
private theorem logistic_at {s : Shape} {φ : FTy} (a : FVec Ideal s φ) (i : s.Idx) : logistic a i = Ideal.logistic (a i) := rfl

/-- The first product plus its bias row, at row p and unit k, is the pre-activation. -/
private theorem pre_apply (x : Vec Ideal S2048x128 .f32) (w1 : Vec Ideal S128x128 .f32) (b1 : Vec Ideal S1x128 .f32)
    (hs : S2048x128.ShapeCasts S2048x128) (hc : S1x128.ShapeCasts S1x128) (hb : S1x128.Broadcasts S2048x128)
    (h1 : FTy.bf16.bits < FTy.f32.bits) (p : Fin 2048) (k : Fin 128) :
    addf (matmul (F := Ideal) dot_S2048x128_S128x128_S2048x128_1_0_0_1_n_n none (truncf .bf16 (shapeCast S2048x128 x hs) h1)
        (truncf .bf16 w1 h1) (constant (F := Ideal) S2048x128 .f32 0x00000000#32))
      (broadcastTo S2048x128 (shapeCast S1x128 b1 hc) hb) (ix2 p k) = preBlk x w1 b1 p k := by
  rw [addf_apply, row_apply, mm_apply, shapeCast_self]
  rfl

/-- The body's result at row p, column q of the block. -/
private theorem pay_apply (x : Vec Ideal S2048x128 .f32) (w1 : Vec Ideal S128x128 .f32) (b1 : Vec Ideal S1x128 .f32)
    (w2 : Vec Ideal S128x128 .f32) (b2 : Vec Ideal S1x128 .f32) (p : Fin 2048) (q : Fin 128) :
    k5_pay1 (F := Ideal) x w1 b1 w2 b2 (ix2 p q)
      = (∑ k : Fin 128, silu (preBlk x w1 b1 p k) * w2 (ix2 k q)) + b2 (ix2 (0 : Fin 1) q) := by
  unfold k5_pay1
  rw [addf_apply, row_apply]
  refine congrArg (· + b2 (ix2 (0 : Fin 1) q)) ?_
  refine (mm_apply _ _ p q).trans ?_
  refine Finset.sum_congr rfl fun k _ => ?_
  rw [truncf_apply, truncf_apply, mulf_apply]
  refine congrArg (· * w2 (ix2 k q)) ?_
  rw [logistic_at, pre_apply]
  rfl

/-! ## The windows' blocks, read off the arrays -/

/-- The index maps over the four grid points: the row-blocked windows sit at block (t, 0), the others at (0, 0). -/
private theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ t.val < 4 :=
  (by decide +kernel : ∀ t : Fin grid5.N, _)

/-- Row r = t · 2048 + p of the whole array, for a point t and a row p of its block. -/
private def rowOf (t : Fin cfg5.N) (p : Fin 2048) : Fin 8192 :=
  ⟨t.val * 2048 + p.val, by have := (idx_facts t).2.2.2.2.2.2.2.2.2.2.2.2; have := p.isLt; omega⟩

/-- Window 0's block at point t is rows t · 2048 … of the pooled features. -/
private theorem blk0_apply (c : Dev nD) (t : Fin cfg5.N) (p : Fin 2048) (k : Fin 128) :
    iblk5 V c 0 t (ix2 p k) = V c main_v78 (ix2 (rowOf t p) k) := by
  obtain ⟨e0, e1, -⟩ := idx_facts t
  unfold iblk5
  show V c main_v78 (((cfg5.win 0).blk t).view.emb (ix2 p k)) = _
  refine congrArg (V c main_v78) (funext fun a => Fin.ext ?_)
  match a with
  | ⟨0, _⟩ => show win5_0.index t (0 : Fin 2) * 2048 + 1 * p.val = t.val * 2048 + p.val; omega
  | ⟨1, _⟩ => show win5_0.index t (1 : Fin 2) * 128 + 1 * k.val = k.val; omega

/-- Window 1's block is the whole first weight matrix. -/
private theorem blk1_apply (c : Dev nD) (t : Fin cfg5.N) (a b : Fin 128) :
    iblk5 V c 1 t (ix2 a b) = V c main_arg10 (ix2 a b) := by
  obtain ⟨-, -, e0, e1, -⟩ := idx_facts t
  unfold iblk5
  show V c main_arg10 (((cfg5.win 1).blk t).view.emb (ix2 a b)) = _
  refine congrArg (V c main_arg10) (funext fun ax => Fin.ext ?_)
  match ax with
  | ⟨0, _⟩ => show win5_1.index t (0 : Fin 2) * 128 + 1 * a.val = a.val; omega
  | ⟨1, _⟩ => show win5_1.index t (1 : Fin 2) * 128 + 1 * b.val = b.val; omega

/-- Window 2's block is the whole first bias row. -/
private theorem blk2_apply (c : Dev nD) (t : Fin cfg5.N) (z : Fin 1) (b : Fin 128) :
    iblk5 V c 2 t (ix2 z b) = V c main_v79 (ix2 z b) := by
  obtain ⟨-, -, -, -, e0, e1, -⟩ := idx_facts t
  unfold iblk5
  show V c main_v79 (((cfg5.win 2).blk t).view.emb (ix2 z b)) = _
  refine congrArg (V c main_v79) (funext fun ax => Fin.ext ?_)
  match ax with
  | ⟨0, _⟩ => show win5_2.index t (0 : Fin 2) * 1 + 1 * z.val = z.val; omega
  | ⟨1, _⟩ => show win5_2.index t (1 : Fin 2) * 128 + 1 * b.val = b.val; omega

/-- Window 3's block is the whole second weight matrix. -/
private theorem blk3_apply (c : Dev nD) (t : Fin cfg5.N) (a b : Fin 128) :
    iblk5 V c 3 t (ix2 a b) = V c main_arg12 (ix2 a b) := by
  obtain ⟨-, -, -, -, -, -, e0, e1, -⟩ := idx_facts t
  unfold iblk5
  show V c main_arg12 (((cfg5.win 3).blk t).view.emb (ix2 a b)) = _
  refine congrArg (V c main_arg12) (funext fun ax => Fin.ext ?_)
  match ax with
  | ⟨0, _⟩ => show win5_3.index t (0 : Fin 2) * 128 + 1 * a.val = a.val; omega
  | ⟨1, _⟩ => show win5_3.index t (1 : Fin 2) * 128 + 1 * b.val = b.val; omega

/-- Window 4's block is the whole second bias row. -/
private theorem blk4_apply (c : Dev nD) (t : Fin cfg5.N) (z : Fin 1) (b : Fin 128) :
    iblk5 V c 4 t (ix2 z b) = V c main_v80 (ix2 z b) := by
  obtain ⟨-, -, -, -, -, -, -, -, e0, e1, -⟩ := idx_facts t
  unfold iblk5
  show V c main_v80 (((cfg5.win 4).blk t).view.emb (ix2 z b)) = _
  refine congrArg (V c main_v80) (funext fun ax => Fin.ext ?_)
  match ax with
  | ⟨0, _⟩ => show win5_4.index t (0 : Fin 2) * 1 + 1 * z.val = z.val; omega
  | ⟨1, _⟩ => show win5_4.index t (1 : Fin 2) * 128 + 1 * b.val = b.val; omega

/-- Row p, column q of the output's block at point t is row t · 2048 + p, column q of the array. -/
private theorem emb5_apply (t : Fin cfg5.N) (p : Fin 2048) (q : Fin 128) :
    ((cfg5.win 5).blk t).view.emb (ix2 p q) = ix2 (rowOf t p) q := by
  obtain ⟨-, -, -, -, -, -, -, -, -, -, e0, e1, -⟩ := idx_facts t
  refine funext fun ax => Fin.ext ?_
  match ax with
  | ⟨0, _⟩ => show win5_5.index t (0 : Fin 2) * 2048 + 1 * p.val = t.val * 2048 + p.val; omega
  | ⟨1, _⟩ => show win5_5.index t (1 : Fin 2) * 128 + 1 * q.val = q.val; omega

/-! ## What a point writes back -/

private theorem zeros2 : (![0, 0] : Fin 2 → Nat) = fun _ => 0 := funext fun a => by fin_cases a <;> rfl

/-- Point t writes back block t of the projection of the five arrays. -/
private theorem flushed_eq (c : Dev nD) (t : Fin cfg5.N) :
    (dat5 (F := Ideal) V c).flushed 5 t = ((cfg5.win 5).blk t).view.read (Elt Ideal)
      (projRows (V c main_v78) (V c main_arg10) (V c main_v79) (V c main_arg12) (V c main_v80)) := by
  show (cfg5.win 5).cut (grid5.coords t) ((dat5 V c).after 5 t) = _
  rw [after5_5]
  unfold out5_5
  rw [View.canon_unit_zero zeros2]
  simp only [View.ld_unit_zero (S := S2048x128) zeros2, View.ld_unit_zero (S := S128x128) zeros2, View.ld_unit_zero (S := S1x128) zeros2]
  funext j
  obtain ⟨p, q, rfl⟩ : ∃ (p : Fin 2048) (q : Fin 128), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = projRows (V c main_v78) (V c main_arg10) (V c main_v79) (V c main_arg12) (V c main_v80) (((cfg5.win 5).blk t).view.emb (ix2 p q))
  rw [emb5_apply, pay_apply]
  show (∑ k : Fin 128, silu (preBlk (iblk5 V c 0 t) (iblk5 V c 1 t) (iblk5 V c 2 t) p k) * iblk5 V c 3 t (ix2 k q)) + iblk5 V c 4 t (ix2 (0 : Fin 1) q)
    = (∑ k : Fin 128, silu (preact (V c main_v78) (V c main_arg10) (V c main_v79) (rowOf t p) k) * V c main_arg12 (ix2 k q)) + V c main_v80 (ix2 (0 : Fin 1) q)
  rw [blk4_apply]
  refine congrArg (· + V c main_v80 (ix2 (0 : Fin 1) q)) (Finset.sum_congr rfl fun k _ => ?_)
  rw [blk3_apply]
  refine congrArg (fun z => silu z * V c main_arg12 (ix2 k q)) ?_
  unfold preBlk preact
  rw [blk2_apply]
  refine congrArg (· + V c main_v79 (ix2 (0 : Fin 1) k)) (Finset.sum_congr rfl fun k' _ => ?_)
  rw [blk0_apply, blk1_apply]

/-! ## From the blocks to the array -/

/-- An index of the array is in point t's block iff each coordinate is in the block's range on its axis. -/
private theorem mem_blk (t : Fin cfg5.N) (i : S8192x128.Idx) :
    i ∈ ((cfg5.win 5).blk t).view.set ↔ ∀ a : Fin 2, win5_5.index t a * S2048x128.size a ≤ (i a).val
      ∧ (i a).val < win5_5.index t a * S2048x128.size a + S2048x128.size a := by
  show i ∈ ((View.whole main_v81).slice (win5_5.rect t)).set ↔ _
  rw [View.set_slice_whole, Rect.mem_set_unit]
  exact Iff.rfl

/-- Row r of the array is in the block of point r / 2048. -/
private theorem covered (i : S8192x128.Idx) :
    ∃ t : Fin cfg5.N, (cfg5.win 5).flush t = true ∧ i ∈ ((cfg5.win 5).blk t).view.set := by
  have hi0 : (i 0).val < 8192 := (i 0).isLt
  have hi1 : (i 1).val < 128 := (i 1).isLt
  obtain ⟨t, ht⟩ : ∃ t : Fin cfg5.N, t.val = (i 0).val / 2048 :=
    ⟨⟨(i 0).val / 2048, by rw [show cfg5.N = 4 from N_5]; omega⟩, rfl⟩
  obtain ⟨-, -, -, -, -, -, -, -, -, -, e0, e1, -⟩ := idx_facts t
  refine ⟨t, flush5_5 t, ?_⟩
  rw [mem_blk]
  intro a
  match a with
  | ⟨0, _⟩ =>
    show win5_5.index t (0 : Fin 2) * 2048 ≤ (i 0).val ∧ (i 0).val < win5_5.index t (0 : Fin 2) * 2048 + 2048
    omega
  | ⟨1, _⟩ =>
    show win5_5.index t (1 : Fin 2) * 128 ≤ (i 1).val ∧ (i 1).val < win5_5.index t (1 : Fin 2) * 128 + 128
    omega

theorem arr5 (c : Dev nD) : (dat5 (F := Ideal) V c).arrAt 5 cfg5.N
    = projRows (V c main_v78) (V c main_arg10) (V c main_v79) (V c main_arg12) (V c main_v80) :=
  (dat5 (F := Ideal) V c).arrAt_eq_of_cover 5 _ (fun t _ => flushed_eq V c t) covered

end Cert.Gnn.Region

end
-- ==== Proof.PlumbA.lean ====
/-
  The program's buffers after the two lookup regions: the node-feature and edge-feature arrays as functions of the arguments.
-/
import proofs.«414959_j88416196756193_1_alg».proof.Proof.KStages
import proofs.«414959_j88416196756193_1_alg».proof.Proof.RegionEmbed
import proofs.«414959_j88416196756193_1_alg».proof.Proof.RegionMlp
import proofs.«414959_j88416196756193_1_alg».proof.Proof.RegionProj
import proofs.«414959_j88416196756193_1_alg».proof.Proof.Gen.KernelIdeal.Frame
import Idealize.ShloMosaic.Lib.StableHlo.Run

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that no operation of a host stretch writes holds after the stretch what it held before. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Region 0's inputs: the clipped atom types as a column, and the padded atom table -/

/-- At region 0's entry the id column is the atom types clipped into [0, 119], reshaped to a column. -/
private theorem ids0 (c : Dev nD) :
    V5 m ρ c main_v9
      = shapeCast S200000x1 (K.atClip (m ((c.tc : Thread nD τ).loc main_arg0))) shapeCasts_S200000_S200000x1 := by
  show StableHlo.after hostOps0_4 (W4 m ρ c) (Proc.devRef .tc main_v9) = _
  after_results
  rfl

/-- At region 0's entry the table is the atom table written over the first rows of a zero 128 × 128 table. -/
private theorem tbl0 (c : Dev nD) :
    V5 m ρ c main_v8 = K.tbl4 (m ((c.tc : Thread nD τ).loc main_arg4)) := by
  show StableHlo.after hostOps0_4 (W4 m ρ c) (Proc.devRef .tc main_v8) = _
  after_results
  rfl

/-- After region 0 the node-feature buffer holds the initial node features. -/
theorem kp0 (c : Dev nD) : (W6 m ρ c (Proc.devRef .tc main_v10)) = K.x0 (m ((c.tc : Thread nD τ).loc main_arg0)) (m ((c.tc : Thread nD τ).loc main_arg4)) := by
  refine (W6_arr m ρ c (2 : Fin cfg0.W)).trans ?_
  refine (Region.arr0 (V5 m ρ) c).trans ?_
  rw [ids0 m ρ c, tbl0 m ρ c]
  rfl

/-! ## Region 1's inputs: the clipped bond types as a column, and the padded bond table -/

/-- Region 0 leaves the clipped bond types alone: after it they are still the bond types clipped into [0, 4]. -/
private theorem clip1 (c : Dev nD) :
    W6 m ρ c (Proc.devRef .tc main_v1) = K.etClip (m ((c.tc : Thread nD τ).loc main_arg2)) := by
  refine (W6_of_ne m ρ c main_v1 (by decide)).trans ?_
  show StableHlo.after hostOps0_4 (W4 m ρ c) (Proc.devRef .tc main_v1) = _
  after_results
  rfl

/-- Region 0 and the host operations before it leave the bond table argument as launched. -/
private theorem arg5 (c : Dev nD) :
    W6 m ρ c (Proc.devRef .tc main_arg5) = m ((c.tc : Thread nD τ).loc main_arg5) := by
  refine (W6_of_ne m ρ c main_arg5 (by decide)).trans ?_
  show StableHlo.after hostOps0_4 (W4 m ρ c) (Proc.devRef .tc main_arg5) = _
  after_results

/-- At region 1's entry the id column is the bond types clipped into [0, 4], reshaped to a column. -/
private theorem ids1 (c : Dev nD) :
    V7 m ρ c main_v14
      = shapeCast S400000x1 (K.etClip (m ((c.tc : Thread nD τ).loc main_arg2))) shapeCasts_S400000_S400000x1 := by
  show StableHlo.after hostOps1 (W6 m ρ c) (Proc.devRef .tc main_v14) = _
  after_results
  rw [clip1 m ρ c]
  rfl

/-- At region 1's entry the table is the bond table written over the first rows of a zero 128 × 128 table. -/
private theorem tbl1 (c : Dev nD) :
    V7 m ρ c main_v13 = K.tbl5 (m ((c.tc : Thread nD τ).loc main_arg5)) := by
  show StableHlo.after hostOps1 (W6 m ρ c) (Proc.devRef .tc main_v13) = _
  after_results
  rw [arg5 m ρ c]
  rfl

/-- After region 1 the edge-feature buffer holds the edge features. -/
theorem kp1 (c : Dev nD) : (W8 m ρ c (Proc.devRef .tc main_v15)) = K.ae (m ((c.tc : Thread nD τ).loc main_arg2)) (m ((c.tc : Thread nD τ).loc main_arg5)) := by
  refine (W8_arr m ρ c (2 : Fin cfg1.W)).trans ?_
  refine (Region.arr1 (V7 m ρ) c).trans ?_
  rw [ids1 m ρ c, tbl1 m ρ c]
  rfl

/-- Region 1 and the host operations before it leave the node-feature buffer alone. -/
theorem keep1 (c : Dev nD) : (W8 m ρ c (Proc.devRef .tc main_v10)) = (W6 m ρ c (Proc.devRef .tc main_v10)) := by
  refine (W8_of_ne m ρ c main_v10 (by decide)).trans ?_
  show StableHlo.after hostOps1 (W6 m ρ c) (Proc.devRef .tc main_v10) = _
  host_keep hostOps1

end Cert.Gnn.Plumb

end
-- ==== Proof.PlumbL0.lean ====
/-
  The program's buffers after dense-layer region 0: the new node features as the layer's dense part of the old ones and of the summed messages.
-/
import proofs.«414959_j88416196756193_1_alg».proof.Proof.KStages
import proofs.«414959_j88416196756193_1_alg».proof.Proof.RegionEmbed
import proofs.«414959_j88416196756193_1_alg».proof.Proof.RegionMlp
import proofs.«414959_j88416196756193_1_alg».proof.Proof.RegionProj
import proofs.«414959_j88416196756193_1_alg».proof.Proof.Gen.KernelIdeal.Frame
import Idealize.ShloMosaic.Lib.StableHlo.Run

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that none of a stretch's host operations writes holds after the stretch what it held before. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The same from the region's entry back to the layer's start, across the three earlier stretches. -/
local macro "walk_mid_L0" : tactic =>
  `(tactic| (refine Eq.trans (by host_keep hostOps2_2) ?_
             refine Eq.trans (by host_keep hostOps2_1) ?_
             refine Eq.trans (by host_keep hostOps2) ?_))

/-- The same across the whole layer: its region and its four stretches. -/
local macro "walk_L0" : tactic =>
  `(tactic| (refine (W13_of_ne _ _ _ _ (by decide)).trans ?_
             refine Eq.trans (by host_keep hostOps2_3) ?_
             walk_mid_L0))

/-- The same from the first layer's start back to the launch, across the two lookup regions and their stretches. -/
local macro "walk_pre" : tactic =>
  `(tactic| (refine (W8_of_ne _ _ _ _ (by decide)).trans ?_
             refine Eq.trans (by host_keep hostOps1) ?_
             refine (W6_of_ne _ _ _ _ (by decide)).trans ?_
             refine Eq.trans (by host_keep hostOps0_4) ?_
             refine Eq.trans (by host_keep hostOps0_3) ?_
             refine Eq.trans (by host_keep hostOps0_2) ?_
             refine Eq.trans (by host_keep hostOps0_1) ?_
             refine Eq.trans (by host_keep hostOps0) ?_))

/-! ## The arguments are as launched -/

private theorem arg1_W4 (c : Dev nD) : W4 m ρ c (Proc.devRef .tc main_arg1) = m ((c : Thread nD τ).loc main_arg1) :=
  calc W4 m ρ c (Proc.devRef .tc main_arg1)
    _ = W3 m ρ c (Proc.devRef .tc main_arg1) := by host_keep hostOps0_3
    _ = W2 m ρ c (Proc.devRef .tc main_arg1) := by host_keep hostOps0_2
    _ = W1 m ρ c (Proc.devRef .tc main_arg1) := by host_keep hostOps0_1
    _ = W0 m ρ c (Proc.devRef .tc main_arg1) := by host_keep hostOps0
    _ = m ((c : Thread nD τ).loc main_arg1) := rfl

private theorem arg6_W8 (c : Dev nD) : W8 m ρ c (Proc.devRef .tc main_arg6) = m ((c : Thread nD τ).loc main_arg6) := by
  walk_pre; rfl
private theorem arg7_W8 (c : Dev nD) : W8 m ρ c (Proc.devRef .tc main_arg7) = m ((c : Thread nD τ).loc main_arg7) := by
  walk_pre; rfl
private theorem arg8_W8 (c : Dev nD) : W8 m ρ c (Proc.devRef .tc main_arg8) = m ((c : Thread nD τ).loc main_arg8) := by
  walk_pre; rfl
private theorem arg9_W8 (c : Dev nD) : W8 m ρ c (Proc.devRef .tc main_arg9) = m ((c : Thread nD τ).loc main_arg9) := by
  walk_pre; rfl

/-! ## The edge list's two rows, written before the first region and untouched since -/

private theorem v3_W5 (c : Dev nD) : W5 m ρ c (Proc.devRef .tc main_v3) = K.src (m ((c : Thread nD τ).loc main_arg1)) := by
  rw [← arg1_W4 m ρ c]
  show StableHlo.after hostOps0_4 (W4 m ρ c) (Proc.devRef .tc main_v3) = _
  after_results
  rfl

private theorem v5_W5 (c : Dev nD) : W5 m ρ c (Proc.devRef .tc main_v5) = K.dst (m ((c : Thread nD τ).loc main_arg1)) := by
  rw [← arg1_W4 m ρ c]
  show StableHlo.after hostOps0_4 (W4 m ρ c) (Proc.devRef .tc main_v5) = _
  after_results
  rfl

private theorem v3_W8 (c : Dev nD) : W8 m ρ c (Proc.devRef .tc main_v3) = K.src (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by host_keep hostOps1
    _ = W5 m ρ c (Proc.devRef .tc main_v3) := W6_of_ne m ρ c main_v3 (by decide)
    _ = K.src (m ((c : Thread nD τ).loc main_arg1)) := v3_W5 m ρ c

private theorem v5_W8 (c : Dev nD) : W8 m ρ c (Proc.devRef .tc main_v5) = K.dst (m ((c : Thread nD τ).loc main_arg1)) :=
  calc W8 m ρ c (Proc.devRef .tc main_v5)
    _ = W7 m ρ c (Proc.devRef .tc main_v5) := W8_of_ne m ρ c main_v5 (by decide)
    _ = W6 m ρ c (Proc.devRef .tc main_v5) := by host_keep hostOps1
    _ = W5 m ρ c (Proc.devRef .tc main_v5) := W6_of_ne m ρ c main_v5 (by decide)
    _ = K.dst (m ((c : Thread nD τ).loc main_arg1)) := v5_W5 m ρ c

/-- Carrying a value to an equal type and back gives the value. -/
private theorem cast_cast_self {α β : Type} (h₁ : α = β) (h₂ : β = α) (a : α) : cast h₂ (cast h₁ a) = a := by
  subst h₁; rfl

/-! ## The layer's host operations, one stretch at a time, from arbitrary contents at the stretch's start -/

/-- The guarded row gather of the node features at the edges' sources. -/
private theorem take_read (V : Valuation τ sig (Elt Ideal)) : StableHlo.after hostOps2 V (Proc.devRef .tc main_v16)
    = K.take (V (Proc.devRef .tc main_v10)) (V (Proc.devRef .tc main_v3)) := by
  after_results_simp
  simp only [TRef.ofBuf, TRef.toBuf, cast_cast_self]
  simp only [cast_eq]
  rfl

/-- The edge features are added. -/
private theorem add_read (V : Valuation τ sig (Elt Ideal)) :
    @Eq (FVec Ideal S400000x128 .f32) (StableHlo.after hostOps2_1 V (Proc.devRef .tc main_v17))
      (addf (V (Proc.devRef .tc main_v16)) (V (Proc.devRef .tc main_v15))) := by
  after_results

/-- The positive part. -/
private theorem relu_read (V : Valuation τ sig (Elt Ideal)) :
    @Eq (FVec Ideal S400000x128 .f32) (StableHlo.after hostOps2_2 V (Proc.devRef .tc main_v18))
      (maximumf (V (Proc.devRef .tc main_v17))
        (broadcastInDim S400000x128 ![] bcast_S_S400000x128 (constant (F := Ideal) S_ .f32 0x00000000#32))) := by
  after_results_simp
  simp only [TRef.ofBuf, TRef.toBuf, cast_cast_self]
  simp only [cast_eq]

/-- The messages are summed into their destination nodes. -/
private theorem agg_read (V : Valuation τ sig (Elt Ideal)) :
    @Eq (FVec Ideal S200000x128 .f32) (StableHlo.after hostOps2_3 V (Proc.devRef .tc main_v21))
      (Host.scatterAdd scatter_S200000x128_S400000x1_S400000x128_1_0_0_1
        (broadcastInDim S200000x128 ![] bcast_S_S200000x128 (constant (F := Ideal) S_ .f32 0x00000000#32))
        (broadcastInDim S400000x1 ![0] bcast_S400000_S400000x1_0 (V (Proc.devRef .tc main_v5)))
        (V (Proc.devRef .tc main_v18))) := by
  after_results

/-- The layer's two weight matrices and two bias rows are slices of the arguments. -/
private theorem w1_read (V : Valuation τ sig (Elt Ideal)) : StableHlo.after hostOps2_3 V (Proc.devRef .tc main_v23)
    = K.w0 (V (Proc.devRef .tc main_arg6)) := by
  after_results; rfl
private theorem b1_read (V : Valuation τ sig (Elt Ideal)) : StableHlo.after hostOps2_3 V (Proc.devRef .tc main_v30)
    = K.b0 (V (Proc.devRef .tc main_arg7)) := by
  after_results; rfl
private theorem w2_read (V : Valuation τ sig (Elt Ideal)) : StableHlo.after hostOps2_3 V (Proc.devRef .tc main_v27)
    = K.w0 (V (Proc.devRef .tc main_arg8)) := by
  after_results; rfl
private theorem b2_read (V : Valuation τ sig (Elt Ideal)) : StableHlo.after hostOps2_3 V (Proc.devRef .tc main_v31)
    = K.b0 (V (Proc.devRef .tc main_arg9)) := by
  after_results; rfl

/-! ## The region's six inputs at its entry -/

private theorem v10_W12 (c : Dev nD) : W12 m ρ c (Proc.devRef .tc main_v10) = W8 m ρ c (Proc.devRef .tc main_v10) := by
  refine Eq.trans (by host_keep hostOps2_3) ?_
  walk_mid_L0; rfl

private theorem v15_W9 (c : Dev nD) : W9 m ρ c (Proc.devRef .tc main_v15) = W8 m ρ c (Proc.devRef .tc main_v15) := by
  host_keep hostOps2

private theorem v5_W11 (c : Dev nD) : W11 m ρ c (Proc.devRef .tc main_v5) = K.dst (m ((c : Thread nD τ).loc main_arg1)) := by
  walk_mid_L0; exact v5_W8 m ρ c

private theorem arg6_W11 (c : Dev nD) : W11 m ρ c (Proc.devRef .tc main_arg6) = m ((c : Thread nD τ).loc main_arg6) := by
  walk_mid_L0; exact arg6_W8 m ρ c
private theorem arg7_W11 (c : Dev nD) : W11 m ρ c (Proc.devRef .tc main_arg7) = m ((c : Thread nD τ).loc main_arg7) := by
  walk_mid_L0; exact arg7_W8 m ρ c
private theorem arg8_W11 (c : Dev nD) : W11 m ρ c (Proc.devRef .tc main_arg8) = m ((c : Thread nD τ).loc main_arg8) := by
  walk_mid_L0; exact arg8_W8 m ρ c
private theorem arg9_W11 (c : Dev nD) : W11 m ρ c (Proc.devRef .tc main_arg9) = m ((c : Thread nD τ).loc main_arg9) := by
  walk_mid_L0; exact arg9_W8 m ρ c

private theorem v16_W9 (c : Dev nD) : W9 m ρ c (Proc.devRef .tc main_v16)
    = K.take (W8 m ρ c (Proc.devRef .tc main_v10)) (K.src (m ((c : Thread nD τ).loc main_arg1))) := by
  refine (take_read (W8 m ρ c)).trans ?_
  rw [v3_W8 m ρ c]

private theorem v17_W10 (c : Dev nD) : @Eq (FVec Ideal S400000x128 .f32) (W10 m ρ c (Proc.devRef .tc main_v17))
    (addf (K.take (W8 m ρ c (Proc.devRef .tc main_v10)) (K.src (m ((c : Thread nD τ).loc main_arg1))))
      (W8 m ρ c (Proc.devRef .tc main_v15))) := by
  refine (add_read (W9 m ρ c)).trans ?_
  rw [v16_W9 m ρ c, v15_W9 m ρ c]

private theorem v18_W11 (c : Dev nD) : W11 m ρ c (Proc.devRef .tc main_v18)
    = K.msg (W8 m ρ c (Proc.devRef .tc main_v10)) (W8 m ρ c (Proc.devRef .tc main_v15)) (m ((c : Thread nD τ).loc main_arg1)) := by
  refine (relu_read (W10 m ρ c)).trans ?_
  rw [v17_W10 m ρ c]
  rfl

private theorem v21_W12 (c : Dev nD) : W12 m ρ c (Proc.devRef .tc main_v21)
    = K.agg (W8 m ρ c (Proc.devRef .tc main_v10)) (W8 m ρ c (Proc.devRef .tc main_v15)) (m ((c : Thread nD τ).loc main_arg1)) := by
  refine (agg_read (W11 m ρ c)).trans ?_
  rw [v18_W11 m ρ c, v5_W11 m ρ c]
  rfl

private theorem v23_W12 (c : Dev nD) : W12 m ρ c (Proc.devRef .tc main_v23) = K.w0 (m ((c : Thread nD τ).loc main_arg6)) :=
  (w1_read (W11 m ρ c)).trans (congrArg K.w0 (arg6_W11 m ρ c))
private theorem v30_W12 (c : Dev nD) : W12 m ρ c (Proc.devRef .tc main_v30) = K.b0 (m ((c : Thread nD τ).loc main_arg7)) :=
  (b1_read (W11 m ρ c)).trans (congrArg K.b0 (arg7_W11 m ρ c))
private theorem v27_W12 (c : Dev nD) : W12 m ρ c (Proc.devRef .tc main_v27) = K.w0 (m ((c : Thread nD τ).loc main_arg8)) :=
  (w2_read (W11 m ρ c)).trans (congrArg K.w0 (arg8_W11 m ρ c))
private theorem v31_W12 (c : Dev nD) : W12 m ρ c (Proc.devRef .tc main_v31) = K.b0 (m ((c : Thread nD τ).loc main_arg9)) :=
  (b2_read (W11 m ρ c)).trans (congrArg K.b0 (arg9_W11 m ρ c))

/-! ## The two interface statements -/

/-- After the region the output buffer holds the layer applied to what the node-feature and edge-feature buffers held before the layer's host operations. -/
theorem kpL0 (c : Dev nD) : (W13 m ρ c (Proc.devRef .tc main_v32))
    = mlpRows (W8 m ρ c (Proc.devRef .tc main_v10)) (K.agg (W8 m ρ c (Proc.devRef .tc main_v10)) (W8 m ρ c (Proc.devRef .tc main_v15)) (m ((c.tc : Thread nD τ).loc main_arg1)))
        (K.w0 (m ((c.tc : Thread nD τ).loc main_arg6))) (K.b0 (m ((c.tc : Thread nD τ).loc main_arg7))) (K.w0 (m ((c.tc : Thread nD τ).loc main_arg8))) (K.b0 (m ((c.tc : Thread nD τ).loc main_arg9))) := by
  refine (W13_arr m ρ c 6).trans ?_
  refine (Region.arr2 (V12 m ρ) c).trans ?_
  show mlpRows (W12 m ρ c (Proc.devRef .tc main_v10)) (W12 m ρ c (Proc.devRef .tc main_v21))
      (W12 m ρ c (Proc.devRef .tc main_v23)) (W12 m ρ c (Proc.devRef .tc main_v30))
      (W12 m ρ c (Proc.devRef .tc main_v27)) (W12 m ρ c (Proc.devRef .tc main_v31)) = _
  rw [v10_W12 m ρ c, v21_W12 m ρ c, v23_W12 m ρ c, v30_W12 m ρ c, v27_W12 m ρ c, v31_W12 m ρ c]

/-- The layer's host operations and its region leave the edge-feature buffer alone. -/
theorem keepL0 (c : Dev nD) : (W13 m ρ c (Proc.devRef .tc main_v15)) = (W8 m ρ c (Proc.devRef .tc main_v15)) := by
  walk_L0; rfl

end Cert.Gnn.Plumb

end
-- ==== Proof.PlumbL1.lean ====
/-
  The program's buffers after dense-layer region 1: the new node features as the layer's dense part of the old ones and of the summed messages.
-/
import proofs.«414959_j88416196756193_1_alg».proof.Proof.KStages
import proofs.«414959_j88416196756193_1_alg».proof.Proof.RegionEmbed
import proofs.«414959_j88416196756193_1_alg».proof.Proof.RegionMlp
import proofs.«414959_j88416196756193_1_alg».proof.Proof.RegionProj
import proofs.«414959_j88416196756193_1_alg».proof.Proof.Gen.KernelIdeal.Frame
import Idealize.ShloMosaic.Lib.StableHlo.Run

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that no operation of a host stretch writes holds after the stretch what it held before. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Buffers the stretches between two points leave alone -/

private theorem keep_4_0 (c : Dev nD) (b : Ref sig .tc)
    (hb : b = main_arg1 ∨ b = main_arg6 ∨ b = main_arg7 ∨ b = main_arg8 ∨ b = main_arg9) :
    W4 m ρ c (Proc.devRef .tc b) = W0 m ρ c (Proc.devRef .tc b) := by
  rcases hb with rfl | rfl | rfl | rfl | rfl <;>
  exact calc W4 m ρ c _ = W3 m ρ c _ := host_keep hostOps0_3
    _ = W2 m ρ c _ := host_keep hostOps0_2
    _ = W1 m ρ c _ := host_keep hostOps0_1
    _ = W0 m ρ c _ := host_keep hostOps0

private theorem keep_5_4 (c : Dev nD) (b : Ref sig .tc)
    (hb : b = main_arg6 ∨ b = main_arg7 ∨ b = main_arg8 ∨ b = main_arg9) :
    W5 m ρ c (Proc.devRef .tc b) = W4 m ρ c (Proc.devRef .tc b) := by
  rcases hb with rfl | rfl | rfl | rfl <;> exact host_keep hostOps0_4

private theorem keep_13_5 (c : Dev nD) (b : Ref sig .tc)
    (hb : b = main_v3 ∨ b = main_v5 ∨ b = main_arg6 ∨ b = main_arg7 ∨ b = main_arg8 ∨ b = main_arg9) :
    W13 m ρ c (Proc.devRef .tc b) = W5 m ρ c (Proc.devRef .tc b) := by
  rcases hb with rfl | rfl | rfl | rfl | rfl | rfl <;>
  exact calc W13 m ρ c _ = W12 m ρ c _ := W13_of_ne m ρ c _ (by decide)
    _ = W11 m ρ c _ := host_keep hostOps2_3
    _ = W10 m ρ c _ := host_keep hostOps2_2
    _ = W9 m ρ c _ := host_keep hostOps2_1
    _ = W8 m ρ c _ := host_keep hostOps2
    _ = W7 m ρ c _ := W8_of_ne m ρ c _ (by decide)
    _ = W6 m ρ c _ := host_keep hostOps1
    _ = W5 m ρ c _ := W6_of_ne m ρ c _ (by decide)

private theorem keep_16_13 (c : Dev nD) (b : Ref sig .tc)
    (hb : b = main_v5 ∨ b = main_arg6 ∨ b = main_arg7 ∨ b = main_arg8 ∨ b = main_arg9) :
    W16 m ρ c (Proc.devRef .tc b) = W13 m ρ c (Proc.devRef .tc b) := by
  rcases hb with rfl | rfl | rfl | rfl | rfl <;>
  exact calc W16 m ρ c _ = W15 m ρ c _ := host_keep hostOps3_2
    _ = W14 m ρ c _ := host_keep hostOps3_1
    _ = W13 m ρ c _ := host_keep hostOps3

/-! ## What the layer's host operations write, from any contents before them -/

/-- Transporting a value along an equation of types and back along its converse gives the value. -/
private theorem cast_cast_self.{u} {α β : Sort u} (h₁ : α = β) (h₂ : β = α) (a : α) : cast h₂ (cast h₁ a) = a := by
  subst h₁
  rfl

section Reads
variable (V : Valuation τ sig (Elt Ideal))

private theorem src_of : StableHlo.after hostOps0_4 V (Proc.devRef .tc main_v3) = K.src (V (Proc.devRef .tc main_arg1)) := by
  after_results_simp
  rfl

private theorem dst_of : StableHlo.after hostOps0_4 V (Proc.devRef .tc main_v5) = K.dst (V (Proc.devRef .tc main_arg1)) := by
  after_results_simp
  rfl

private theorem take_of : StableHlo.after hostOps3 V (Proc.devRef .tc main_v33)
    = K.take (V (Proc.devRef .tc main_v32)) (V (Proc.devRef .tc main_v3)) := by
  after_results_simp
  simp only [TRef.ofBuf, TRef.toBuf, cast_cast_self]
  simp only [cast_eq]
  rfl

private theorem add_of (t e : FVec Ideal S400000x128 .f32) (h33 : V (Proc.devRef .tc main_v33) = t)
    (h15 : V (Proc.devRef .tc main_v15) = e) :
    StableHlo.after hostOps3_1 V (Proc.devRef .tc main_v34) = addf t e := by
  after_results_simp
  rw [h33, h15]

private theorem msg_of (x : FVec Ideal S200000x128 .f32) (e : FVec Ideal S400000x128 .f32) (a1 : IVec S2x400000 32)
    (h34 : V (Proc.devRef .tc main_v34) = addf (K.take x (K.src a1)) e) :
    StableHlo.after hostOps3_2 V (Proc.devRef .tc main_v35) = K.msg x e a1 := by
  after_results_simp
  simp only [TRef.ofBuf, TRef.toBuf, cast_cast_self]
  simp only [cast_eq]
  rw [h34]
  rfl

private theorem agg_of (x : FVec Ideal S200000x128 .f32) (e : FVec Ideal S400000x128 .f32) (a1 : IVec S2x400000 32)
    (h5 : V (Proc.devRef .tc main_v5) = K.dst a1) (h35 : V (Proc.devRef .tc main_v35) = K.msg x e a1) :
    StableHlo.after hostOps3_3 V (Proc.devRef .tc main_v38) = K.agg x e a1 := by
  after_results_simp
  rw [h5, h35]
  rfl

private theorem w1_of : StableHlo.after hostOps3_3 V (Proc.devRef .tc main_v40) = K.w1 (V (Proc.devRef .tc main_arg6)) := by
  after_results_simp
  rfl

private theorem b1_of : StableHlo.after hostOps3_3 V (Proc.devRef .tc main_v47) = K.b1 (V (Proc.devRef .tc main_arg7)) := by
  after_results_simp
  rfl

private theorem w2_of : StableHlo.after hostOps3_3 V (Proc.devRef .tc main_v44) = K.w1 (V (Proc.devRef .tc main_arg8)) := by
  after_results_simp
  rfl

private theorem b2_of : StableHlo.after hostOps3_3 V (Proc.devRef .tc main_v48) = K.b1 (V (Proc.devRef .tc main_arg9)) := by
  after_results_simp
  rfl

end Reads

/-! ## The layer's operands, read back to the arguments -/

private theorem x_keep (c : Dev nD) : W17 m ρ c (Proc.devRef .tc main_v32) = W13 m ρ c (Proc.devRef .tc main_v32) :=
  calc W17 m ρ c (Proc.devRef .tc main_v32)
    _ = W16 m ρ c (Proc.devRef .tc main_v32) := host_keep hostOps3_3
    _ = W15 m ρ c (Proc.devRef .tc main_v32) := host_keep hostOps3_2
    _ = W14 m ρ c (Proc.devRef .tc main_v32) := host_keep hostOps3_1
    _ = W13 m ρ c (Proc.devRef .tc main_v32) := host_keep hostOps3

private theorem arg_at_16 (c : Dev nD) (b : Ref sig .tc)
    (hb : b = main_arg6 ∨ b = main_arg7 ∨ b = main_arg8 ∨ b = main_arg9) :
    W16 m ρ c (Proc.devRef .tc b) = W0 m ρ c (Proc.devRef .tc b) :=
  (keep_16_13 m ρ c b (Or.inr hb)).trans ((keep_13_5 m ρ c b (Or.inr (Or.inr hb))).trans
    ((keep_5_4 m ρ c b hb).trans (keep_4_0 m ρ c b (Or.inr hb))))

private theorem src_at_13 (c : Dev nD) :
    W13 m ρ c (Proc.devRef .tc main_v3) = K.src (m ((c.tc : Thread nD τ).loc main_arg1)) :=
  (keep_13_5 m ρ c main_v3 (Or.inl rfl)).trans ((src_of (W4 m ρ c)).trans
    (congrArg K.src (keep_4_0 m ρ c main_arg1 (Or.inl rfl))))

private theorem dst_at_16 (c : Dev nD) :
    W16 m ρ c (Proc.devRef .tc main_v5) = K.dst (m ((c.tc : Thread nD τ).loc main_arg1)) :=
  (keep_16_13 m ρ c main_v5 (Or.inl rfl)).trans ((keep_13_5 m ρ c main_v5 (Or.inr (Or.inl rfl))).trans
    ((dst_of (W4 m ρ c)).trans (congrArg K.dst (keep_4_0 m ρ c main_arg1 (Or.inl rfl)))))

private theorem agg_at_17 (c : Dev nD) : W17 m ρ c (Proc.devRef .tc main_v38)
    = K.agg (W13 m ρ c (Proc.devRef .tc main_v32)) (W13 m ρ c (Proc.devRef .tc main_v15)) (m ((c.tc : Thread nD τ).loc main_arg1)) := by
  have h33 : W14 m ρ c (Proc.devRef .tc main_v33)
      = K.take (W13 m ρ c (Proc.devRef .tc main_v32)) (K.src (m ((c.tc : Thread nD τ).loc main_arg1))) :=
    (take_of (W13 m ρ c)).trans (congrArg (K.take _) (src_at_13 m ρ c))
  have h15 : W14 m ρ c (Proc.devRef .tc main_v15) = W13 m ρ c (Proc.devRef .tc main_v15) := host_keep hostOps3
  have h34 := add_of (W14 m ρ c) _ _ h33 h15
  have h35 := msg_of (W15 m ρ c) _ _ _ h34
  exact agg_of (W16 m ρ c) _ _ _ (dst_at_16 m ρ c) h35

/-- After the region the output buffer holds the layer applied to what the node-feature and edge-feature buffers held before the layer's host operations. -/
theorem kpL1 (c : Dev nD) : (W18 m ρ c (Proc.devRef .tc main_v49))
    = mlpRows (W13 m ρ c (Proc.devRef .tc main_v32)) (K.agg (W13 m ρ c (Proc.devRef .tc main_v32)) (W13 m ρ c (Proc.devRef .tc main_v15)) (m ((c.tc : Thread nD τ).loc main_arg1)))
        (K.w1 (m ((c.tc : Thread nD τ).loc main_arg6))) (K.b1 (m ((c.tc : Thread nD τ).loc main_arg7))) (K.w1 (m ((c.tc : Thread nD τ).loc main_arg8))) (K.b1 (m ((c.tc : Thread nD τ).loc main_arg9))) := by
  have h40 : W17 m ρ c (Proc.devRef .tc main_v40) = K.w1 (m ((c.tc : Thread nD τ).loc main_arg6)) :=
    (w1_of (W16 m ρ c)).trans (congrArg K.w1 (arg_at_16 m ρ c main_arg6 (Or.inl rfl)))
  have h47 : W17 m ρ c (Proc.devRef .tc main_v47) = K.b1 (m ((c.tc : Thread nD τ).loc main_arg7)) :=
    (b1_of (W16 m ρ c)).trans (congrArg K.b1 (arg_at_16 m ρ c main_arg7 (Or.inr (Or.inl rfl))))
  have h44 : W17 m ρ c (Proc.devRef .tc main_v44) = K.w1 (m ((c.tc : Thread nD τ).loc main_arg8)) :=
    (w2_of (W16 m ρ c)).trans (congrArg K.w1 (arg_at_16 m ρ c main_arg8 (Or.inr (Or.inr (Or.inl rfl)))))
  have h48 : W17 m ρ c (Proc.devRef .tc main_v48) = K.b1 (m ((c.tc : Thread nD τ).loc main_arg9)) :=
    (b2_of (W16 m ρ c)).trans (congrArg K.b1 (arg_at_16 m ρ c main_arg9 (Or.inr (Or.inr (Or.inr rfl)))))
  refine ((W18_arr m ρ c 6).trans (Region.arr3 (V17 m ρ) c)).trans ?_
  show mlpRows (W17 m ρ c (Proc.devRef .tc main_v32)) (W17 m ρ c (Proc.devRef .tc main_v38)) (W17 m ρ c (Proc.devRef .tc main_v40))
      (W17 m ρ c (Proc.devRef .tc main_v47)) (W17 m ρ c (Proc.devRef .tc main_v44)) (W17 m ρ c (Proc.devRef .tc main_v48)) = _
  rw [x_keep m ρ c, agg_at_17 m ρ c, h40, h47, h44, h48]

/-- The layer's host operations and its region leave the edge-feature buffer alone. -/
theorem keepL1 (c : Dev nD) : (W18 m ρ c (Proc.devRef .tc main_v15)) = (W13 m ρ c (Proc.devRef .tc main_v15)) :=
  calc W18 m ρ c (Proc.devRef .tc main_v15)
    _ = W17 m ρ c (Proc.devRef .tc main_v15) := W18_of_ne m ρ c main_v15 (by decide)
    _ = W16 m ρ c (Proc.devRef .tc main_v15) := host_keep hostOps3_3
    _ = W15 m ρ c (Proc.devRef .tc main_v15) := host_keep hostOps3_2
    _ = W14 m ρ c (Proc.devRef .tc main_v15) := host_keep hostOps3_1
    _ = W13 m ρ c (Proc.devRef .tc main_v15) := host_keep hostOps3

end Cert.Gnn.Plumb

end
-- ==== Proof.PlumbL2.lean ====
/-
  The program's buffers after dense-layer region 2: the new node features as the layer's dense part of the old ones and of the summed messages.
-/
import proofs.«414959_j88416196756193_1_alg».proof.Proof.KStages
import proofs.«414959_j88416196756193_1_alg».proof.Proof.RegionEmbed
import proofs.«414959_j88416196756193_1_alg».proof.Proof.RegionMlp
import proofs.«414959_j88416196756193_1_alg».proof.Proof.RegionProj
import proofs.«414959_j88416196756193_1_alg».proof.Proof.Gen.KernelIdeal.Frame
import Idealize.ShloMosaic.Lib.StableHlo.Run

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that no operation of a host stretch writes holds after the stretch what it held before. -/
local macro "keep_host " b:term ", " ops:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The old node features are not touched by the layer's host operations. -/
private theorem v49_W22 (c : Dev nD) : W22 m ρ c (Proc.devRef .tc main_v49) = W18 m ρ c (Proc.devRef .tc main_v49) :=
  calc W22 m ρ c (Proc.devRef .tc main_v49)
    _ = W21 m ρ c (Proc.devRef .tc main_v49) := by keep_host main_v49, hostOps4_3
    _ = W20 m ρ c (Proc.devRef .tc main_v49) := by keep_host main_v49, hostOps4_2
    _ = W19 m ρ c (Proc.devRef .tc main_v49) := by keep_host main_v49, hostOps4_1
    _ = W18 m ρ c (Proc.devRef .tc main_v49) := by keep_host main_v49, hostOps4

/-- The edge features are not touched by the guarded take. -/
private theorem v15_W19 (c : Dev nD) : W19 m ρ c (Proc.devRef .tc main_v15) = W18 m ρ c (Proc.devRef .tc main_v15) := by
  keep_host main_v15, hostOps4

/-- The edge sources, as the program first computes them from the launch's edge list. -/
private theorem v3_W5 (c : Dev nD) : W5 m ρ c (Proc.devRef .tc main_v3) = K.src (m ((c.tc : Thread nD τ).loc main_arg1)) := by
  show StableHlo.after hostOps0_4 (W4 m ρ c) (Proc.devRef .tc main_v3) = _
  after_results
  rfl

/-- The edge destinations, as the program first computes them from the launch's edge list. -/
private theorem v5_W5 (c : Dev nD) : W5 m ρ c (Proc.devRef .tc main_v5) = K.dst (m ((c.tc : Thread nD τ).loc main_arg1)) := by
  show StableHlo.after hostOps0_4 (W4 m ρ c) (Proc.devRef .tc main_v5) = _
  after_results
  rfl

/-- The edge sources are not touched between their computation and the layer. -/
private theorem v3_W18 (c : Dev nD) : W18 m ρ c (Proc.devRef .tc main_v3) = K.src (m ((c.tc : Thread nD τ).loc main_arg1)) :=
  calc W18 m ρ c (Proc.devRef .tc main_v3)
    _ = W17 m ρ c (Proc.devRef .tc main_v3) := W18_of_ne m ρ c main_v3 (by decide)
    _ = W16 m ρ c (Proc.devRef .tc main_v3) := by keep_host main_v3, hostOps3_3
    _ = W15 m ρ c (Proc.devRef .tc main_v3) := by keep_host main_v3, hostOps3_2
    _ = W14 m ρ c (Proc.devRef .tc main_v3) := by keep_host main_v3, hostOps3_1
    _ = W13 m ρ c (Proc.devRef .tc main_v3) := by keep_host main_v3, hostOps3
    _ = W12 m ρ c (Proc.devRef .tc main_v3) := W13_of_ne m ρ c main_v3 (by decide)
    _ = W11 m ρ c (Proc.devRef .tc main_v3) := by keep_host main_v3, hostOps2_3
    _ = W10 m ρ c (Proc.devRef .tc main_v3) := by keep_host main_v3, hostOps2_2
    _ = W9 m ρ c (Proc.devRef .tc main_v3) := by keep_host main_v3, hostOps2_1
    _ = W8 m ρ c (Proc.devRef .tc main_v3) := by keep_host main_v3, hostOps2
    _ = W7 m ρ c (Proc.devRef .tc main_v3) := W8_of_ne m ρ c main_v3 (by decide)
    _ = W6 m ρ c (Proc.devRef .tc main_v3) := by keep_host main_v3, hostOps1
    _ = W5 m ρ c (Proc.devRef .tc main_v3) := W6_of_ne m ρ c main_v3 (by decide)
    _ = K.src (m ((c.tc : Thread nD τ).loc main_arg1)) := v3_W5 m ρ c

/-- The edge destinations are not touched between their computation and the layer's scatter. -/
private theorem v5_W21 (c : Dev nD) : W21 m ρ c (Proc.devRef .tc main_v5) = K.dst (m ((c.tc : Thread nD τ).loc main_arg1)) :=
  calc W21 m ρ c (Proc.devRef .tc main_v5)
    _ = W20 m ρ c (Proc.devRef .tc main_v5) := by keep_host main_v5, hostOps4_2
    _ = W19 m ρ c (Proc.devRef .tc main_v5) := by keep_host main_v5, hostOps4_1
    _ = W18 m ρ c (Proc.devRef .tc main_v5) := by keep_host main_v5, hostOps4
    _ = W17 m ρ c (Proc.devRef .tc main_v5) := W18_of_ne m ρ c main_v5 (by decide)
    _ = W16 m ρ c (Proc.devRef .tc main_v5) := by keep_host main_v5, hostOps3_3
    _ = W15 m ρ c (Proc.devRef .tc main_v5) := by keep_host main_v5, hostOps3_2
    _ = W14 m ρ c (Proc.devRef .tc main_v5) := by keep_host main_v5, hostOps3_1
    _ = W13 m ρ c (Proc.devRef .tc main_v5) := by keep_host main_v5, hostOps3
    _ = W12 m ρ c (Proc.devRef .tc main_v5) := W13_of_ne m ρ c main_v5 (by decide)
    _ = W11 m ρ c (Proc.devRef .tc main_v5) := by keep_host main_v5, hostOps2_3
    _ = W10 m ρ c (Proc.devRef .tc main_v5) := by keep_host main_v5, hostOps2_2
    _ = W9 m ρ c (Proc.devRef .tc main_v5) := by keep_host main_v5, hostOps2_1
    _ = W8 m ρ c (Proc.devRef .tc main_v5) := by keep_host main_v5, hostOps2
    _ = W7 m ρ c (Proc.devRef .tc main_v5) := W8_of_ne m ρ c main_v5 (by decide)
    _ = W6 m ρ c (Proc.devRef .tc main_v5) := by keep_host main_v5, hostOps1
    _ = W5 m ρ c (Proc.devRef .tc main_v5) := W6_of_ne m ρ c main_v5 (by decide)
    _ = K.dst (m ((c.tc : Thread nD τ).loc main_arg1)) := v5_W5 m ρ c

/-- Argument 6 is the launch's when the layer slices it. -/
private theorem arg6_W21 (c : Dev nD) : W21 m ρ c (Proc.devRef .tc main_arg6) = m ((c.tc : Thread nD τ).loc main_arg6) :=
  calc W21 m ρ c (Proc.devRef .tc main_arg6)
    _ = W22 m ρ c (Proc.devRef .tc main_arg6) := Eq.symm (by keep_host main_arg6, hostOps4_3)
    _ = W23 m ρ c (Proc.devRef .tc main_arg6) := (W23_of_ne m ρ c main_arg6 (by decide)).symm
    _ = W24 m ρ c (Proc.devRef .tc main_arg6) := Eq.symm (by keep_host main_arg6, hostOps5)
    _ = W25 m ρ c (Proc.devRef .tc main_arg6) := (W25_of_ne m ρ c main_arg6 (by decide)).symm
    _ = m ((c.tc : Thread nD τ).loc main_arg6) := W25_main_arg6 m ρ c

/-- Argument 7 is the launch's when the layer slices it. -/
private theorem arg7_W21 (c : Dev nD) : W21 m ρ c (Proc.devRef .tc main_arg7) = m ((c.tc : Thread nD τ).loc main_arg7) :=
  calc W21 m ρ c (Proc.devRef .tc main_arg7)
    _ = W22 m ρ c (Proc.devRef .tc main_arg7) := Eq.symm (by keep_host main_arg7, hostOps4_3)
    _ = W23 m ρ c (Proc.devRef .tc main_arg7) := (W23_of_ne m ρ c main_arg7 (by decide)).symm
    _ = W24 m ρ c (Proc.devRef .tc main_arg7) := Eq.symm (by keep_host main_arg7, hostOps5)
    _ = W25 m ρ c (Proc.devRef .tc main_arg7) := (W25_of_ne m ρ c main_arg7 (by decide)).symm
    _ = m ((c.tc : Thread nD τ).loc main_arg7) := W25_main_arg7 m ρ c

/-- Argument 8 is the launch's when the layer slices it. -/
private theorem arg8_W21 (c : Dev nD) : W21 m ρ c (Proc.devRef .tc main_arg8) = m ((c.tc : Thread nD τ).loc main_arg8) :=
  calc W21 m ρ c (Proc.devRef .tc main_arg8)
    _ = W22 m ρ c (Proc.devRef .tc main_arg8) := Eq.symm (by keep_host main_arg8, hostOps4_3)
    _ = W23 m ρ c (Proc.devRef .tc main_arg8) := (W23_of_ne m ρ c main_arg8 (by decide)).symm
    _ = W24 m ρ c (Proc.devRef .tc main_arg8) := Eq.symm (by keep_host main_arg8, hostOps5)
    _ = W25 m ρ c (Proc.devRef .tc main_arg8) := (W25_of_ne m ρ c main_arg8 (by decide)).symm
    _ = m ((c.tc : Thread nD τ).loc main_arg8) := W25_main_arg8 m ρ c

/-- Argument 9 is the launch's when the layer slices it. -/
private theorem arg9_W21 (c : Dev nD) : W21 m ρ c (Proc.devRef .tc main_arg9) = m ((c.tc : Thread nD τ).loc main_arg9) :=
  calc W21 m ρ c (Proc.devRef .tc main_arg9)
    _ = W22 m ρ c (Proc.devRef .tc main_arg9) := Eq.symm (by keep_host main_arg9, hostOps4_3)
    _ = W23 m ρ c (Proc.devRef .tc main_arg9) := (W23_of_ne m ρ c main_arg9 (by decide)).symm
    _ = W24 m ρ c (Proc.devRef .tc main_arg9) := Eq.symm (by keep_host main_arg9, hostOps5)
    _ = W25 m ρ c (Proc.devRef .tc main_arg9) := (W25_of_ne m ρ c main_arg9 (by decide)).symm
    _ = m ((c.tc : Thread nD τ).loc main_arg9) := W25_main_arg9 m ρ c

/-- Carrying a value along an equality of types and back along the converse gives the value. -/
private theorem cast_cast_self {α β : Sort _} (h₁ : α = β) (h₂ : β = α) (a : α) : cast h₂ (cast h₁ a) = a := by
  subst h₁; rfl

/-- The guarded take, from whatever the node-feature and edge-source buffers hold. -/
private theorem take_step (V : Valuation τ sig (Elt Ideal)) :
    StableHlo.after hostOps4 V (Proc.devRef .tc main_v50)
      = K.take (V (Proc.devRef .tc main_v49)) (V (Proc.devRef .tc main_v3)) := by
  after_results_simp
  simp only [TRef.ofBuf, TRef.toBuf, cast_cast_self]
  simp only [cast_eq]
  rfl

/-- Adding the edge features. -/
private theorem add_step (V : Valuation τ sig (Elt Ideal)) :
    StableHlo.after hostOps4_1 V (Proc.devRef .tc main_v51)
      = (addf (V (Proc.devRef .tc main_v50)) (V (Proc.devRef .tc main_v15)) : FVec Ideal S400000x128 .f32) := by
  after_results <;> rfl

/-- The positive part. -/
private theorem relu_step (V : Valuation τ sig (Elt Ideal)) :
    StableHlo.after hostOps4_2 V (Proc.devRef .tc main_v52)
      = maximumf (V (Proc.devRef .tc main_v51))
          (broadcastInDim S400000x128 ![] bcast_S_S400000x128 (constant (F := Ideal) S_ .f32 0x00000000#32)) := by
  after_results
  rfl

/-- The sum of the messages into their destination nodes. -/
private theorem scatter_step (V : Valuation τ sig (Elt Ideal)) :
    StableHlo.after hostOps4_3 V (Proc.devRef .tc main_v55)
      = Host.scatterAdd scatter_S200000x128_S400000x1_S400000x128_1_0_0_1
          (broadcastInDim S200000x128 ![] bcast_S_S200000x128 (constant (F := Ideal) S_ .f32 0x00000000#32))
          (broadcastInDim S400000x1 ![0] bcast_S400000_S400000x1_0 (V (Proc.devRef .tc main_v5)))
          (V (Proc.devRef .tc main_v52)) := by
  after_results <;> rfl

/-- The layer's two weight matrices and two bias rows, from whatever the argument buffers hold. -/
private theorem w1_step (V : Valuation τ sig (Elt Ideal)) :
    StableHlo.after hostOps4_3 V (Proc.devRef .tc main_v57) = K.w2 (V (Proc.devRef .tc main_arg6)) := by
  after_results
  rfl
private theorem b1_step (V : Valuation τ sig (Elt Ideal)) :
    StableHlo.after hostOps4_3 V (Proc.devRef .tc main_v64) = K.b2 (V (Proc.devRef .tc main_arg7)) := by
  after_results
  rfl
private theorem w2_step (V : Valuation τ sig (Elt Ideal)) :
    StableHlo.after hostOps4_3 V (Proc.devRef .tc main_v61) = K.w2 (V (Proc.devRef .tc main_arg8)) := by
  after_results
  rfl
private theorem b2_step (V : Valuation τ sig (Elt Ideal)) :
    StableHlo.after hostOps4_3 V (Proc.devRef .tc main_v65) = K.b2 (V (Proc.devRef .tc main_arg9)) := by
  after_results
  rfl

/-- The guarded take of the old node features at the edge sources. -/
private theorem v50_W19 (c : Dev nD) : W19 m ρ c (Proc.devRef .tc main_v50)
    = K.take (W18 m ρ c (Proc.devRef .tc main_v49)) (K.src (m ((c.tc : Thread nD τ).loc main_arg1))) :=
  (take_step (W18 m ρ c)).trans (by rw [v3_W18])

/-- The edge messages. -/
private theorem v52_W21 (c : Dev nD) : W21 m ρ c (Proc.devRef .tc main_v52)
    = K.msg (W18 m ρ c (Proc.devRef .tc main_v49)) (W18 m ρ c (Proc.devRef .tc main_v15)) (m ((c.tc : Thread nD τ).loc main_arg1)) :=
  (relu_step (W20 m ρ c)).trans (by
    rw [show W20 m ρ c (Proc.devRef .tc main_v51) = _ from add_step (W19 m ρ c), v50_W19, v15_W19]
    rfl)

/-- The summed messages. -/
private theorem v55_W22 (c : Dev nD) : W22 m ρ c (Proc.devRef .tc main_v55)
    = K.agg (W18 m ρ c (Proc.devRef .tc main_v49)) (W18 m ρ c (Proc.devRef .tc main_v15)) (m ((c.tc : Thread nD τ).loc main_arg1)) :=
  (scatter_step (W21 m ρ c)).trans (by
    rw [v5_W21, v52_W21]
    rfl)

/-- The layer's weights and biases at the region's entry. -/
private theorem v57_W22 (c : Dev nD) : W22 m ρ c (Proc.devRef .tc main_v57) = K.w2 (m ((c.tc : Thread nD τ).loc main_arg6)) :=
  (w1_step (W21 m ρ c)).trans (by rw [arg6_W21])
private theorem v64_W22 (c : Dev nD) : W22 m ρ c (Proc.devRef .tc main_v64) = K.b2 (m ((c.tc : Thread nD τ).loc main_arg7)) :=
  (b1_step (W21 m ρ c)).trans (by rw [arg7_W21])
private theorem v61_W22 (c : Dev nD) : W22 m ρ c (Proc.devRef .tc main_v61) = K.w2 (m ((c.tc : Thread nD τ).loc main_arg8)) :=
  (w2_step (W21 m ρ c)).trans (by rw [arg8_W21])
private theorem v65_W22 (c : Dev nD) : W22 m ρ c (Proc.devRef .tc main_v65) = K.b2 (m ((c.tc : Thread nD τ).loc main_arg9)) :=
  (b2_step (W21 m ρ c)).trans (by rw [arg9_W21])

/-- After the region the output buffer holds the layer applied to what the node-feature and edge-feature buffers held before the layer's host operations. -/
theorem kpL2 (c : Dev nD) : (W23 m ρ c (Proc.devRef .tc main_v66))
    = mlpRows (W18 m ρ c (Proc.devRef .tc main_v49)) (K.agg (W18 m ρ c (Proc.devRef .tc main_v49)) (W18 m ρ c (Proc.devRef .tc main_v15)) (m ((c.tc : Thread nD τ).loc main_arg1)))
        (K.w2 (m ((c.tc : Thread nD τ).loc main_arg6))) (K.b2 (m ((c.tc : Thread nD τ).loc main_arg7))) (K.w2 (m ((c.tc : Thread nD τ).loc main_arg8))) (K.b2 (m ((c.tc : Thread nD τ).loc main_arg9))) := by
  refine ((W23_arr m ρ c 6).trans (Cert.Gnn.Region.arr4 (V22 m ρ) c)).trans ?_
  show mlpRows (W22 m ρ c (Proc.devRef .tc main_v49)) (W22 m ρ c (Proc.devRef .tc main_v55)) (W22 m ρ c (Proc.devRef .tc main_v57))
      (W22 m ρ c (Proc.devRef .tc main_v64)) (W22 m ρ c (Proc.devRef .tc main_v61)) (W22 m ρ c (Proc.devRef .tc main_v65)) = _
  rw [v49_W22, v55_W22, v57_W22, v64_W22, v61_W22, v65_W22]

end Cert.Gnn.Plumb

end
-- ==== Proof.PlumbOut.lean ====
/-
  The program's result buffer after the projection region: the projection of the per-graph mean of the last node features.
-/
import proofs.«414959_j88416196756193_1_alg».proof.Proof.KStages
import proofs.«414959_j88416196756193_1_alg».proof.Proof.RegionEmbed
import proofs.«414959_j88416196756193_1_alg».proof.Proof.RegionMlp
import proofs.«414959_j88416196756193_1_alg».proof.Proof.RegionProj
import proofs.«414959_j88416196756193_1_alg».proof.Proof.Gen.KernelIdeal.Frame
import Idealize.ShloMosaic.Lib.StableHlo.Run

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that none of the last host stretch's operations writes holds after the stretch what it held before. -/
local macro "last_stretch_keeps" b:term : term =>
  `(StableHlo.after_of_forall_not_mem (b := Proc.devRef .tc $b) _ _ (List.forall_iff_forall_mem.mp (by
      simp only [hostOps5, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! The argument arrays are never written: before the last host stretch they hold what they held at launch. -/

private theorem arg3_entry (c : Dev nD) :
    W23 m ρ c (Proc.devRef .tc main_arg3) = m ((c.tc : Thread nD τ).loc main_arg3) :=
  calc W23 m ρ c (Proc.devRef .tc main_arg3)
    _ = W24 m ρ c (Proc.devRef .tc main_arg3) := (last_stretch_keeps main_arg3).symm
    _ = W25 m ρ c (Proc.devRef .tc main_arg3) := (W25_of_ne m ρ c main_arg3 (by decide)).symm
    _ = m ((c.tc : Thread nD τ).loc main_arg3) := W25_main_arg3 m ρ c

private theorem arg11_entry (c : Dev nD) :
    W23 m ρ c (Proc.devRef .tc main_arg11) = m ((c.tc : Thread nD τ).loc main_arg11) :=
  calc W23 m ρ c (Proc.devRef .tc main_arg11)
    _ = W24 m ρ c (Proc.devRef .tc main_arg11) := (last_stretch_keeps main_arg11).symm
    _ = W25 m ρ c (Proc.devRef .tc main_arg11) := (W25_of_ne m ρ c main_arg11 (by decide)).symm
    _ = m ((c.tc : Thread nD τ).loc main_arg11) := W25_main_arg11 m ρ c

private theorem arg13_entry (c : Dev nD) :
    W23 m ρ c (Proc.devRef .tc main_arg13) = m ((c.tc : Thread nD τ).loc main_arg13) :=
  calc W23 m ρ c (Proc.devRef .tc main_arg13)
    _ = W24 m ρ c (Proc.devRef .tc main_arg13) := (last_stretch_keeps main_arg13).symm
    _ = W25 m ρ c (Proc.devRef .tc main_arg13) := (W25_of_ne m ρ c main_arg13 (by decide)).symm
    _ = m ((c.tc : Thread nD τ).loc main_arg13) := W25_main_arg13 m ρ c

/-! The two weight matrices are input windows of the projection region: the region leaves them as entered. -/

private theorem arg10_entry (c : Dev nD) :
    W24 m ρ c (Proc.devRef .tc main_arg10) = m ((c.tc : Thread nD τ).loc main_arg10) :=
  calc W24 m ρ c (Proc.devRef .tc main_arg10)
    _ = W25 m ρ c (Proc.devRef .tc main_arg10) :=
        ((W25_arr m ρ c 1).trans (((dat5 (V24 m ρ) c).arrAt_in 1 rfl _).trans (A_eq5 (V24 m ρ) c 1))).symm
    _ = m ((c.tc : Thread nD τ).loc main_arg10) := W25_main_arg10 m ρ c

private theorem arg12_entry (c : Dev nD) :
    W24 m ρ c (Proc.devRef .tc main_arg12) = m ((c.tc : Thread nD τ).loc main_arg12) :=
  calc W24 m ρ c (Proc.devRef .tc main_arg12)
    _ = W25 m ρ c (Proc.devRef .tc main_arg12) :=
        ((W25_arr m ρ c 3).trans (((dat5 (V24 m ρ) c).arrAt_in 3 rfl _).trans (A_eq5 (V24 m ρ) c 3))).symm
    _ = m ((c.tc : Thread nD τ).loc main_arg12) := W25_main_arg12 m ρ c

/-! The last host stretch's results, read off its operations with the operands as held before the stretch. -/

private theorem pooled_entry (c : Dev nD) :
    W24 m ρ c (Proc.devRef .tc main_v78)
      = K.pooled (W23 m ρ c (Proc.devRef .tc main_v66)) (m ((c.tc : Thread nD τ).loc main_arg3)) := by
  show StableHlo.after hostOps5 (W23 m ρ c) (Proc.devRef .tc main_v78) = _
  after_results
  rw [arg3_entry m ρ c]
  rfl

private theorem bias1_entry (c : Dev nD) :
    W24 m ρ c (Proc.devRef .tc main_v79)
      = shapeCast S1x128 (m ((c.tc : Thread nD τ).loc main_arg11)) shapeCasts_S128_S1x128 := by
  show StableHlo.after hostOps5 (W23 m ρ c) (Proc.devRef .tc main_v79) = _
  after_results
  rw [arg11_entry m ρ c]
  rfl

private theorem bias2_entry (c : Dev nD) :
    W24 m ρ c (Proc.devRef .tc main_v80)
      = shapeCast S1x128 (m ((c.tc : Thread nD τ).loc main_arg13)) shapeCasts_S128_S1x128 := by
  show StableHlo.after hostOps5 (W23 m ρ c) (Proc.devRef .tc main_v80) = _
  after_results
  rw [arg13_entry m ρ c]
  rfl

theorem kpOut (c : Dev nD) : (W25 m ρ c (Proc.devRef .tc main_v81))
    = K.out (W23 m ρ c (Proc.devRef .tc main_v66)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) := by
  have h : W25 m ρ c (Proc.devRef .tc main_v81)
      = projRows (W24 m ρ c (Proc.devRef .tc main_v78)) (W24 m ρ c (Proc.devRef .tc main_arg10))
          (W24 m ρ c (Proc.devRef .tc main_v79)) (W24 m ρ c (Proc.devRef .tc main_arg12))
          (W24 m ρ c (Proc.devRef .tc main_v80)) :=
    (W25_arr m ρ c 5).trans (Region.arr5 (V24 m ρ) c)
  rw [h, pooled_entry m ρ c, arg10_entry m ρ c, bias1_entry m ρ c, arg12_entry m ρ c, bias2_entry m ρ c]
  rfl

end Cert.Gnn.Plumb

end
-- ==== Proof.KValue.lean ====
/-
  The program's result buffer as a function of the fourteen arguments: the region boundaries composed.
-/
import proofs.«414959_j88416196756193_1_alg».proof.Proof.PlumbA
import proofs.«414959_j88416196756193_1_alg».proof.Proof.PlumbL0
import proofs.«414959_j88416196756193_1_alg».proof.Proof.PlumbL1
import proofs.«414959_j88416196756193_1_alg».proof.Proof.PlumbL2
import proofs.«414959_j88416196756193_1_alg».proof.Proof.PlumbOut

noncomputable section

namespace Cert.Gnn.Plumb

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- The result buffer ends at the projection of the per-graph mean of the node features after three layers. -/
theorem kValue (c : Dev nD) : (W25 m ρ c (Proc.devRef .tc main_v81))
    = K.out (K.x3 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) := by
  rw [kpOut m ρ c, kpL2 m ρ c, kpL1 m ρ c, keepL1 m ρ c, kpL0 m ρ c, keepL0 m ρ c, keep1 m ρ c, kp0 m ρ c, kp1 m ρ c]
  rfl

end Cert.Gnn.Plumb

end
-- ==== Proof.TableRead.lean ====
/-
  A table written into the first rows of a zero table reads back, at any of those rows, as the table's own row.

  The write is a scatter whose body returns the update: a left fold over the update's entries, each step replacing the
  entry of the result that the update's entry lands on. If some entry of the update lands on the entry i, and every
  entry that lands on i carries one value c, the folded result holds c at i, whatever was there before. With a single
  start index equal to zero and the whole update as the window, the update's entry (p, q) lands on the result's entry
  (p, q): exactly one entry of the update lands on (v, h) when v is one of the update's rows, and it is the update's
  own (v, h).
-/
import proofs.«414959_j88416196756193_1_alg».proof.Proof.KStages
import Idealize.ShloMosaic.PureOps.ShapeOps

noncomputable section

namespace Cert.Gnn.Bridge

open Idealize.ShloMosaic Idealize.ShloMosaic.ValueIdx
open Cert.KernelIdeal Cert.KernelIdeal.Facts₀ Cert.KernelIdeal.Facts Cert.Gnn

/-- A scatter whose body returns the update, read at the entry i: when some entry of the update lands on i and
    all entries that land on i carry the value c, the result's entry i is c. Any shapes, any dimension numbers. -/
theorem scatter_set_apply {s si u : Shape} {α : Type} {w : Nat} (d : ScatterDims s si u) (x : s.Idx → α)
    (idx : IVec si w) (upd : u.Idx → α) (i : s.Idx) (c : α)
    (hex : ∃ j : u.Idx, d.resultIdx? j idx = some i)
    (hall : ∀ j : u.Idx, d.resultIdx? j idx = some i → upd j = c) :
    Host.scatter d (fun _ b => b) x idx upd i = c := by
  -- the same for the fold over any list of positions that holds one landing on i; the last position decides
  have key : ∀ L : List (Fin u.numel), (∃ n ∈ L, d.resultIdx? (u.rowMajor.symm n) idx = some i) →
      (L.foldl (fun r n =>
        match d.resultIdx? (u.rowMajor.symm n) idx with
        | some i => fun i' => if i' = i then (fun _ b => b) (r i) (upd (u.rowMajor.symm n)) else r i'
        | none => r) x) i = c := by
    intro L
    induction L using List.reverseRecOn with
    | nil =>
      rintro ⟨n, hn, _⟩
      exact absurd hn List.not_mem_nil
    | append_singleton L n ih =>
      intro hex'
      rw [List.foldl_append, List.foldl_cons, List.foldl_nil]
      generalize hr : d.resultIdx? (u.rowMajor.symm n) idx = o
      cases o with
      | some i' =>
        dsimp only
        by_cases hii : i = i'
        · subst hii
          rw [if_pos rfl]
          exact hall _ hr
        · rw [if_neg hii]
          apply ih
          obtain ⟨m, hm, hmi⟩ := hex'
          rcases List.mem_append.mp hm with hm | hm
          · exact ⟨m, hm, hmi⟩
          · rw [List.mem_singleton.mp hm, hr] at hmi
            exact absurd (Option.some.inj hmi).symm hii
      | none =>
        dsimp only
        apply ih
        obtain ⟨m, hm, hmi⟩ := hex'
        rcases List.mem_append.mp hm with hm | hm
        · exact ⟨m, hm, hmi⟩
        · rw [List.mem_singleton.mp hm, hr] at hmi
          exact absurd hmi (by simp)
  obtain ⟨j, hj⟩ := hex
  exact key _ ⟨u.rowMajor j, List.mem_finRange _, by rw [Equiv.symm_apply_apply]; exact hj⟩

/-- The entry of the list [0, 1] of the two axes at the position numbered like the axis a is a. -/
private theorem getElem_axes (L : List (Fin 2)) (hL : L = [0, 1]) (a : Fin 2) (k : Nat) (hk : k < L.length)
    (hka : k = a.val) : L[k] = a := by
  subst hL; subst hka
  match a with
  | ⟨0, _⟩ => rfl
  | ⟨1, _⟩ => rfl

/-- Rank-2 updates written as one window (both axes window axes, none inserted) at a start that reads zero: on each
    axis the landing coordinate, start plus window coordinate, is the update entry's own coordinate. -/
theorem start_add_window {R C r c w : Nat} (d : ScatterDims ⟨2, ![R, C]⟩ ⟨1, ![1]⟩ ⟨2, ![r, c]⟩)
    (huw : d.updateWindowDims = [0, 1]) (hiw : d.insertedWindowDims = [])
    (idx : IVec ⟨1, ![1]⟩ w) (hidx : ∀ k, (idx k).toInt = 0) (j : (⟨2, ![r, c]⟩ : Shape).Idx) (a : Fin 2) :
    d.start j idx a + (d.window j a : Int) = ((j a).val : Int) := by
  have hs : d.start j idx a = 0 := by
    unfold ScatterDims.start
    split
    · exact hidx _
    · rfl
  have hkept : Shape.kept (⟨2, ![R, C]⟩ : Shape) d.insertedWindowDims = [0, 1] := by rw [hiw]; rfl
  have hk : a ∈ d.sKept := by
    show a ∈ Shape.kept (⟨2, ![R, C]⟩ : Shape) d.insertedWindowDims
    rw [hkept]
    match a with
    | ⟨0, _⟩ => exact List.mem_cons_self
    | ⟨1, _⟩ => exact List.mem_cons_of_mem _ List.mem_cons_self
  have hidxOf : d.sKept.idxOf a = a.val := by
    show (Shape.kept (⟨2, ![R, C]⟩ : Shape) d.insertedWindowDims).idxOf a = a.val
    rw [hkept]
    match a with
    | ⟨0, _⟩ => rfl
    | ⟨1, _⟩ => rfl
  have hw : d.window j a = (j a).val := by
    unfold ScatterDims.window
    rw [dif_pos hk]
    exact congrArg (fun t : Fin 2 => (j t).val) (getElem_axes d.updateWindowDims huw a _ _ hidxOf)
  rw [hs, hw, Int.zero_add]

/-- Rows written at row 0: an r × C update set into an R × C table at the start index zero, read at (v, h) for a row
    v of the update, is the update's (v, h). -/
theorem scatter_rows_apply {α : Type} {R C r w : Nat} (d : ScatterDims ⟨2, ![R, C]⟩ ⟨1, ![1]⟩ ⟨2, ![r, C]⟩)
    (huw : d.updateWindowDims = [0, 1]) (hiw : d.insertedWindowDims = [])
    (x : (⟨2, ![R, C]⟩ : Shape).Idx → α) (idx : IVec ⟨1, ![1]⟩ w) (hidx : ∀ k, (idx k).toInt = 0)
    (upd : (⟨2, ![r, C]⟩ : Shape).Idx → α) (v : Fin r) (h : Fin C) (hv : v.val < R) :
    Host.scatter d (fun _ b => b) x idx upd (ix2 (⟨v.val, hv⟩ : Fin R) h) = upd (ix2 v h) := by
  have hsw := start_add_window d huw hiw idx hidx
  -- an update entry landing on i has i's coordinates
  have land : ∀ (j : (⟨2, ![r, C]⟩ : Shape).Idx) (i : (⟨2, ![R, C]⟩ : Shape).Idx),
      d.resultIdx? j idx = some i → ∀ a : Fin 2, (i a).val = (j a).val := by
    intro j i hji a
    unfold ScatterDims.resultIdx? at hji
    split at hji
    · have hi := Option.some.inj hji
      subst hi
      show (d.start j idx a + (d.window j a : Int)).toNat = (j a).val
      rw [hsw j a]
      exact Int.toNat_natCast _
    · exact absurd hji (by simp)
  apply scatter_set_apply
  · refine ⟨ix2 v h, ?_⟩
    unfold ScatterDims.resultIdx?
    have hin : ∀ a : Fin 2, 0 ≤ d.start (ix2 v h) idx a + (d.window (ix2 v h) a : Int) ∧
        d.start (ix2 v h) idx a + (d.window (ix2 v h) a : Int) < ((⟨2, ![R, C]⟩ : Shape).size a : Int) := by
      intro a
      rw [hsw (ix2 v h) a]
      refine ⟨Int.natCast_nonneg _, ?_⟩
      match a with
      | ⟨0, _⟩ => exact Int.ofNat_lt.mpr hv
      | ⟨1, _⟩ => exact Int.ofNat_lt.mpr h.isLt
    rw [dif_pos hin]
    congr 1
    funext a
    apply Fin.ext
    show (d.start (ix2 v h) idx a + (d.window (ix2 v h) a : Int)).toNat = _
    rw [hsw (ix2 v h) a, Int.toNat_natCast]
    match a with
    | ⟨0, _⟩ => rfl
    | ⟨1, _⟩ => rfl
  · intro j hj
    have h0 : v.val = (j 0).val := land j _ hj 0
    have h1 : h.val = (j 1).val := land j _ hj 1
    have hjv : j = ix2 v h := by
      funext a
      match a with
      | ⟨0, _⟩ => exact Fin.ext h0.symm
      | ⟨1, _⟩ => exact Fin.ext h1.symm
    rw [hjv]

theorem tbl4_apply (a4 : FVec Ideal S120x128 .f32) (v : Fin 120) (h : Fin 128) :
    K.tbl4 a4 (ix2 (⟨v.val, by omega⟩ : Fin 128) h) = a4 (ix2 v h) := by
  unfold K.tbl4
  exact scatter_rows_apply scatter_S128x128_S1_S120x128_01_n_0_0 rfl rfl _ _ (fun _ => rfl) a4 v h _

theorem tbl5_apply (a5 : FVec Ideal S5x128 .f32) (v : Fin 5) (h : Fin 128) :
    K.tbl5 a5 (ix2 (⟨v.val, by omega⟩ : Fin 128) h) = a5 (ix2 v h) := by
  unfold K.tbl5
  exact scatter_rows_apply scatter_S128x128_S1_S5x128_01_n_0_0 rfl rfl _ _ (fun _ => rfl) a5 v h _

end Cert.Gnn.Bridge

end
-- ==== Proof.LibRowGather.lean ====
/-
  A row gather read at an index. `table[idx]` over a rank-2 table [N, D] at a vector of n row numbers prints as a
  `stablehlo.gather` whose start indices are the [n, 1] column of row numbers, whose operand axis 0 is collapsed and
  start-indexed, whose operand axis 1 is the one offset axis, and whose slices are whole rows [1, D]. Result element (p, q)
  is the table at (row, q), the row being position p's start index read as a signed integer and clamped into [0, N − 1].
-/
import Idealize.ShloMosaic.PureOps.ShapeOps
import Idealize.ShloMosaic.Lib.ValueIdx

namespace Idealize.ShloMosaic.RowGather

open Idealize.ShloMosaic Idealize.ShloMosaic.ValueIdx

/-- A rank-2 index read on an axis whose number is 0 is its first coordinate. -/
theorem ix2_val_zero {n0 n1 : Nat} (a : Fin n0) (b : Fin n1) (i : Fin 2) (hi : i.val = 0) : (ix2 a b i).val = a.val := by
  match i, hi with
  | ⟨0, _⟩, _ => rfl
/-- … and on an axis whose number is 1, its second. -/
theorem ix2_val_one {n0 n1 : Nat} (a : Fin n0) (b : Fin n1) (i : Fin 2) (hi : i.val = 1) : (ix2 a b i).val = b.val := by
  match i, hi with
  | ⟨1, _⟩, _ => rfl

/-- A start index read as a signed integer and clamped into a table of `N` rows: the row a gather reads. -/
def clampRow (N : Nat) (hN : 0 < N) {w : Nat} (i : BitVec w) : Fin N := ⟨min i.toInt.toNat (N - 1), by omega⟩

/-- THE ROW GATHER AT (p, q): the table at (the clamped start row of position p, q). The five hypotheses are the printed
    dimension numbers, each by `rfl` at a program's record. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ix2 p q)
      = x (ix2 (clampRow N hN (idx (ix2 p (0 : Fin 1)))) q) := by
  unfold Host.gather clampRow
  congr 1
  funext a
  apply Fin.ext
  have hb : ∀ a : Fin 2, a ∉ d.operandBatchingDims := fun a => by rw [hob]; exact List.not_mem_nil
  -- the result's batch axes are all axis 0, its offset axes all axis 1
  have hbatch : ∀ a ∈ d.batchDims, a.val = 0 := by
    intro a ha
    have hna : a ∉ d.offsetDims := by
      have := (List.mem_filter.mp ha).2
      simpa using this
    rw [hoff] at hna
    have h2 : a.val < 2 := a.isLt
    by_contra hne
    exact hna (List.mem_singleton.mpr (Fin.ext (by show a.val = 1; omega)))
  have hoffs : ∀ a ∈ d.offsetDims, a.val = 1 := by
    intro a ha; rw [hoff] at ha; rw [List.mem_singleton.mp ha]; rfl
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min _ (N - 1)
    rw [d.batchCoord_eq_zero _ _ (hb 0), d.offCoord_eq_zero _ _ hk]
    simp only [Nat.add_zero]
    unfold GatherDims.start
    rw [dif_pos hm]
    have hsi : d.siIdx (ix2 p q) ⟨d.startIndexMap.idxOf (0 : Fin 2), List.idxOf_lt_length_iff.2 hm⟩ = ix2 p (0 : Fin 1) := by
      funext b
      apply Fin.ext
      match b with
      | ⟨0, _⟩ =>
        unfold GatherDims.siIdx
        rw [dif_neg (by rw [hivd]; exact Nat.zero_ne_one)]
        unfold GatherDims.siCoord
        simp only [Fin.val_cast]
        exact ix2_val_zero p q _ (hbatch _ (List.getElem_mem _))
      | ⟨1, _⟩ =>
        unfold GatherDims.siIdx
        rw [dif_pos (by rw [hivd])]
        show List.idxOf (0 : Fin 2) d.startIndexMap = 0
        rw [hsim]; simp
    rw [hsi]
    show min (idx (ix2 p 0)).toInt.toNat (N - d.sliceSizes 0) = _
    rw [hsl]
  | ⟨1, _⟩ =>
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1)]
    simp only [Nat.add_zero]
    unfold GatherDims.start
    rw [dif_neg hm, Nat.zero_add]
    unfold GatherDims.offCoord
    rw [dif_pos hk]
    exact ix2_val_one p q _ (hoffs _ (List.getElem_mem _))

end Idealize.ShloMosaic.RowGather
-- ==== Proof.BridgeEmbed.lean ====
/-
  A row lookup by comparison in the zero-padded table at a clipped id is the table's row at that id: the kernel's initial node and edge features are the reference's gathered rows.
-/
import proofs.«414959_j88416196756193_1_alg».proof.Proof.KStages
import proofs.«414959_j88416196756193_1_alg».proof.Proof.TableRead
import proofs.«414959_j88416196756193_1_alg».proof.Proof.Gen.ReferenceIdeal.Read
import Idealize.ShloMosaic.PureOps.Ideal.Laws
import Idealize.ShloMosaic.Lib.ValueLayout
import proofs.«414959_j88416196756193_1_alg».proof.Proof.LibRowGather

noncomputable section

namespace Cert.Gnn.Bridge

open Idealize.ShloMosaic Idealize.ShloMosaic.ValueIdx
open Cert.KernelIdeal Cert.KernelIdeal.Facts₀ Cert.KernelIdeal.Facts Cert.Gnn

/-- Clipping a 32-bit signed integer from below at zero and from above at a nonnegative bound lands between them. -/
private theorem clip_bounds (hi a : BitVec 32) (hhi : 0 ≤ hi.toInt) :
    0 ≤ (IntOp.minsi hi (IntOp.maxsi 0#32 a)).toInt ∧ (IntOp.minsi hi (IntOp.maxsi 0#32 a)).toInt ≤ hi.toInt := by
  unfold IntOp.minsi IntOp.maxsi
  simp only [BitVec.slt, BitVec.toInt_zero]
  split_ifs <;> simp_all <;> omega

/-- A 32-bit integer whose signed value is nonnegative has that value as its unsigned one. -/
private theorem toInt_eq_toNat_of_nonneg (c : BitVec 32) (hc : 0 ≤ c.toInt) : c.toInt = (c.toNat : Int) := by
  have h := BitVec.toInt_eq_toNat_cond c
  have hlt := c.isLt
  split_ifs at h <;> omega

/-- A nonnegative index is not shifted: the choice "if negative, add k" keeps it. -/
private theorem select_nonneg (c k : BitVec 32) (hc : 0 ≤ c.toInt) :
    Scalar.select (IntOp.cmpi .slt c 0#32) (IntOp.addi c k) c = c := by
  have hs : c.slt 0#32 = false := by
    simp only [BitVec.slt, BitVec.toInt_zero, decide_eq_false_iff_not, not_lt]; exact hc
  unfold Scalar.select IntOp.cmpi
  simp only [hs]
  rw [if_neg (by decide)]

/-- The sum over the 128 row numbers of [c = v] · f v is f at c's row. -/
private theorem sum_hot (c : BitVec 32) (n : Fin 128) (hc : c = BitVec.ofNat 32 n.val) (f : Fin 128 → EReal) :
    ∑ v : Fin 128, hot c v * f v = f n := by
  rw [Finset.sum_eq_single n]
  · unfold hot; rw [if_pos hc, one_mul]
  · intro v _ hv
    unfold hot
    rw [if_neg, zero_mul]
    intro h
    apply hv
    rw [hc] at h
    have h2 := congrArg BitVec.toNat h
    simp only [BitVec.toNat_ofNat] at h2
    apply Fin.ext
    have := v.isLt; have := n.isLt
    omega
  · intro h; exact absurd (Finset.mem_univ _) h

/-- An [a] array cast to [a, 1] reads, at (i, u), the operand at i. -/
private theorem shapeCast_a_a1_apply' {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem x0_eq (a0 : IVec S200000 32) (a4 : FVec Ideal S120x128 .f32) :
    K.x0 a0 a4 = Cert.ReferenceIdeal.Read.val_main_v7 (F := Ideal) a0 a4 := by
  funext j
  obtain ⟨p, q, rfl⟩ : ∃ (p : Fin 200000) (q : Fin 128), j = ix2 p q := ⟨j 0, j 1, eq_ix2 j⟩
  -- the clipped id c of node p, and its row number
  have hb := clip_bounds 119#32 (a0 (ix1 p)) (by decide)
  generalize hc : IntOp.minsi 119#32 (IntOp.maxsi 0#32 (a0 (ix1 p))) = c at hb
  have hnat := toInt_eq_toNat_of_nonneg c hb.1
  have h119 : (119#32 : BitVec 32).toInt = 119 := by decide
  have hn : c.toNat < 120 := by omega
  -- the kernel side: the one-hot sum picks the padded table's row c, which is the table's row c
  have hL : K.x0 a0 a4 (ix2 p q) = a4 (ix2 (⟨c.toNat, hn⟩ : Fin 120) q) := by
    have hid : shapeCast S200000x1 (K.atClip a0) shapeCasts_S200000_S200000x1 (ix2 p (0 : Fin 1)) = c := by
      rw [shapeCast_a_a1_apply']
      exact hc
    show ∑ v : Fin 128, hot (shapeCast S200000x1 (K.atClip a0) shapeCasts_S200000_S200000x1 (ix2 p (0 : Fin 1))) v
        * K.tbl4 a4 (ix2 v q) = _
    rw [hid]
    exact (sum_hot c ⟨c.toNat, by omega⟩ (BitVec.eq_of_toNat_eq (by rw [BitVec.toNat_ofNat]; exact (Nat.mod_eq_of_lt c.isLt).symm)) (fun v => K.tbl4 a4 (ix2 v q))).trans
      (tbl4_apply a4 ⟨c.toNat, hn⟩ q)
  -- the reference side: the gather reads the table's row at the clamped start index, which is c
  have hR : Cert.ReferenceIdeal.Read.val_main_v7 (F := Ideal) a0 a4 (ix2 p q) = a4 (ix2 (⟨c.toNat, hn⟩ : Fin 120) q) := by
    have hidx : Cert.ReferenceIdeal.Read.val_main_v6 (F := Ideal) a0 (ix2 p (0 : Fin 1)) = c := by
      rw [Cert.ReferenceIdeal.Read.val_main_v6_apply]
      have hi : Cert.ReferenceIdeal.Read.idx_main_v6 (ix2 p (0 : Fin 1)) = ix1 p := by
        funext a; match a with | ⟨0, _⟩ => rfl
      have h0 : Cert.ReferenceIdeal.Read.val_main_v0 (F := Ideal) a0 (ix1 p) = c := hc
      have h1 : Cert.ReferenceIdeal.Read.val_main_v1 (F := Ideal) (ix1 p) = 0#32 := rfl
      rw [hi, Cert.ReferenceIdeal.Read.val_main_v5_apply, Cert.ReferenceIdeal.Read.val_main_v2_apply, Cert.ReferenceIdeal.Read.val_main_v4_apply, h0, h1]
      exact select_nonneg c _ hb.1
    unfold Cert.ReferenceIdeal.Read.val_main_v7
    refine (RowGather.gather_rows_apply _ rfl rfl rfl rfl rfl a4 _ p q (by decide)).trans ?_
    rw [hidx]
    congr 2
    apply Fin.ext
    show min c.toInt.toNat (120 - 1) = c.toNat
    omega
  rw [hL, hR]

theorem ae_eq (a2 : IVec S400000 32) (a5 : FVec Ideal S5x128 .f32) :
    K.ae a2 a5 = Cert.ReferenceIdeal.Read.val_main_v15 (F := Ideal) a2 a5 := by
  funext j
  obtain ⟨p, q, rfl⟩ : ∃ (p : Fin 400000) (q : Fin 128), j = ix2 p q := ⟨j 0, j 1, eq_ix2 j⟩
  -- the clipped id c of edge p, and its row number
  have hb := clip_bounds 4#32 (a2 (ix1 p)) (by decide)
  generalize hc : IntOp.minsi 4#32 (IntOp.maxsi 0#32 (a2 (ix1 p))) = c at hb
  have hnat := toInt_eq_toNat_of_nonneg c hb.1
  have h4 : (4#32 : BitVec 32).toInt = 4 := by decide
  have hn : c.toNat < 5 := by omega
  -- the kernel side: the one-hot sum picks the padded table's row c, which is the table's row c
  have hL : K.ae a2 a5 (ix2 p q) = a5 (ix2 (⟨c.toNat, hn⟩ : Fin 5) q) := by
    have hid : shapeCast S400000x1 (K.etClip a2) shapeCasts_S400000_S400000x1 (ix2 p (0 : Fin 1)) = c := by
      rw [shapeCast_a_a1_apply']
      exact hc
    show ∑ v : Fin 128, hot (shapeCast S400000x1 (K.etClip a2) shapeCasts_S400000_S400000x1 (ix2 p (0 : Fin 1))) v
        * K.tbl5 a5 (ix2 v q) = _
    rw [hid]
    exact (sum_hot c ⟨c.toNat, by omega⟩
        (BitVec.eq_of_toNat_eq (by rw [BitVec.toNat_ofNat]; exact (Nat.mod_eq_of_lt c.isLt).symm))
        (fun v => K.tbl5 a5 (ix2 v q))).trans
      (tbl5_apply a5 ⟨c.toNat, hn⟩ q)
  -- the reference side: the gather reads the table's row at the clamped start index, which is c
  have hR : Cert.ReferenceIdeal.Read.val_main_v15 (F := Ideal) a2 a5 (ix2 p q) = a5 (ix2 (⟨c.toNat, hn⟩ : Fin 5) q) := by
    have hidx : Cert.ReferenceIdeal.Read.val_main_v14 (F := Ideal) a2 (ix2 p (0 : Fin 1)) = c := by
      rw [Cert.ReferenceIdeal.Read.val_main_v14_apply]
      have hi : Cert.ReferenceIdeal.Read.idx_main_v14 (ix2 p (0 : Fin 1)) = ix1 p := by
        funext a; match a with | ⟨0, _⟩ => rfl
      have h0 : Cert.ReferenceIdeal.Read.val_main_v8 (F := Ideal) a2 (ix1 p) = c := hc
      have h1 : Cert.ReferenceIdeal.Read.val_main_v9 (F := Ideal) (ix1 p) = 0#32 := rfl
      rw [hi, Cert.ReferenceIdeal.Read.val_main_v13_apply, Cert.ReferenceIdeal.Read.val_main_v10_apply, Cert.ReferenceIdeal.Read.val_main_v12_apply, h0, h1]
      exact select_nonneg c _ hb.1
    unfold Cert.ReferenceIdeal.Read.val_main_v15
    refine (RowGather.gather_rows_apply _ rfl rfl rfl rfl rfl a5 _ p q (by decide)).trans ?_
    rw [hidx]
    congr 2
    apply Fin.ext
    show min c.toInt.toNat (5 - 1) = c.toNat
    omega
  rw [hL, hR]

end Cert.Gnn.Bridge

end
-- ==== Proof.BridgeTake.lean ====
/-
  Where every source index is a node number, the kernel's guarded row read (fill value out of range) is the reference's plain row gather.
-/
import proofs.«414959_j88416196756193_1_alg».proof.Proof.KStages
import proofs.«414959_j88416196756193_1_alg».proof.Proof.Gen.ReferenceIdeal.Read
import Idealize.ShloMosaic.PureOps.Ideal.Laws
import Idealize.ShloMosaic.Lib.ValueLayout
import Idealize.ShloMosaic.Lib.ReduceAll
import proofs.«414959_j88416196756193_1_alg».proof.Proof.LibRowGather

noncomputable section

namespace Cert.Gnn.Bridge

open Idealize.ShloMosaic Idealize.ShloMosaic.ValueIdx
open Cert.KernelIdeal Cert.KernelIdeal.Facts₀ Cert.KernelIdeal.Facts Cert.Gnn

/-- A left fold by `and` over one-bit words that are all 1 ends where it started. -/
private theorem foldl_andi_ones {ι : Type} (f : ι → BitVec 1) (hf : ∀ n, f n = 1#1) :
    ∀ (l : List ι) (init : BitVec 1), l.foldl (fun r n => IntOp.andi r (f n)) init = init
  | [], _ => rfl
  | a :: l, init => by
    rw [List.foldl_cons, hf a, foldl_andi_ones f hf l]
    revert init; decide

/-- An and-reduction, from 1, of an array whose every element is 1 is 1 at every result index. -/
private theorem reduce_andi_ones {s t u : Shape} {axes : List (Fin s.rank)} (x : s.Idx → BitVec 1)
    (init : u.Idx → BitVec 1) (h : s.ReducesTo axes t) (hu : 0 < u.numel) (hx : ∀ i, x i = 1#1)
    (hi : init (Shape.Idx.first hu) = 1#1) (j : t.Idx) : Host.reduce IntOp.andi x init h hu j = 1#1 := by
  rw [Host.reduce_eq_foldl, foldl_andi_ones x hx, hi]

/-- Edge e's source word is the edge list at (0, e): row 0 sliced out, then read as a vector. -/
private theorem src_apply (a1 : IVec S2x400000 32) (e : Fin 400000) :
    K.src a1 (ix1 e) = a1 (ix2 (0 : Fin 2) e) := by
  unfold K.src
  refine (shapeCast_apply _ shapeCasts_S1x400000_S400000 (ix1 e) (ix2 (0 : Fin 1) e) ?_).trans ?_
  · rw [Shape.rowMajor_val_two, Shape.rowMajor_val_one]; show 0 * 400000 + e.val = e.val; omega
  · exact extractStridedSlice_apply ![0, 0] a1 slices_S2x400000_S1x400000_0_0 (ix2 (0 : Fin 1) e) (ix2 (0 : Fin 2) e)
      (fun a => match a with
        | ⟨0, _⟩ => by show (0 : Nat) = 0 + 0; rfl
        | ⟨1, _⟩ => by show e.val = 0 + e.val; omega)

/-- The shifted index column at (e, 0): the source word, moved up by the node count when negative. -/
private theorem idxCol_apply (s : IVec S400000 32) (e : Fin 400000) (z : Fin 1) :
    K.idxCol s (ix2 e z)
      = Scalar.select (IntOp.cmpi .slt (s (ix1 e)) 0#32) (IntOp.addi (s (ix1 e)) 200000#32) (s (ix1 e)) := by
  unfold K.idxCol
  refine (broadcastInDim_apply ![0] bcast_S400000_S400000x1_0 _ (ix2 e z) (ix1 e) (fun a => match a with
    | ⟨0, _⟩ => by show e.val = if (400000 : Nat) = 1 then 0 else e.val; rw [if_neg (by decide)])).trans ?_
  rfl

/-- A word v with 0 ≤ v < 200000 (signed) is not negative, so the shift leaves it alone. -/
private theorem shift_word (v : BitVec 32) (h0 : 0 ≤ v.toInt) :
    Scalar.select (IntOp.cmpi .slt v 0#32) (IntOp.addi v 200000#32) v = v := by
  have hc : IntOp.cmpi .slt v 0#32 = 0#1 := by
    apply eq_zero_of_ne_one
    rw [IntOp.cmpi_slt, show (0#32 : BitVec 32).toInt = 0 from by decide]; omega
  rw [hc]; exact select_zero _ _

/-- … and it passes both bounds of the guard, 0 ≤ v and v ≤ 199999. -/
private theorem guard_word (v : BitVec 32) (h0 : 0 ≤ v.toInt) (h1 : v.toInt < 200000) :
    IntOp.andi (IntOp.cmpi .sge v 0#32) (IntOp.cmpi .sle v 199999#32) = 1#1 := by
  rw [IntOp.andi_eq_one, IntOp.cmpi_sge, IntOp.cmpi_sle, show (0#32 : BitVec 32).toInt = 0 from by decide,
    show (199999#32 : BitVec 32).toInt = 199999 from by decide]
  omega

/-- The guard is 1 at every edge. -/
private theorem inRange_one (a1 : IVec S2x400000 32) (h : SrcInRange a1) (i : S400000.Idx) :
    K.inRange (K.src a1) i = 1#1 := by
  unfold K.inRange
  refine reduce_andi_ones _ _ _ _ ?_ rfl i
  intro j
  obtain ⟨e, z, rfl⟩ : ∃ (e : Fin 400000) (z : Fin 1), j = ix2 e z := ⟨j 0, j 1, eq_ix2 j⟩
  show IntOp.andi (IntOp.cmpi .sge (K.idxCol (K.src a1) (ix2 e z)) 0#32)
      (IntOp.cmpi .sle (K.idxCol (K.src a1) (ix2 e z)) 199999#32) = 1#1
  rw [idxCol_apply, src_apply, shift_word _ (h e).1]
  exact guard_word _ (h e).1 (h e).2

theorem take_eq (a1 : IVec S2x400000 32) (h : SrcInRange a1) (x : FVec Ideal S200000x128 .f32) :
    K.take x (K.src a1)
      = Host.gather Cert.ReferenceIdeal.gather_S200000x128_S400000x1_S400000x128_1_0_n_n_0_1_1128 x
          (Cert.ReferenceIdeal.Read.val_main_v25 (F := Ideal) a1) := by
  -- the two programs spell one index column and one dimension record
  have hidx : K.idxCol (K.src a1) = Cert.ReferenceIdeal.Read.val_main_v25 (F := Ideal) a1 := rfl
  have hd : gather_S200000x128_S400000x1_S400000x128_1_0_n_n_0_1_1128
      = Cert.ReferenceIdeal.gather_S200000x128_S400000x1_S400000x128_1_0_n_n_0_1_1128 := rfl
  rw [← hidx, ← hd]
  funext j
  unfold K.take
  have hg : broadcastInDim S400000x128 ![0] bcast_S400000_S400000x128_0 (K.inRange (K.src a1)) j = 1#1 :=
    inRange_one a1 h _
  rw [select_apply, hg]
  exact select_one _ _

end Cert.Gnn.Bridge

end
-- ==== Proof.BridgeMlp.lean ====
/-
  A layer's dense part, entry by entry, is the reference's two matrix products with bias rows and a positive part between them.
-/
import proofs.«414959_j88416196756193_1_alg».proof.Proof.KStages
import proofs.«414959_j88416196756193_1_alg».proof.Proof.Gen.ReferenceIdeal.Read
import Idealize.ShloMosaic.PureOps.Ideal.Laws
import Idealize.ShloMosaic.Lib.ValueLayout

noncomputable section

namespace Cert.Gnn.Bridge

open Idealize.ShloMosaic Idealize.ShloMosaic.ValueIdx
open Cert.KernelIdeal Cert.KernelIdeal.Facts₀ Cert.KernelIdeal.Facts Cert.Gnn

/-- The reference's matrix product read at an entry: the sum over the shared axis of the products. -/
private theorem hostDot_apply (Y : FVec Ideal S200000x128 .f32) (W : FVec Ideal S128x128 .f32) (i : Fin 200000) (q : Fin 128) :
    Host.dotGeneral (φ₂ := .f32) Cert.ReferenceIdeal.dot_S200000x128_S128x128_S200000x128_1_0_0_1_n_n none Y W (ix2 i q)
      = ∑ k : Fin 128, Y (ix2 i k) * W (ix2 k q) := by
  simp only [Host.dotGeneral]
  rw [Ideal.dotGeneral_apply, ← Equiv.sum_comp (contrEquiv1 Cert.ReferenceIdeal.dot_S200000x128_S128x128_S200000x128_1_0_0_1_n_n 128 rfl rfl).symm]
  refine Finset.sum_congr rfl fun k _ => ?_
  have hk := contrEquiv1_symm_val Cert.ReferenceIdeal.dot_S200000x128_S128x128_S200000x128_1_0_0_1_n_n 128 rfl rfl k
  have el : Cert.ReferenceIdeal.dot_S200000x128_S128x128_S200000x128_1_0_0_1_n_n.lhsIdx (ix2 i q)
      ((contrEquiv1 Cert.ReferenceIdeal.dot_S200000x128_S128x128_S200000x128_1_0_0_1_n_n 128 rfl rfl).symm k) = ix2 i k :=
    funext fun a => Fin.ext (by
      match a with
      | ⟨0, _⟩ => exact Cert.ReferenceIdeal.Read.lhs_main_v35_0 _ _
      | ⟨1, _⟩ => exact (Cert.ReferenceIdeal.Read.lhs_main_v35_1 _ _).trans hk)
  have er : Cert.ReferenceIdeal.dot_S200000x128_S128x128_S200000x128_1_0_0_1_n_n.rhsIdx (ix2 i q)
      ((contrEquiv1 Cert.ReferenceIdeal.dot_S200000x128_S128x128_S200000x128_1_0_0_1_n_n 128 rfl rfl).symm k) = ix2 k q :=
    funext fun a => Fin.ext (by
      match a with
      | ⟨0, _⟩ => exact (Cert.ReferenceIdeal.Read.rhs_main_v35_0 _ _).trans hk
      | ⟨1, _⟩ => exact Cert.ReferenceIdeal.Read.rhs_main_v35_1 _ _)
  rw [el, er]

/-- A 128-vector spread over the rows of a 200000 × 128 array, read at (i, k), and the same vector as a 1 × 128 row, read at
    (0, k), are both the vector's entry k. -/
private theorem biasRow_apply (r : FVec Ideal S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S200000x128 (![0, 1] : Fin 2 → Fin Cert.ReferenceIdeal.S200000x128.rank))
    (i : Fin 200000) (k : Fin 128) :
    broadcastInDim Cert.ReferenceIdeal.S200000x128 ![0, 1] h2 (broadcastInDim Cert.ReferenceIdeal.S1x128 ![1] h1 r) (ix2 i k)
      = shapeCast S1x128 r shapeCasts_S128_S1x128 (ix2 (0 : Fin 1) k) := by
  rw [broadcastInDim_apply _ h2 _ (ix2 i k) (ix2 (0 : Fin 1) k) (fun a => match a with
      | ⟨0, _⟩ => by show 0 = if (1 : Nat) = 1 then 0 else i.val; rw [if_pos rfl]
      | ⟨1, _⟩ => by show k.val = if (128 : Nat) = 1 then 0 else k.val; rw [if_neg (by decide)]),
    broadcastInDim_apply _ h1 r (ix2 (0 : Fin 1) k) (ix1 k) (fun a => match a with
      | ⟨0, _⟩ => by show k.val = if (128 : Nat) = 1 then 0 else k.val; rw [if_neg (by decide)]),
    shapeCast_apply r shapeCasts_S128_S1x128 (ix2 (0 : Fin 1) k) (ix1 k)
      (by rw [Shape.rowMajor_val_two, Shape.rowMajor_val_one]; show k.val = 0 * 128 + k.val; omega)]

/-- The constant 0 spread over a 200000 × 128 array reads 0 everywhere. -/
private theorem zeros_apply (h : Cert.ReferenceIdeal.S_.BroadcastsInDim Cert.ReferenceIdeal.S200000x128 (![] : Fin 0 → Fin Cert.ReferenceIdeal.S200000x128.rank))
    (j : S200000x128.Idx) :
    broadcastInDim Cert.ReferenceIdeal.S200000x128 ![] h (constant (F := Ideal) Cert.ReferenceIdeal.S_ .f32 0x00000000#32) j = 0 := by
  rw [broadcastInDim_apply _ h _ j ix0 (fun a => a.elim0), constant_apply, Ideal.ofBits_zero_f32]

theorem mlp0_eq (X AGG : FVec Ideal S200000x128 .f32) (a6 a8 : FVec Ideal S3x128x128 .f32) (a7 a9 : FVec Ideal S3x128 .f32) :
    mlpRows X AGG (K.w0 a6) (K.b0 a7) (K.w0 a8) (K.b0 a9)
      = addf (Host.dotGeneral (φ₂ := .f32) Cert.ReferenceIdeal.dot_S200000x128_S128x128_S200000x128_1_0_0_1_n_n none
          (maximumf (addf (Host.dotGeneral (φ₂ := .f32) Cert.ReferenceIdeal.dot_S200000x128_S128x128_S200000x128_1_0_0_1_n_n none (addf X AGG)
              (Cert.ReferenceIdeal.Read.val_main_v34 (F := Ideal) a6)) (Cert.ReferenceIdeal.Read.val_main_v39 (F := Ideal) a7))
            (Cert.ReferenceIdeal.Read.val_main_call3_v0 (F := Ideal)))
          (Cert.ReferenceIdeal.Read.val_main_v43 (F := Ideal) a8)) (Cert.ReferenceIdeal.Read.val_main_v48 (F := Ideal) a9) := by
  -- The reference's weight slices are the kernel's, operation for operation.
  have hW1 : Cert.ReferenceIdeal.Read.val_main_v34 (F := Ideal) a6 = K.w0 a6 := rfl
  have hW2 : Cert.ReferenceIdeal.Read.val_main_v43 (F := Ideal) a8 = K.w0 a8 := rfl
  -- The reference's bias arrays read the kernel's bias rows.
  have hB1 : ∀ (i : Fin 200000) (k : Fin 128),
      Cert.ReferenceIdeal.Read.val_main_v39 (F := Ideal) a7 (ix2 i k) = K.b0 a7 (ix2 (0 : Fin 1) k) :=
    fun i k => biasRow_apply _ _ _ i k
  have hB2 : ∀ (i : Fin 200000) (k : Fin 128),
      Cert.ReferenceIdeal.Read.val_main_v48 (F := Ideal) a9 (ix2 i k) = K.b0 a9 (ix2 (0 : Fin 1) k) :=
    fun i k => biasRow_apply _ _ _ i k
  -- The positive part is taken against the zero array.
  have hZ : ∀ j : S200000x128.Idx, Cert.ReferenceIdeal.Read.val_main_call3_v0 (F := Ideal) j = 0 :=
    fun j => zeros_apply _ j
  funext j
  obtain ⟨i, q, rfl⟩ : ∃ (i : Fin 200000) (q : Fin 128), j = ix2 i q := ⟨j 0, j 1, eq_ix2 j⟩
  rw [addf_apply, hostDot_apply, hB2, hW2]
  show (∑ k : Fin 128, hidden X AGG (K.w0 a6) (K.b0 a7) i k * K.w0 a8 (ix2 k q)) + K.b0 a9 (ix2 (0 : Fin 1) q) = _
  refine congrArg (· + K.b0 a9 (ix2 (0 : Fin 1) q)) (Finset.sum_congr rfl fun k _ => congrArg (· * K.w0 a8 (ix2 k q)) ?_)
  rw [maximumf_apply, addf_apply, hostDot_apply, hB1, hW1, hZ]
  rfl

theorem mlp1_eq (X AGG : FVec Ideal S200000x128 .f32) (a6 a8 : FVec Ideal S3x128x128 .f32) (a7 a9 : FVec Ideal S3x128 .f32) :
    mlpRows X AGG (K.w1 a6) (K.b1 a7) (K.w1 a8) (K.b1 a9)
      = addf (Host.dotGeneral (φ₂ := .f32) Cert.ReferenceIdeal.dot_S200000x128_S128x128_S200000x128_1_0_0_1_n_n none
          (maximumf (addf (Host.dotGeneral (φ₂ := .f32) Cert.ReferenceIdeal.dot_S200000x128_S128x128_S200000x128_1_0_0_1_n_n none (addf X AGG)
              (Cert.ReferenceIdeal.Read.val_main_v64 (F := Ideal) a6)) (Cert.ReferenceIdeal.Read.val_main_v69 (F := Ideal) a7))
            (Cert.ReferenceIdeal.Read.val_main_call5_v0 (F := Ideal)))
          (Cert.ReferenceIdeal.Read.val_main_v73 (F := Ideal) a8)) (Cert.ReferenceIdeal.Read.val_main_v78 (F := Ideal) a9) := by
  -- The reference's weight slices are the kernel's, operation for operation.
  have hW1 : Cert.ReferenceIdeal.Read.val_main_v64 (F := Ideal) a6 = K.w1 a6 := rfl
  have hW2 : Cert.ReferenceIdeal.Read.val_main_v73 (F := Ideal) a8 = K.w1 a8 := rfl
  -- The reference's bias arrays read the kernel's bias rows.
  have hB1 : ∀ (i : Fin 200000) (k : Fin 128),
      Cert.ReferenceIdeal.Read.val_main_v69 (F := Ideal) a7 (ix2 i k) = K.b1 a7 (ix2 (0 : Fin 1) k) :=
    fun i k => biasRow_apply _ _ _ i k
  have hB2 : ∀ (i : Fin 200000) (k : Fin 128),
      Cert.ReferenceIdeal.Read.val_main_v78 (F := Ideal) a9 (ix2 i k) = K.b1 a9 (ix2 (0 : Fin 1) k) :=
    fun i k => biasRow_apply _ _ _ i k
  -- The positive part is taken against the zero array.
  have hZ : ∀ j : S200000x128.Idx, Cert.ReferenceIdeal.Read.val_main_call5_v0 (F := Ideal) j = 0 :=
    fun j => zeros_apply _ j
  funext j
  obtain ⟨i, q, rfl⟩ : ∃ (i : Fin 200000) (q : Fin 128), j = ix2 i q := ⟨j 0, j 1, eq_ix2 j⟩
  rw [addf_apply, hostDot_apply, hB2, hW2]
  show (∑ k : Fin 128, hidden X AGG (K.w1 a6) (K.b1 a7) i k * K.w1 a8 (ix2 k q)) + K.b1 a9 (ix2 (0 : Fin 1) q) = _
  refine congrArg (· + K.b1 a9 (ix2 (0 : Fin 1) q)) (Finset.sum_congr rfl fun k _ => congrArg (· * K.w1 a8 (ix2 k q)) ?_)
  rw [maximumf_apply, addf_apply, hostDot_apply, hB1, hW1, hZ]
  rfl

theorem mlp2_eq (X AGG : FVec Ideal S200000x128 .f32) (a6 a8 : FVec Ideal S3x128x128 .f32) (a7 a9 : FVec Ideal S3x128 .f32) :
    mlpRows X AGG (K.w2 a6) (K.b2 a7) (K.w2 a8) (K.b2 a9)
      = addf (Host.dotGeneral (φ₂ := .f32) Cert.ReferenceIdeal.dot_S200000x128_S128x128_S200000x128_1_0_0_1_n_n none
          (maximumf (addf (Host.dotGeneral (φ₂ := .f32) Cert.ReferenceIdeal.dot_S200000x128_S128x128_S200000x128_1_0_0_1_n_n none (addf X AGG)
              (Cert.ReferenceIdeal.Read.val_main_v94 (F := Ideal) a6)) (Cert.ReferenceIdeal.Read.val_main_v99 (F := Ideal) a7))
            (Cert.ReferenceIdeal.Read.val_main_call7_v0 (F := Ideal)))
          (Cert.ReferenceIdeal.Read.val_main_v103 (F := Ideal) a8)) (Cert.ReferenceIdeal.Read.val_main_v108 (F := Ideal) a9) := by
  -- The reference's weight slices are the kernel's, operation for operation.
  have hW1 : Cert.ReferenceIdeal.Read.val_main_v94 (F := Ideal) a6 = K.w2 a6 := rfl
  have hW2 : Cert.ReferenceIdeal.Read.val_main_v103 (F := Ideal) a8 = K.w2 a8 := rfl
  -- The reference's bias arrays read the kernel's bias rows.
  have hB1 : ∀ (i : Fin 200000) (k : Fin 128),
      Cert.ReferenceIdeal.Read.val_main_v99 (F := Ideal) a7 (ix2 i k) = K.b2 a7 (ix2 (0 : Fin 1) k) :=
    fun i k => biasRow_apply _ _ _ i k
  have hB2 : ∀ (i : Fin 200000) (k : Fin 128),
      Cert.ReferenceIdeal.Read.val_main_v108 (F := Ideal) a9 (ix2 i k) = K.b2 a9 (ix2 (0 : Fin 1) k) :=
    fun i k => biasRow_apply _ _ _ i k
  -- The positive part is taken against the zero array.
  have hZ : ∀ j : S200000x128.Idx, Cert.ReferenceIdeal.Read.val_main_call7_v0 (F := Ideal) j = 0 :=
    fun j => zeros_apply _ j
  funext j
  obtain ⟨i, q, rfl⟩ : ∃ (i : Fin 200000) (q : Fin 128), j = ix2 i q := ⟨j 0, j 1, eq_ix2 j⟩
  rw [addf_apply, hostDot_apply, hB2, hW2]
  show (∑ k : Fin 128, hidden X AGG (K.w2 a6) (K.b2 a7) i k * K.w2 a8 (ix2 k q)) + K.b2 a9 (ix2 (0 : Fin 1) q) = _
  refine congrArg (· + K.b2 a9 (ix2 (0 : Fin 1) q)) (Finset.sum_congr rfl fun k _ => congrArg (· * K.w2 a8 (ix2 k q)) ?_)
  rw [maximumf_apply, addf_apply, hostDot_apply, hB1, hW1, hZ]
  rfl

end Cert.Gnn.Bridge

end
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.BridgePool.lean ====
/-
  The per-graph node count computed as a vector and spread over the columns is the count computed as a one-column matrix and spread: the two per-graph means are one array.
-/
import proofs.«414959_j88416196756193_1_alg».proof.Proof.KStages
import proofs.«414959_j88416196756193_1_alg».proof.Proof.Gen.ReferenceIdeal.Read
import Idealize.ShloMosaic.PureOps.Ideal.Laws
import Idealize.ShloMosaic.Lib.ValueLayout
import proofs.«414959_j88416196756193_1_alg».proof.Proof.LibScatterRows

noncomputable section

namespace Cert.Gnn.Bridge

open Idealize.ShloMosaic Idealize.ShloMosaic.ValueIdx
open Cert.KernelIdeal Cert.KernelIdeal.Facts₀ Cert.KernelIdeal.Facts Cert.Gnn

/-- A vector index read on its one axis is its coordinate. -/
private theorem ix1_val {n : ℕ} (a : Fin n) (i : Fin 1) : (ix1 a i).val = a.val := by
  match i with
  | ⟨0, _⟩ => rfl

/-- The start row a vector scatter reads for update `r`: the index column's entry `(r, 0)`, signed. -/
private theorem start1 {N C w : ℕ} (d : ScatterDims ⟨1, ![C]⟩ ⟨2, ![N, 1]⟩ ⟨1, ![N]⟩)
    (huw : d.updateWindowDims = []) (hsd : d.scatterDimsToOperandDims = [0]) (hivd : d.indexVectorDim = 1)
    (idx : IVec ⟨2, ![N, 1]⟩ w) (r : Fin N) :
    d.start (ix1 r) idx 0 = (idx (ix2 r (0 : Fin 1))).toInt := by
  have hm : (0 : Fin 1) ∈ d.scatterDimsToOperandDims := by rw [hsd]; exact List.mem_singleton.mpr rfl
  unfold ScatterDims.start
  rw [dif_pos hm]
  congr 2
  funext b
  apply Fin.ext
  match b with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    show List.idxOf (0 : Fin 1) d.scatterDimsToOperandDims = 0
    rw [hsd]; simp

/-- A vector scatter has no window axis: the window coordinate is zero. -/
private theorem window1 {N C : ℕ} (d : ScatterDims ⟨1, ![C]⟩ ⟨2, ![N, 1]⟩ ⟨1, ![N]⟩)
    (hiw : d.insertedWindowDims = [0]) (r : Fin N) :
    d.window (ix1 r) 0 = 0 := by
  have hk : (0 : Fin 1) ∉ d.sKept := by
    simp [ScatterDims.sKept, Shape.kept, hiw]
  unfold ScatterDims.window
  rw [dif_neg hk]

/-- Update `r` of a vector scatter lands on entry `c` exactly when its start row, read signed, is `c`. -/
private theorem result1_iff {N C w : ℕ} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1) (idx : IVec ⟨2, ![N, 1]⟩ w) (r : Fin N) (c : Fin C) :
    d.resultIdx? (ix1 r) idx = some (ix1 c) ↔ (idx (ix2 r (0 : Fin 1))).toInt = (c.val : ℤ) := by
  have hs := start1 d huw hsd hivd idx r
  have hw := window1 d hiw r
  unfold ScatterDims.resultIdx?
  constructor
  · intro h
    split at h
    · rename_i hall
      have h0 := congrFun (Option.some.inj h) 0
      have h1 : ((d.start (ix1 r) idx 0 + (d.window (ix1 r) 0 : ℤ)).toNat) = c.val := congrArg Fin.val h0
      have h2 := (hall 0).1
      rw [hs, hw] at h1 h2
      omega
    · exact absurd h (by simp)
  · intro h
    have hall : ∀ a, 0 ≤ d.start (ix1 r) idx a + d.window (ix1 r) a ∧ d.start (ix1 r) idx a + d.window (ix1 r) a < (⟨1, ![C]⟩ : Shape).size a := by
      intro a
      match a with
      | ⟨0, _⟩ =>
        show 0 ≤ d.start (ix1 r) idx 0 + d.window (ix1 r) 0 ∧ d.start (ix1 r) idx 0 + d.window (ix1 r) 0 < (C : ℤ)
        rw [hs, hw, h]
        have := c.isLt
        omega
    rw [dif_pos hall]
    congr 1
    funext a
    apply Fin.ext
    match a with
    | ⟨0, _⟩ =>
      show (d.start (ix1 r) idx 0 + (d.window (ix1 r) 0 : ℤ)).toNat = c.val
      rw [hs, hw, h]
      omega

/-- A rank-2 index read on an axis whose number is 0 is its first coordinate. -/
private theorem ix2_val0 {n0 n1 : ℕ} (a : Fin n0) (b : Fin n1) (i : Fin 2) (hi : i.val = 0) : (ix2 a b i).val = a.val := by
  match i, hi with
  | ⟨0, _⟩, _ => rfl
/-- … and on an axis whose number is 1, its second. -/
private theorem ix2_val1 {n0 n1 : ℕ} (a : Fin n0) (b : Fin n1) (i : Fin 2) (hi : i.val = 1) : (ix2 a b i).val = b.val := by
  match i, hi with
  | ⟨1, _⟩, _ => rfl

/-- The start row a row scatter reads for update `(r, b)`: the index column's entry `(r, 0)`, signed. -/
private theorem start2_zero {N C D w : ℕ} (d : ScatterDims ⟨2, ![C, D]⟩ ⟨2, ![N, 1]⟩ ⟨2, ![N, D]⟩)
    (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  have hus : ∀ a ∈ d.uScatter, a.val = 0 := by
    intro a ha
    have hna : a ∉ d.updateWindowDims := by
      have := (List.mem_filter.mp ha).2
      simpa using this
    rw [huw] at hna
    have h2 : a.val < 2 := a.isLt
    by_contra hne
    exact hna (List.mem_singleton.mpr (Fin.ext (by show a.val = 1; omega)))
  unfold ScatterDims.start
  rw [dif_pos hm]
  congr 2
  funext k
  apply Fin.ext
  match k with
  | ⟨0, _⟩ =>
    unfold ScatterDims.siIdx
    rw [dif_neg (by rw [hivd]; exact Nat.zero_ne_one)]
    unfold ScatterDims.siCoord
    simp only [Fin.val_cast]
    exact ix2_val0 r b _ (hus _ (List.getElem_mem _))
  | ⟨1, _⟩ =>
    unfold ScatterDims.siIdx
    rw [dif_pos (by rw [hivd])]
    show List.idxOf (0 : Fin 2) d.scatterDimsToOperandDims = 0
    rw [hsd]; simp

/-- The feature axis is not start-indexed. -/
private theorem start2_one {N C D w : ℕ} (d : ScatterDims ⟨2, ![C, D]⟩ ⟨2, ![N, 1]⟩ ⟨2, ![N, D]⟩)
    (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

/-- The row axis is inserted: its window coordinate is zero. -/
private theorem window2_zero {N C D : ℕ} (d : ScatterDims ⟨2, ![C, D]⟩ ⟨2, ![N, 1]⟩ ⟨2, ![N, D]⟩)
    (hiw : d.insertedWindowDims = [0]) (r : Fin N) (b : Fin D) :
    d.window (ix2 r b) 0 = 0 := by
  have hk : (0 : Fin 2) ∉ d.sKept := by
    simp [ScatterDims.sKept, Shape.kept, hiw]
  unfold ScatterDims.window
  rw [dif_neg hk]

/-- The feature axis is the one window axis: its window coordinate is the update's column. -/
private theorem window2_one {N C D : ℕ} (d : ScatterDims ⟨2, ![C, D]⟩ ⟨2, ![N, 1]⟩ ⟨2, ![N, D]⟩)
    (huw : d.updateWindowDims = [1]) (hiw : d.insertedWindowDims = [0]) (r : Fin N) (b : Fin D) :
    d.window (ix2 r b) 1 = b.val := by
  have hk : (1 : Fin 2) ∈ d.sKept := by
    simp [ScatterDims.sKept, Shape.kept, hiw]
  have huw1 : ∀ a ∈ d.updateWindowDims, a.val = 1 := by
    intro a ha; rw [huw] at ha; rw [List.mem_singleton.mp ha]; rfl
  unfold ScatterDims.window
  rw [dif_pos hk]
  exact ix2_val1 r b _ (huw1 _ (List.getElem_mem _))

/-- Update `(r, b)` of a row scatter lands on entry `(c, f)` exactly when its start row, read signed, is `c` and it
    keeps its column. -/
private theorem result2_iff {N C D w : ℕ} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1) (idx : IVec ⟨2, ![N, 1]⟩ w) (r : Fin N) (b : Fin D) (c : Fin C) (f : Fin D) :
    d.resultIdx? (ix2 r b) idx = some (ix2 c f) ↔ (idx (ix2 r (0 : Fin 1))).toInt = (c.val : ℤ) ∧ b = f := by
  have hs0 := start2_zero d huw hsd hivd idx r b
  have hs1 := start2_one d hsd idx r b
  have hw0 := window2_zero d hiw r b
  have hw1 := window2_one d huw hiw r b
  unfold ScatterDims.resultIdx?
  constructor
  · intro h
    split at h
    · rename_i hall
      have e := Option.some.inj h
      have h0 : ((d.start (ix2 r b) idx 0 + (d.window (ix2 r b) 0 : ℤ)).toNat) = c.val := congrArg Fin.val (congrFun e 0)
      have h1 : ((d.start (ix2 r b) idx 1 + (d.window (ix2 r b) 1 : ℤ)).toNat) = f.val := congrArg Fin.val (congrFun e 1)
      have h2 := (hall 0).1
      rw [hs0, hw0] at h0 h2
      rw [hs1, hw1] at h1
      exact ⟨by omega, Fin.ext (by omega)⟩
    · exact absurd h (by simp)
  · rintro ⟨h, rfl⟩
    have hall : ∀ a, 0 ≤ d.start (ix2 r b) idx a + d.window (ix2 r b) a
        ∧ d.start (ix2 r b) idx a + d.window (ix2 r b) a < (⟨2, ![C, D]⟩ : Shape).size a := by
      intro a
      match a with
      | ⟨0, _⟩ =>
        show 0 ≤ d.start (ix2 r b) idx 0 + d.window (ix2 r b) 0 ∧ d.start (ix2 r b) idx 0 + d.window (ix2 r b) 0 < (C : ℤ)
        rw [hs0, hw0, h]
        have := c.isLt
        omega
      | ⟨1, _⟩ =>
        show 0 ≤ d.start (ix2 r b) idx 1 + d.window (ix2 r b) 1 ∧ d.start (ix2 r b) idx 1 + d.window (ix2 r b) 1 < (D : ℤ)
        rw [hs1, hw1]
        have := b.isLt
        omega
    rw [dif_pos hall]
    congr 1
    funext a
    apply Fin.ext
    match a with
    | ⟨0, _⟩ =>
      show (d.start (ix2 r b) idx 0 + (d.window (ix2 r b) 0 : ℤ)).toNat = c.val
      rw [hs0, hw0, h]
      omega
    | ⟨1, _⟩ =>
      show (d.start (ix2 r b) idx 1 + (d.window (ix2 r b) 1 : ℤ)).toNat = b.val
      rw [hs1, hw1]
      omega

/-- The node count per graph, at least one, spread over the columns: the vector count made a column is the one-column
    matrix count. At `(g, q)` both are `max (0 + ∑ n, [node n's graph number is g] · 1) 1`. -/
private theorem cntCols_eq (a3 : IVec S200000 32) :
    K.cntCols a3 = Cert.ReferenceIdeal.Read.val_main_v119 (F := Ideal) a3 := by
  funext j
  obtain ⟨g, q, rfl⟩ : ∃ (g : Fin 8192) (q : Fin 128), j = ix2 g q := ⟨j 0, j 1, eq_ix2 j⟩
  have hi : Cert.ReferenceIdeal.Read.idx_main_v119 (ix2 g q) = ix2 g (0 : Fin 1) := by
    funext a
    match a with
    | ⟨0, _⟩ => rfl
    | ⟨1, _⟩ => rfl
  rw [Cert.ReferenceIdeal.Read.val_main_v119_apply, hi, Cert.ReferenceIdeal.Read.val_main_v118_apply]
  unfold K.cntCols
  refine (broadcastInDim_apply _ _ _ (ix2 g q) (ix2 g (0 : Fin 1)) (fun a => match a with
    | ⟨0, _⟩ => by show g.val = if (8192 : Nat) = 1 then 0 else g.val; rw [if_neg (by decide)]
    | ⟨1, _⟩ => by show 0 = if (1 : Nat) = 1 then 0 else q.val; rw [if_pos rfl])).trans ?_
  refine (broadcastInDim_apply _ _ _ (ix2 g (0 : Fin 1)) (ix1 g) (fun a => match a with
    | ⟨0, _⟩ => by show g.val = if (8192 : Nat) = 1 then 0 else g.val; rw [if_neg (by decide)])).trans ?_
  show FloatOps.maximumf _ _ = _
  unfold Cert.ReferenceIdeal.Read.val_main_v116
  rw [Cert.ClassStats.Scatter.scatter1_apply (N := 200000) (C := 8192) scatter_S8192_S200000x1_S200000_n_0_0_1 _ _ _ g
      (fun n => ((broadcastInDim S200000x1 ![0] bcast_S200000_S200000x1_0 a3) (ix2 n (0 : Fin 1))).toInt = (g.val : ℤ))
      (fun n => result1_iff _ rfl rfl rfl rfl _ n g)]
  rw [Cert.ClassStats.Scatter.scatter2_apply (N := 200000) (C := 8192) (D := 1)
      Cert.ReferenceIdeal.scatter_S8192x1_S200000x1_S200000x1_1_0_0_1 _ _ _ g (0 : Fin 1)
      (fun n => ((Cert.ReferenceIdeal.Read.val_main_v115 (F := Ideal) a3) (ix2 n (0 : Fin 1))).toInt = (g.val : ℤ))
      (fun n b => result2_iff _ rfl rfl rfl rfl _ n b g 0)]
  rfl

theorem pooled_eq (X : FVec Ideal S200000x128 .f32) (a3 : IVec S200000 32) :
    K.pooled X a3
      = Host.divf (Host.scatterAdd Cert.ReferenceIdeal.scatter_S8192x128_S200000x1_S200000x128_1_0_0_1
            (Cert.ReferenceIdeal.Read.val_main_v110 (F := Ideal)) (Cert.ReferenceIdeal.Read.val_main_v111 (F := Ideal) a3) X)
          (Cert.ReferenceIdeal.Read.val_main_v119 (F := Ideal) a3) := by
  unfold K.pooled
  rw [cntCols_eq a3]
  rfl

end Cert.Gnn.Bridge

end
-- ==== Proof.BridgeProj.lean ====
/-
  The projection, entry by entry, is the reference's two matrix products with bias rows and x · 1/(1 + e^(−x)) between them.
-/
import proofs.«414959_j88416196756193_1_alg».proof.Proof.KStages
import proofs.«414959_j88416196756193_1_alg».proof.Proof.Gen.ReferenceIdeal.Read
import Idealize.ShloMosaic.PureOps.Ideal.Laws
import Idealize.ShloMosaic.Lib.ValueLayout
import Idealize.ShloMosaic.Lib.IdealHost

noncomputable section

namespace Cert.Gnn.Bridge

open Idealize.ShloMosaic Idealize.ShloMosaic.ValueIdx
open Cert.KernelIdeal Cert.KernelIdeal.Facts₀ Cert.KernelIdeal.Facts Cert.Gnn

/-- The reference's pre-activation array. -/
def projT (G : FVec Ideal S8192x128 .f32) (a10 : FVec Ideal S128x128 .f32) (a11 : FVec Ideal S128 .f32) : FVec Ideal S8192x128 .f32 :=
  addf (Host.dotGeneral (φ₂ := .f32) Cert.ReferenceIdeal.dot_S8192x128_S128x128_S8192x128_1_0_0_1_n_n none G a10)
    (Cert.ReferenceIdeal.Read.val_main_v123 (F := Ideal) a11)

/-- The reference's projection chain on a pooled array. -/
def projRef (G : FVec Ideal S8192x128 .f32) (a10 : FVec Ideal S128x128 .f32) (a11 : FVec Ideal S128 .f32)
    (a12 : FVec Ideal S128x128 .f32) (a13 : FVec Ideal S128 .f32) : FVec Ideal S8192x128 .f32 :=
  addf (Host.dotGeneral (φ₂ := .f32) Cert.ReferenceIdeal.dot_S8192x128_S128x128_S8192x128_1_0_0_1_n_n none
      (mulf (projT G a10 a11)
        (Host.divf (Cert.ReferenceIdeal.Read.val_main_call8_v4 (F := Ideal))
          (addf (Cert.ReferenceIdeal.Read.val_main_call8_v2 (F := Ideal)) (Host.exp (Host.negf (projT G a10 a11))))))
      a12)
    (Cert.ReferenceIdeal.Read.val_main_v128 (F := Ideal) a13)

/-- An entry of the host's product of an 8192 × 128 array with a 128 × 128 array is the sum over the shared axis. -/
private theorem dot_at (A : FVec Ideal S8192x128 .f32) (B : FVec Ideal S128x128 .f32) (i : Fin 8192) (q : Fin 128) :
    Host.dotGeneral (φ₂ := .f32) Cert.ReferenceIdeal.dot_S8192x128_S128x128_S8192x128_1_0_0_1_n_n none A B (ix2 i q)
      = ∑ k : Fin 128, A (ix2 i k) * B (ix2 k q) := by
  simp only [Host.dotGeneral]
  rw [Ideal.dotGeneral_apply,
    ← Equiv.sum_comp (contrEquiv1 Cert.ReferenceIdeal.dot_S8192x128_S128x128_S8192x128_1_0_0_1_n_n 128 rfl rfl).symm]
  refine Finset.sum_congr rfl fun k _ => ?_
  have hk := contrEquiv1_symm_val Cert.ReferenceIdeal.dot_S8192x128_S128x128_S8192x128_1_0_0_1_n_n 128 rfl rfl k
  have el : Cert.ReferenceIdeal.dot_S8192x128_S128x128_S8192x128_1_0_0_1_n_n.lhsIdx (ix2 i q)
      ((contrEquiv1 Cert.ReferenceIdeal.dot_S8192x128_S128x128_S8192x128_1_0_0_1_n_n 128 rfl rfl).symm k) = ix2 i k :=
    funext fun a => Fin.ext (by
      match a with
      | ⟨0, _⟩ => exact Cert.ReferenceIdeal.Read.lhs_main_v121_0 _ _
      | ⟨1, _⟩ => exact (Cert.ReferenceIdeal.Read.lhs_main_v121_1 _ _).trans hk)
  have er : Cert.ReferenceIdeal.dot_S8192x128_S128x128_S8192x128_1_0_0_1_n_n.rhsIdx (ix2 i q)
      ((contrEquiv1 Cert.ReferenceIdeal.dot_S8192x128_S128x128_S8192x128_1_0_0_1_n_n 128 rfl rfl).symm k) = ix2 k q :=
    funext fun a => Fin.ext (by
      match a with
      | ⟨0, _⟩ => exact (Cert.ReferenceIdeal.Read.rhs_main_v121_0 _ _).trans hk
      | ⟨1, _⟩ => exact Cert.ReferenceIdeal.Read.rhs_main_v121_1 _ _)
  rw [el, er]

/-- The first bias, spread over all rows, reads the bias vector at the column. -/
private theorem bias1_at (a : FVec Ideal S128 .f32) (i : Fin 8192) (k : Fin 128) :
    Cert.ReferenceIdeal.Read.val_main_v123 (F := Ideal) a (ix2 i k) = a (ix1 k) := by
  rw [Cert.ReferenceIdeal.Read.val_main_v123_apply, Cert.ReferenceIdeal.Read.val_main_v122_apply]
  exact congrArg a (funext fun d => match d with | ⟨0, _⟩ => rfl)

/-- The second bias, spread over all rows, reads the bias vector at the column. -/
private theorem bias2_at (a : FVec Ideal S128 .f32) (i : Fin 8192) (k : Fin 128) :
    Cert.ReferenceIdeal.Read.val_main_v128 (F := Ideal) a (ix2 i k) = a (ix1 k) := by
  rw [Cert.ReferenceIdeal.Read.val_main_v128_apply, Cert.ReferenceIdeal.Read.val_main_v127_apply]
  exact congrArg a (funext fun d => match d with | ⟨0, _⟩ => rfl)

/-- A length-128 vector viewed as one row reads the vector at the column. -/
private theorem row_at (a : FVec Ideal S128 .f32) (k : Fin 128) :
    shapeCast S1x128 a shapeCasts_S128_S1x128 (ix2 (0 : Fin 1) k) = a (ix1 k) :=
  shapeCast_apply a shapeCasts_S128_S1x128 (ix2 (0 : Fin 1) k) (ix1 k)
    (by rw [Shape.rowMajor_val_one, Shape.rowMajor_val_two]; show k.val = 0 * 128 + k.val; omega)

/-- The two all-ones arrays read one everywhere. -/
private theorem ones2_at (j : S8192x128.Idx) : Cert.ReferenceIdeal.Read.val_main_call8_v2 (F := Ideal) j = 1 := by
  rw [Cert.ReferenceIdeal.Read.val_main_call8_v2_apply, Cert.ReferenceIdeal.Read.val_main_call8_cst_apply, Ideal.ofBits_def,
    Ideal.ofBits_one_f32]
private theorem ones4_at (j : S8192x128.Idx) : Cert.ReferenceIdeal.Read.val_main_call8_v4 (F := Ideal) j = 1 := by
  rw [Cert.ReferenceIdeal.Read.val_main_call8_v4_apply, Cert.ReferenceIdeal.Read.val_main_call8_cst_0_apply, Ideal.ofBits_def,
    Ideal.ofBits_one_f32]

/-- The reference's pre-activation array, entry by entry. -/
private theorem projT_at (G : FVec Ideal S8192x128 .f32) (a10 : FVec Ideal S128x128 .f32) (a11 : FVec Ideal S128 .f32)
    (i : Fin 8192) (k : Fin 128) :
    projT G a10 a11 (ix2 i k) = preact G a10 (shapeCast S1x128 a11 shapeCasts_S128_S1x128) i k := by
  unfold projT preact
  rw [addf_apply, dot_at, bias1_at, row_at]

theorem proj_eq (G : FVec Ideal S8192x128 .f32) (a10 a12 : FVec Ideal S128x128 .f32) (a11 a13 : FVec Ideal S128 .f32) :
    projRows G a10 (shapeCast S1x128 a11 shapeCasts_S128_S1x128) a12 (shapeCast S1x128 a13 shapeCasts_S128_S1x128)
      = projRef G a10 a11 a12 a13 := by
  funext j
  obtain ⟨i, q, rfl⟩ : ∃ (i : Fin 8192) (q : Fin 128), j = ix2 i q := ⟨j 0, j 1, eq_ix2 j⟩
  unfold projRef
  rw [addf_apply, dot_at, bias2_at]
  show (∑ k : Fin 128, silu (preact G a10 (shapeCast S1x128 a11 shapeCasts_S128_S1x128) i k) * a12 (ix2 k q))
      + shapeCast S1x128 a13 shapeCasts_S128_S1x128 (ix2 (0 : Fin 1) q) = _
  rw [row_at]
  refine congrArg (· + a13 (ix1 q)) (Finset.sum_congr rfl fun k _ => ?_)
  refine congrArg (· * a12 (ix2 k q)) ?_
  rw [mulf_apply, hostDivf_apply, addf_apply, ones4_at, ones2_at]
  show _ = projT G a10 a11 (ix2 i k) * Ideal.div 1 (1 + Ideal.exp (-(projT G a10 a11 (ix2 i k))))
  rw [projT_at]
  rfl

end Cert.Gnn.Bridge

end
-- ==== Proof.Assembly.lean ====
/-
  The kernel program's value is the reference's: the stages joined. Initial features agree; at each layer the guarded row read is the plain gather (every source index being a node number), the summed messages are then the same scatter, and the layer's dense part is the reference's two products; the per-graph means agree; the projections agree.
-/
import proofs.«414959_j88416196756193_1_alg».proof.Proof.KStages
import proofs.«414959_j88416196756193_1_alg».proof.Proof.BridgeEmbed
import proofs.«414959_j88416196756193_1_alg».proof.Proof.BridgeTake
import proofs.«414959_j88416196756193_1_alg».proof.Proof.BridgeMlp
import proofs.«414959_j88416196756193_1_alg».proof.Proof.BridgePool
import proofs.«414959_j88416196756193_1_alg».proof.Proof.BridgeProj
import proofs.«414959_j88416196756193_1_alg».proof.Proof.Gen.ReferenceIdeal.Read

noncomputable section

namespace Cert.Gnn.Bridge

open Idealize.ShloMosaic Idealize.ShloMosaic.ValueIdx
open Cert.KernelIdeal Cert.KernelIdeal.Facts₀ Cert.KernelIdeal.Facts Cert.Gnn

/-- Messages summed into destination nodes: the kernel program's scatter of its guarded reads is the reference's scatter of its gathers. -/
theorem agg_eq (a1 : IVec S2x400000 32) (h : SrcInRange a1) (X : FVec Ideal S200000x128 .f32) (E : FVec Ideal S400000x128 .f32) :
    K.agg X E a1
      = Host.scatterAdd Cert.ReferenceIdeal.scatter_S200000x128_S400000x1_S400000x128_1_0_0_1 (Cert.ReferenceIdeal.Read.val_main_v29 (F := Ideal))
          (Cert.ReferenceIdeal.Read.val_main_v30 (F := Ideal) a1)
          (maximumf (addf (Host.gather Cert.ReferenceIdeal.gather_S200000x128_S400000x1_S400000x128_1_0_n_n_0_1_1128 X
            (Cert.ReferenceIdeal.Read.val_main_v25 (F := Ideal) a1)) E) (Cert.ReferenceIdeal.Read.val_main_call2_v0 (F := Ideal))) := by
  unfold K.agg K.msg
  rw [take_eq a1 h X]
  rfl

/-- Node features after the first layer. -/
theorem x1_eq (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) (h : SrcInRange a1) :
    K.x1 a0 a1 a2 a4 a5 a6 a7 a8 a9 = Cert.ReferenceIdeal.Read.val_main_v49 (F := Ideal) a0 a1 a2 a4 a5 a6 a7 a8 a9 := by
  unfold K.x1
  rw [x0_eq, ae_eq, agg_eq a1 h, mlp0_eq]
  rfl

/-- Node features after the second layer. -/
theorem x2_eq (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) (h : SrcInRange a1) :
    K.x2 a0 a1 a2 a4 a5 a6 a7 a8 a9 = Cert.ReferenceIdeal.Read.val_main_v79 (F := Ideal) a0 a1 a2 a4 a5 a6 a7 a8 a9 := by
  unfold K.x2
  rw [x1_eq a0 a1 a2 a4 a5 a6 a7 a8 a9 h, ae_eq, agg_eq a1 h, mlp1_eq]
  rfl

/-- Node features after the third layer. -/
theorem x3_eq (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) (h : SrcInRange a1) :
    K.x3 a0 a1 a2 a4 a5 a6 a7 a8 a9 = Cert.ReferenceIdeal.Read.val_main_v109 (F := Ideal) a0 a1 a2 a4 a5 a6 a7 a8 a9 := by
  unfold K.x3
  rw [x2_eq a0 a1 a2 a4 a5 a6 a7 a8 a9 h, ae_eq, agg_eq a1 h, mlp2_eq]
  rfl

/-- The whole program: the kernel program's result is the reference's, as one function of the fourteen arguments. -/
theorem k_eq_ref (a0 : IVec S200000 32) (a1 : IVec S2x400000 32) (a2 : IVec S400000 32) (a4 : FVec Ideal S120x128 .f32)
    (a5 : FVec Ideal S5x128 .f32) (a6 : FVec Ideal S3x128x128 .f32) (a7 : FVec Ideal S3x128 .f32)
    (a8 : FVec Ideal S3x128x128 .f32) (a9 : FVec Ideal S3x128 .f32) (a3 : IVec S200000 32) (a10 : FVec Ideal S128x128 .f32) (a11 : FVec Ideal S128 .f32)
    (a12 : FVec Ideal S128x128 .f32) (a13 : FVec Ideal S128 .f32) (h : SrcInRange a1) :
    K.out (K.x3 a0 a1 a2 a4 a5 a6 a7 a8 a9) a3 a10 a11 a12 a13
      = Cert.ReferenceIdeal.Read.val_main_v129 (F := Ideal) a0 a1 a2 a3 a4 a5 a6 a7 a8 a9 a10 a11 a12 a13 := by
  unfold K.out
  rw [x3_eq a0 a1 a2 a4 a5 a6 a7 a8 a9 h, pooled_eq, proj_eq]
  rfl

end Cert.Gnn.Bridge

end
-- ==== Proof.PreRange.lean ====
/-
  The precondition's last conjunct says every edge's source index is a node number.
-/
import proofs.«414959_j88416196756193_1_alg».proof.Defs
import proofs.«414959_j88416196756193_1_alg».proof.Proof.KStages
import proofs.«414959_j88416196756193_1_alg».proof.Proof.Gen.Pre_finite_inputs
import Idealize.ShloMosaic.Lib.ReduceAll
import Idealize.ShloMosaic.Lib.StableHlo.Predicate

noncomputable section

namespace Cert.Gnn

open Idealize.ShloMosaic Idealize.ShloMosaic.TcCoe Idealize.ShloMosaic.ValueIdx Idealize.SL.Sem

namespace PreRange

open Cert.Pre_finite_inputs

/-- A signed compare "x ≥ 0" that came out true says the word's signed value is non-negative. -/
private theorem sge_zero {x : BitVec 32} (h : IntOp.cmpi .sge x 0#32 = 1#1) : 0 ≤ x.toInt := by
  unfold IntOp.cmpi at h
  have h' := (StableHlo.Predicate.ofBool_eq_one_iff _).1 h
  simp only [BitVec.sle, decide_eq_true_eq] at h'
  have h0 : (0#32 : BitVec 32).toInt = 0 := by decide
  omega

/-- A signed compare "x < 200000" that came out true bounds the word's signed value. -/
private theorem slt_bound {x : BitVec 32} (h : IntOp.cmpi .slt x 200000#32 = 1#1) : x.toInt < 200000 := by
  unfold IntOp.cmpi at h
  have h' := (StableHlo.Predicate.ofBool_eq_one_iff _).1 h
  simp only [BitVec.slt, decide_eq_true_eq] at h'
  have h0 : (200000#32 : BitVec 32).toInt = 200000 := by decide
  omega

/-- Row 0 of the edge list, flattened to a vector, reads at position e the entry (0, e): the slice starts at the
    origin and a one-row rectangle has the row-major order of its row. -/
private theorem row0_read (a1 : IVec S2x400000 32) (hS : S2x400000.Slices ![0, 0] S1x400000)
    (hC : S1x400000.ShapeCasts S400000) (e : Fin 400000) :
    shapeCast S400000 (extractStridedSlice S1x400000 ![0, 0] a1 hS) hC (ix1 e) = a1 (ix2 (0 : Fin 2) e) := by
  have hk : Shape.reshapeEquiv hC (ix1 e) = ix2 (0 : Fin 1) e := by
    refine Shape.reshapeEquiv_eq_of_rowMajor hC ?_
    rw [Shape.rowMajor_val_two, Shape.rowMajor_val_one]
    show 0 * 400000 + e.val = e.val
    omega
  show extractStridedSlice S1x400000 ![0, 0] a1 hS (Shape.reshapeEquiv hC (ix1 e)) = _
  rw [hk]
  refine congrArg a1 (funext fun a => Fin.ext ?_)
  match a with
  | ⟨0, _⟩ => rfl
  | ⟨1, _⟩ => exact Nat.zero_add _

/-- The last part of the predicate: its final conjunct is the all-reduction, over the edges, of the conjunction of
    the two compares; so both compares hold at every edge. -/
private theorem part3_range (a1 : IVec S2x400000 32) (v48 : IVec S_ 1) (v50 : IVec S400000 32) (c18 : IVec S_ 32)
    (h : fn_part3 (F := Ideal) a1 v48 v50 c18 = fun _ => 1#1) (e : Fin 400000) :
    IntOp.cmpi .sge (v50 (ix1 e)) (c18 ix0) = 1#1 ∧ IntOp.cmpi .slt (a1 (ix2 (0 : Fin 2) e)) 200000#32 = 1#1 := by
  haveI : Subsingleton S_.Idx := ⟨fun a b => funext fun d => d.elim0⟩
  have h0 := congrFun h ix0
  obtain ⟨_, h2⟩ := IntOp.andi_eq_one.1 h0
  have h3 := Host.reduce_andi_all _ _ _ _ ix0 h2 (ix1 e)
  obtain ⟨h4, h5⟩ := IntOp.andi_eq_one.1 h3
  refine ⟨?_, ?_⟩
  · -- a broadcast scalar reads the scalar everywhere
    have hb : ∀ hB : S_.BroadcastsInDim S400000 (![] : Fin 0 → Fin S400000.rank),
        broadcastInDim S400000 ![] hB c18 (ix1 e) = c18 ix0 := fun hB => congrArg c18 (Subsingleton.elim _ _)
    have h4' : IntOp.cmpi .sge (v50 (ix1 e)) (broadcastInDim S400000 ![] Facts.bcast_S_S400000 c18 (ix1 e)) = 1#1 := h4
    rw [hb] at h4'
    exact h4'
  · have h5' : IntOp.cmpi .slt (shapeCast S400000 (extractStridedSlice S1x400000 ![0, 0] a1 Facts.slices_S2x400000_S1x400000_0_0)
        Facts.shapeCasts_S1x400000_S400000 (ix1 e)) 200000#32 = 1#1 := h5
    rw [row0_read] at h5'
    exact h5'

/-- The middle part hands the flattened row 0 and the constant 0 on to the last part. -/
private theorem part2_range (a1 : IVec S2x400000 32) (a11 : FVec Ideal S128 .f32) (a12 : FVec Ideal S128x128 .f32)
    (a13 : FVec Ideal S128 .f32) (v33 : IVec S_ 1)
    (h : fn_part2 (F := Ideal) a1 a11 a12 a13 v33 = fun _ => 1#1) : SrcInRange a1 := by
  intro e
  obtain ⟨h1, h2⟩ := part3_range a1 _ _ _ h e
  have h1' : IntOp.cmpi .sge (shapeCast S400000 (extractStridedSlice S1x400000 ![0, 0] a1 Facts.slices_S2x400000_S1x400000_0_0)
      Facts.shapeCasts_S1x400000_S400000 (ix1 e)) 0#32 = 1#1 := h1
  rw [row0_read] at h1'
  exact ⟨sge_zero h1', slt_bound h2⟩

/-- The first part ends in the call of the middle part. -/
private theorem part1_range (a1 : IVec S2x400000 32) (a8 : FVec Ideal S3x128x128 .f32) (a9 : FVec Ideal S3x128 .f32)
    (a10 : FVec Ideal S128x128 .f32) (a11 : FVec Ideal S128 .f32) (a12 : FVec Ideal S128x128 .f32)
    (a13 : FVec Ideal S128 .f32) (v13 : IVec S_ 1) (v16 : IVec S3x128 1)
    (h : fn_part1 (F := Ideal) a1 a8 a9 a10 a11 a12 a13 v13 v16 = fun _ => 1#1) : SrcInRange a1 :=
  part2_range a1 _ _ _ _ h

/-- The whole predicate ends in the call of the first part. -/
private theorem fn_range (a0 : IVec S200000 32) (a1 : IVec S2x400000 32) (a2 : IVec S400000 32) (a3 : IVec S200000 32)
    (a4 : FVec Ideal S120x128 .f32) (a5 : FVec Ideal S5x128 .f32) (a6 : FVec Ideal S3x128x128 .f32)
    (a7 : FVec Ideal S3x128 .f32) (a8 : FVec Ideal S3x128x128 .f32) (a9 : FVec Ideal S3x128 .f32)
    (a10 : FVec Ideal S128x128 .f32) (a11 : FVec Ideal S128 .f32) (a12 : FVec Ideal S128x128 .f32)
    (a13 : FVec Ideal S128 .f32)
    (h : fn (F := Ideal) a0 a1 a2 a3 a4 a5 a6 a7 a8 a9 a10 a11 a12 a13 = fun _ => 1#1) : SrcInRange a1 :=
  part1_range a1 _ _ _ _ _ _ _ _ h

end PreRange

theorem srcInRange_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    SrcInRange (m ((c.tc : Thread Cert.KernelIdeal.nD Cert.KernelIdeal.τ).loc Cert.KernelIdeal.main_arg1)) :=
  PreRange.fn_range _ _ _ _ _ _ _ _ _ _ _ _ _ _ (h c)

end Cert.Gnn

end
-- ==== Proof.lean ====
/-
  A graph network's forward pass — atom and bond embeddings looked up by comparison against the row numbers, three
  message-passing layers (gather the source node's features along each edge, add the edge's features, take the positive
  part, sum into the destination node, then a two-matrix dense part with a positive part between), a per-graph mean and a
  two-matrix projection with x · σ(x) between — computed by six tiled kernels among host operations, against the plain
  array program. Over the extended reals the two are one function of the fourteen arguments, provided every edge's source
  index is a node number: outside that range the kernel program's gather reads a fill value where the array program's
  clamps the index.

  The three frames: the two kernel programs' are the generated frame certificates, the array program's is its run with
  the result dropped. The idealization rewrote nothing. The value claim: the kernel program's run, with the result
  buffer read in the final state, ends at the composed value of the six regions and the host operations between them;
  that value is the array program's result term, stage by stage.
-/
import proofs.«414959_j88416196756193_1_alg».proof.Defs
import proofs.«414959_j88416196756193_1_alg».proof.Proof.Gen.Kernel
import proofs.«414959_j88416196756193_1_alg».proof.Proof.Gen.Kernel.Skeleton
import proofs.«414959_j88416196756193_1_alg».proof.Proof.Gen.Kernel.Launch
import proofs.«414959_j88416196756193_1_alg».proof.Proof.Gen.Kernel.Points
import proofs.«414959_j88416196756193_1_alg».proof.Proof.Gen.Kernel.Frame
import proofs.«414959_j88416196756193_1_alg».proof.Proof.Gen.KernelIdeal
import proofs.«414959_j88416196756193_1_alg».proof.Proof.Gen.KernelIdeal.Skeleton
import proofs.«414959_j88416196756193_1_alg».proof.Proof.Gen.KernelIdeal.Launch
import proofs.«414959_j88416196756193_1_alg».proof.Proof.Gen.KernelIdeal.Points
import proofs.«414959_j88416196756193_1_alg».proof.Proof.Gen.KernelIdeal.Frame
import proofs.«414959_j88416196756193_1_alg».proof.Proof.Gen.ReferenceIdeal
import proofs.«414959_j88416196756193_1_alg».proof.Proof.Gen.Pre_finite_inputs
import proofs.«414959_j88416196756193_1_alg».proof.Proof.Gen.ReferenceIdeal.Run
import proofs.«414959_j88416196756193_1_alg».proof.Proof.Gen.ReferenceIdeal.Read
import proofs.«414959_j88416196756193_1_alg».proof.Proof.KernelRun
import proofs.«414959_j88416196756193_1_alg».proof.Proof.KValue
import proofs.«414959_j88416196756193_1_alg».proof.Proof.Assembly
import proofs.«414959_j88416196756193_1_alg».proof.Proof.PreRange
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments alone. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The array program runs and leaves its arguments alone: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments, both programs end with the array program's result term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v129 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.RunOut.run_out (F := Ideal) m ρ)
    rw [Cert.Gnn.Plumb.kValue m ρ c]
    exact Cert.Gnn.Bridge.k_eq_ref _ _ _ _ _ _ _ _ _ _ _ _ _ _ (Cert.Gnn.srcInRange_of_pre m hpre c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v129_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
